-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

abbrev nBuf : Space → Nat
  | .hbm => 18
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S_, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x1, .f32⟩
  | .local _ .vmem, ⟨5, _⟩ => ⟨S1x1, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x1, .f32⟩
  | .local _ .vmem, ⟨11, _⟩ => ⟨S1x1, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1x1, .f32⟩
  | .local _ .vmem, ⟨17, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v38 : BitVec 1 := Scalar.cmpi .eq arg0 c7_i32
  let arg1 : BitVec 32 := BitVec.ofNat 32 (i 1).val
  let c7_i32_16 : BitVec 32 := 7#32
  let v39 : BitVec 1 := Scalar.cmpi .eq arg1 c7_i32_16
  let v40 : BitVec 1 := Scalar.andi v38 v39
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v38 : BitVec 1 := Scalar.cmpi .eq arg0 c7_i32
  let arg1 : BitVec 32 := BitVec.ofNat 32 (i 1).val
  let c7_i32_16 : BitVec 32 := 7#32
  let v39 : BitVec 1 := Scalar.cmpi .eq arg1 c7_i32_16
  let v40 : BitVec 1 := Scalar.andi v38 v39
  let v41 : BitVec 32 := Scalar.extui v40
  let c0_i32_17 : BitVec 32 := 0#32
  let v42 : BitVec 1 := Scalar.cmpi .ne v41 c0_i32_17
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![8, 8], ![false, false]⟩

def k2_cond2 (i : grid2.Coords) : BitVec 1 :=
  let arg0 : BitVec 32 := BitVec.ofNat 32 (i 0).val
  let c7_i32 : BitVec 32 := 7#32
  let v38 : BitVec 1 := Scalar.cmpi .eq arg0 c7_i32
  let arg1 : BitVec 32 := BitVec.ofNat 32 (i 1).val
  let c7_i32_16 : BitVec 32 := 7#32
  let v39 : BitVec 1 := Scalar.cmpi .eq arg1 c7_i32_16
  let v40 : BitVec 1 := Scalar.andi v38 v39
  let v41 : BitVec 32 := Scalar.extui v40
  let c0_i32_17 : BitVec 32 := 0#32
  let v42 : BitVec 1 := Scalar.cmpi .ne v41 c0_i32_17
  v42

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  transposes_S1024x256_p1_0_S256x1024 : S1024x256.Transposes [1, 0] S256x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .f32 = 32 ∨ (Rect.block (s := S8192x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x256, .f32⟩
  | .hbm, ⟨31, _⟩ => ⟨S_, .f32⟩
  | .hbm, ⟨32, _⟩ => ⟨S8192, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S256x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x256, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S1x8192, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S256x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_15 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_16 : Ref sig .tc := ⟨.hbm, 76, rfl⟩
abbrev main_v57 : Ref sig .tc := ⟨.hbm, 77, rfl⟩
abbrev main_v58 : Ref sig .tc := ⟨.hbm, 78, rfl⟩
abbrev main_cst_17 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_18 : Ref sig .tc := ⟨.hbm, 83, rfl⟩
abbrev main_v62 : Ref sig .tc := ⟨.hbm, 84, rfl⟩
abbrev main_cst_19 : Ref sig .tc := ⟨.hbm, 85, rfl⟩
abbrev main_v63 : Ref sig .tc := ⟨.hbm, 86, rfl⟩
abbrev main_cst_20 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBody.lean ====
import proofs.«178194_j39135742001578_1_alg».proof.Proof.Gen.Kernel.Launch
import proofs.«178194_j39135742001578_1_alg».proof.Proof.Gen.Kernel.Skeleton
import proofs.«178194_j39135742001578_1_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # One grid point of the pairwise-kernel sum

The kernel function keeps a running 1×1 sum in its scratch operand: the first grid point zeroes it, every point adds
the sum over its 1024×1024 tile of `exp(γ · max(‖x_r‖² + ‖y_c‖² − 2⟨x_r, y_c⟩, 0))`, and the last point copies the total
into the output window. The three pallas_calls run the same function (on different operands), so the body is run once,
for the first call's function, over arbitrary whole memrefs; the other two calls' functions are that function. -/

/-- The second and third calls' kernel functions are the first call's. -/
theorem cc0_eq_cc0 : cc0__rbf_sum_kernel (F := F) = cc0__rbf_sum_kernel (F := F) := rfl
theorem cc1_eq_cc0 : cc1__rbf_sum_kernel (F := F) = cc0__rbf_sum_kernel (F := F) := rfl
theorem cc2_eq_cc0 : cc2__rbf_sum_kernel (F := F) = cc0__rbf_sum_kernel (F := F) := rfl

/-- The point is the grid's first: both coordinates zero (the condition under which the scratch is zeroed). -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The point is the grid's last: both coordinates seven (the condition under which the total is written out). -/
abbrev condLast (i : grid0.Coords) : Prop := k0_cond2 i = 1#1

theorem hcondFirst : ∀ t : Fin grid0.N, condFirst (grid0.coords t) ↔ t.val = 0 := by decide +kernel
theorem hcondLast : ∀ t : Fin grid0.N, condLast (grid0.coords t) ↔ t.val = 63 := by decide +kernel

/-- The 1×1 rectangle every access of the scratch and of the output window goes through, and the whole input tile. -/
abbrev r11 : Rect S1x1 := Rect.unit (s := S1x1) ![0, 0] S1x1.size inb_S1x1_S1x1_0_0
abbrev rTile : Rect S1024x256 := Rect.unit (s := S1024x256) ![0, 0] S1024x256.size inb_S1024x256_S1024x256_0_0

set_option maxHeartbeats 1000000 in
/-- FIRST POINT. The scratch is zeroed, then the tile's sum added; the output window is not touched. The pieces the
    scratch ends with are the run's own finds. -/
noncomputable def runFirst (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i)
    (x0 : Vec F S1024x256 .f32) (x1 : Vec F S1024x256 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, fun xo E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A MIDDLE POINT. The scratch, found at `xs`, has the tile's sum added; the output window is not touched. -/
noncomputable def runMid (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i)
    (x0 : Vec F S1024x256 .f32) (x1 : Vec F S1024x256 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, fun xo E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- THE LAST POINT. The scratch, found at `xs`, has the tile's sum added, and the total is stored into the output window. -/
noncomputable def runLast (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i)
    (x0 : Vec F S1024x256 .f32) (x1 : Vec F S1024x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-- What one point makes of the running sum: the kernel's arithmetic as one pure term of the two tiles and the sum found. -/
abbrev step (x0 x1 : Vec F S1024x256 .f32) (s : Vec F S1x1 .f32) : Vec F S1x1 .f32 := k0_pay2 x0 x1 s

theorem hz11 : (![0, 0] : Fin S1x1.rank → ℕ) = fun _ => 0 := by funext a; fin_cases a <;> rfl
theorem hzTile : (![0, 0] : Fin S1024x256.rank → ℕ) = fun _ => 0 := by funext a; fin_cases a <;> rfl

theorem coverFirst (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i) (x0 x1 : Vec F S1024x256 .f32) (y : S1x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1x1.size (by sl_kernel_rfl) y

/-- The first point leaves the tile's sum added to zero. -/
theorem first_val (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i) (x0 x1 : Vec F S1024x256 .f32)
    (v : View sig .tc .vmem S1x1 .f32) (f : v.ty.Contents (Elt F)) :
    v.read (Elt F) (v.writes (Elt F) f (runFirst c i arg2 harg2 arg3 harg3 arg4 harg4 arg5 harg5 hc0 hc1 x0 x1).1) = step x0 x1 k0_pay1 := by
  rw [View.read_writes_eq_canon _ _ _ (coverFirst c i arg2 harg2 arg3 harg3 arg4 harg4 arg5 harg5 hc0 hc1 x0 x1)]
  unfold runFirst; dsimp only; sl_unfold_words
  rw [View.canon_cons_unit_zero (S := S1x1) hz11, View.readCov_unit_zero (S := S1x1) _ hz11]
  simp only [View.readAt_eq_ld, harg2.read_unread, harg3.read_unread, View.ld_unit_zero (S := S1024x256) hzTile]

theorem coverMid (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i) (x0 x1 : Vec F S1024x256 .f32) (xs : Vec F S1x1 .f32) (y : S1x1.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1x1.size (by sl_kernel_rfl) y

/-- A middle point leaves the tile's sum added to what it found. -/
theorem mid_val (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i) (x0 x1 : Vec F S1024x256 .f32) (xs : Vec F S1x1 .f32)
    (v : View sig .tc .vmem S1x1 .f32) (f : v.ty.Contents (Elt F)) :
    v.read (Elt F) (v.writes (Elt F) f (runMid c i arg2 harg2 arg3 harg3 arg4 harg4 arg5 harg5 hc0 hc1 x0 x1 xs).1) = step x0 x1 xs := by
  rw [View.read_writes_eq_canon _ _ _ (coverMid c i arg2 harg2 arg3 harg3 arg4 harg4 arg5 harg5 hc0 hc1 x0 x1 xs)]
  unfold runMid; dsimp only; sl_unfold_words
  rw [View.canon_cons_unit_zero (S := S1x1) hz11]
  simp only [View.readAt_eq_ld, harg2.read_unread, harg3.read_unread, harg5.read_unread, View.ld_unit_zero (S := S1024x256) hzTile, View.ld_unit_zero (S := S1x1) hz11]

theorem coverLastS (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32) (y : S1x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1x1.size (by sl_kernel_rfl) y
theorem coverLastO (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32) (y : S1x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1.size (by sl_kernel_rfl) y

theorem last_valS (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32)
    (v : View sig .tc .vmem S1x1 .f32) (f : v.ty.Contents (Elt F)) :
    v.read (Elt F) (v.writes (Elt F) f (runLast c i arg2 harg2 arg3 harg3 arg4 harg4 arg5 harg5 hc0 hc1 x0 x1 xs).2.1) = step x0 x1 xs := by
  rw [View.read_writes_eq_canon _ _ _ (coverLastS c i arg2 harg2 arg3 harg3 arg4 harg4 arg5 harg5 hc0 hc1 x0 x1 xs)]
  unfold runLast; dsimp only; sl_unfold_words
  rw [View.canon_cons_unit_zero (S := S1x1) hz11]
  simp only [View.readAt_eq_ld, harg2.read_unread, harg3.read_unread, harg5.read_unread, View.ld_unit_zero (S := S1024x256) hzTile, View.ld_unit_zero (S := S1x1) hz11]
theorem last_valO (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32)
    (v : View sig .tc .vmem S1x1 .f32) (f : v.ty.Contents (Elt F)) :
    v.read (Elt F) (v.writes (Elt F) f (runLast c i arg2 harg2 arg3 harg3 arg4 harg4 arg5 harg5 hc0 hc1 x0 x1 xs).1) = step x0 x1 xs := by
  rw [View.read_writes_eq_canon _ _ _ (coverLastO c i arg2 harg2 arg3 harg3 arg4 harg4 arg5 harg5 hc0 hc1 x0 x1 xs)]
  unfold runLast; dsimp only; sl_unfold_words
  rw [View.canon_cons_unit_zero (S := S1x1) hz11, View.readCov_unit_zero (S := S1x1) _ hz11]
  simp only [View.readAt_eq_ld, harg2.read_unread, harg3.read_unread, harg5.read_unread, View.ld_unit_zero (S := S1024x256) hzTile, View.ld_unit_zero (S := S1x1) hz11]

/-! ## The three cases with the scratch's contents named -/

theorem sound_first (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i) (x0 x1 : Vec F S1024x256 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (step x0 x1 k0_pay1)) -∗ K ⟨⟩))
      ⊢ wp frame (wpE (defs₀ (F := F)) Variants.none c none) E (cc0__rbf_sum_kernel i arg2 harg2 arg3 harg3 arg4 harg4 arg5 harg5) K := by
  iintro ⟨H0, H1, H2, HS, Hk⟩
  iapply ((runFirst c i arg2 harg2 arg3 harg3 arg4 harg4 arg5 harg5 hc0 hc1 x0 x1).2 xo E K)
  isplitl [H0]; · iexact H0
  isplitl [H1]; · iexact H1
  isplitl [H2]; · iexact H2
  isplitl [HS]; · iexact HS
  iintro ⟨H0, H1, H2, ⟨%es, HS⟩⟩
  iapply Hk
  isplitl [H0]; · iexact H0
  isplitl [H1]; · iexact H1
  isplitl [H2]; · iexact H2
  unfold owns; iexists _; isplitr
  swap; · iexact HS
  ipureintro; exact first_val c i arg2 harg2 arg3 harg3 arg4 harg4 arg5 harg5 hc0 hc1 x0 x1 _ _

theorem sound_mid (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i) (x0 x1 : Vec F S1024x256 .f32) (xs xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step x0 x1 xs)) -∗ K ⟨⟩))
      ⊢ wp frame (wpE (defs₀ (F := F)) Variants.none c none) E (cc0__rbf_sum_kernel i arg2 harg2 arg3 harg3 arg4 harg4 arg5 harg5) K := by
  iintro ⟨H0, H1, H2, HS, Hk⟩
  iapply ((runMid c i arg2 harg2 arg3 harg3 arg4 harg4 arg5 harg5 hc0 hc1 x0 x1 xs).2 xo E K)
  isplitl [H0]; · iexact H0
  isplitl [H1]; · iexact H1
  isplitl [H2]; · iexact H2
  isplitl [HS]; · iexact HS
  iintro ⟨H0, H1, H2, ⟨%es, HS⟩⟩
  iapply Hk
  isplitl [H0]; · iexact H0
  isplitl [H1]; · iexact H1
  isplitl [H2]; · iexact H2
  unfold owns; iexists _; isplitr
  swap; · iexact HS
  ipureintro; exact mid_val c i arg2 harg2 arg3 harg3 arg4 harg4 arg5 harg5 hc0 hc1 x0 x1 xs _ _

theorem sound_last (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc0__rbf_sum_kernel i arg2 harg2 arg3 harg3 arg4 harg4 arg5 harg5) K := by
  iintro ⟨H0, H1, H2, HS, Hk⟩
  iapply ((runLast c i arg2 harg2 arg3 harg3 arg4 harg4 arg5 harg5 hc0 hc1 x0 x1 xs).2.2 E K)
  isplitl [H0]; · iexact H0
  isplitl [H1]; · iexact H1
  isplitl [H2]; · iexact H2
  isplitl [HS]; · iexact HS
  iintro ⟨H0, H1, ⟨%eo, H2⟩, ⟨%es, HS⟩⟩
  iapply Hk
  isplitl [H0]; · iexact H0
  isplitl [H1]; · iexact H1
  isplitl [H2]
  · unfold owns; iexists _; isplitr
    swap; · iexact H2
    ipureintro; exact last_valO c i arg2 harg2 arg3 harg3 arg4 harg4 arg5 harg5 hc0 hc1 x0 x1 xs _ _
  unfold owns; iexists _; isplitr
  swap; · iexact HS
  ipureintro; exact last_valS c i arg2 harg2 arg3 harg3 arg4 harg4 arg5 harg5 hc0 hc1 x0 x1 xs _ _

end Cert.Kernel.Rbf

end
-- ==== Proof.KRegion0.lean ====
import proofs.«178194_j39135742001578_1_alg».proof.Proof.KBody

set_option maxRecDepth 16384

noncomputable section

namespace Cert.Kernel.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # One of the three calls: its proof data and its body obligation

At a parameter `V`, the buffer contents the region is entered from. The running sum after point `n` is a recursion on the
point (`acc0`): the first point adds its tile's sum to zero, every later one to what the point before left. The scratch
carries it between points (the invariant names its contents after the first point); the output window is idle until
the last point, which stores the total into it. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two tiles at point `t`, at their literal type. -/
abbrev xt0 (c : Dev nD) (t : Fin cfg0.N) : Vec F S1024x256 .f32 := iblk0 V c 0 t
abbrev yt0 (c : Dev nD) (t : Fin cfg0.N) : Vec F S1024x256 .f32 := iblk0 V c 1 t

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The grid's closed forms at this call's configuration (the three calls' grids are one grid). -/
theorem hFirst0 (t : Fin cfg0.N) : condFirst (grid0.coords t) ↔ t.val = 0 := hcondFirst t
theorem hLast0 (t : Fin cfg0.N) : condLast (grid0.coords t) ↔ t.val = 63 := hcondLast t
theorem N0_eq : cfg0.N = 64 := N_0

/-- Where the windows are idle and where the output is written back. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, t.val ≠ 63 → cfg0.idle 2 (grid0.coords t) = true := by decide +kernel
theorem noFlush0_2 : ∀ t : Fin cfg0.N, t.val ≠ 63 → (cfg0.win 2).flush t = false := by decide +kernel
theorem live0_2 : ∀ t : Fin cfg0.N, t.val = 63 → cfg0.idle 2 (grid0.coords t) = false := by decide +kernel

/-- Each window's current staging memref at point `t`, as the pipeline passes it, and its wholeness; the scratch. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0

/-- THE RUNNING SUM after point `n`. -/
def acc0 (c : Dev nD) : (n : ℕ) → n < cfg0.N → Vec F S1x1 .f32
  | 0, hn => step (xt0 V c ⟨0, hn⟩) (yt0 V c ⟨0, hn⟩) k0_pay1
  | n + 1, hn => step (xt0 V c ⟨n + 1, hn⟩) (yt0 V c ⟨n + 1, hn⟩) (acc0 c n (Nat.lt_of_succ_lt hn))

theorem acc0_zero (c : Dev nD) (t : Fin cfg0.N) (h : t.val = 0) :
    acc0 V c t.val t.isLt = step (xt0 V c t) (yt0 V c t) k0_pay1 := by
  obtain ⟨n, hn⟩ := t; cases n with
  | zero => rfl
  | succ n => exact absurd h (Nat.succ_ne_zero n)
theorem acc0_pos (c : Dev nD) (t : Fin cfg0.N) (h : t.val ≠ 0) :
    acc0 V c t.val t.isLt = step (xt0 V c t) (yt0 V c t) (acc0 V c (t.val - 1) (Nat.lt_of_le_of_lt (Nat.sub_le _ _) t.isLt)) := by
  obtain ⟨n, hn⟩ := t; cases n with
  | zero => exact absurd rfl h
  | succ n => rfl

/-- The scoped buffers no window of this call stages, the scratch apart. -/
def others0 (c : Dev nD) : sProp 𝕄 := Pipeline.scopedRestBut (Ix := Unit) (Name := ℕ) (U := UR sig nD τ) (Lvl := ℕ) (Val := Elt F) spec0 c [cc0_scratch0]

/-- The class invariant with the scratch split off as a memref owned at some contents. -/
theorem PhiA0_eq (c : Dev nD) :
    (Pipeline.ΦA spec0 c : sProp 𝕄) = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [bigSepL_singleton, scM0, owns_whole]; try rfl

/-- The invariant before position `n`: before the first point the class's; afterwards the scratch at the running sum. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c n hn) ∗ others0 c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-- The proof data: the arrays as the region finds them; each input's buffer at its tile; the output's at the running
    sum; the invariant `Phi0`; the two inputs' shares `q0`, `q1` (halves when both read one array); nothing owed. -/
def dat0 (q0 q1 : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q w := match w with
    | ⟨0, _⟩ => q0
    | ⟨1, _⟩ => q1
    | ⟨2, _⟩ => fullShare
  owed _ := 0

variable (q0 q1 : PosShare TreeShare)

theorem A_eq0 (c : Dev nD) (w : Fin cfg0.W) : (dat0 V q0 q1 c).A w = V c (Pipeline.arrRef spec0 w) := by dsimp only [dat0]
theorem Phi0_castSucc (c : Dev nD) (t : Fin cfg0.N) :
    (dat0 V q0 q1 c).Φ t.castSucc = Phi0 V c t.val (Nat.le_of_lt t.isLt) := by
  dsimp only [dat0]; simp only [Fin.coe_castSucc]
theorem after0_0 (c : Dev nD) (t : Fin cfg0.N) : (dat0 V q0 q1 c).after 0 t = iblk0 V c 0 t := by dsimp only [dat0]
theorem after0_1 (c : Dev nD) (t : Fin cfg0.N) : (dat0 V q0 q1 c).after 1 t = iblk0 V c 1 t := by dsimp only [dat0]
theorem after0_2 (c : Dev nD) (t : Fin cfg0.N) : (dat0 V q0 q1 c).after 2 t = acc0 V c t.val t.isLt := by dsimp only [dat0]
theorem before0_0 (c : Dev nD) (t : Fin cfg0.N) (d) : (dat0 V q0 q1 c).before 0 t d = iblk0 V c 0 t :=
  before0_0_of V (dat0 V q0 q1 c) (A_eq0 V q0 q1 c 0) (after0_0 V q0 q1 c) t d
theorem before0_1 (c : Dev nD) (t : Fin cfg0.N) (d) : (dat0 V q0 q1 c).before 1 t d = iblk0 V c 1 t :=
  before0_1_of V (dat0 V q0 q1 c) (A_eq0 V q0 q1 c 1) (after0_1 V q0 q1 c) t d

/-- What the body is called with at point `t`, -/
def bodyPre0 (c : Dev nD) (t : Fin cfg0.N) : sProp 𝕄 :=
  iprop((dat0 V q0 q1 c).Φ t.castSucc ∗ (dat0 V q0 q1 c).owesAt () t.castSucc
    ∗ (∃ d, owns (c : Thread nD τ) (ms0_0 t) fullShare ((dat0 V q0 q1 c).before 0 t d))
    ∗ (∃ d, owns (c : Thread nD τ) (ms0_1 t) fullShare ((dat0 V q0 q1 c).before 1 t d))
    ∗ (∃ d, owns (c : Thread nD τ) (ms0_2 t) fullShare ((dat0 V q0 q1 c).before 2 t d)))

/-- and what it returns. -/
def bodyPost0 (c : Dev nD) (t : Fin cfg0.N) : sProp 𝕄 :=
  iprop((dat0 V q0 q1 c).Φ t.succ ∗ (dat0 V q0 q1 c).owesAt () t.succ
    ∗ (dat0 V q0 q1 c).leavesExact 0 t
    ∗ (dat0 V q0 q1 c).leavesExact 1 t
    ∗ (dat0 V q0 q1 c).leavesExact 2 t)

set_option maxHeartbeats 4800000 in
/-- The body at any point: the inputs' memrefs hold their tiles; the point is the first, a middle one or the last
    (the closed forms); the invariant hands over the scratch at the running sum so far and takes it back one tile on. -/
theorem sound_body0 (c : Dev nD) (t : Fin cfg0.N) :
    bodyPre0 V q0 q1 c t ⊢ wp frame (wpE (defs₀ (F := F)) Variants.none c none) Set.univ (bodyAt0 t) (fun _ => bodyPost0 V q0 q1 c t) := by
  unfold bodyPre0 bodyPost0 bodyAt0
  simp only [before0_0, before0_1]
  rw [show (dat0 V q0 q1 c).owesAt () t.succ = (dat0 V q0 q1 c).owesAt () t.castSucc from rfl]
  rw [show (dat0 V q0 q1 c).Φ t.succ = Phi0 V c (t.val + 1) t.isLt from rfl, Phi0_succ]
  rw [show (dat0 V q0 q1 c).leavesExact 0 t = owns (c : Thread nD τ) (ms0_0 t) fullShare ((dat0 V q0 q1 c).after 0 t) from by
    unfold Dat.leavesExact; rw [live0_0 t], after0_0]
  rw [show (dat0 V q0 q1 c).leavesExact 1 t = owns (c : Thread nD τ) (ms0_1 t) fullShare ((dat0 V q0 q1 c).after 1 t) from by
    unfold Dat.leavesExact; rw [live0_1 t], after0_1]
  (try rw [cc0_eq_cc0])
  have hN : t.val < 64 := lt_of_lt_of_eq t.isLt N0_eq
  by_cases hz : t.val = 0
  · -- the first point
    have hl : t.val ≠ 63 := by omega
    rw [Dat.leavesExact_idle (dat0 V q0 q1 c) 2 t (idle0_2 t hl) (noFlush0_2 t hl)]
    rw [acc0_zero V c t hz, Phi0_castSucc V q0 q1 c t, Phi0_zero V c _ _ hz, PhiA0_eq]
    iintro ⟨⟨⟨HS, Hoth⟩, Hg⟩, Ho, ⟨%d0, H0⟩, ⟨%d1, H1⟩, ⟨%d2, H2⟩⟩
    iapply (sound_first c (grid0.coords t) (ms0_0 t) (hs0_0 t) (ms0_1 t) (hs0_1 t) (ms0_2 t) (hs0_2 t) scM0 (Memref.isWhole_whole _) ((hFirst0 t).mpr hz) (fun h => hl ((hLast0 t).mp h)) (xt0 V c t) (yt0 V c t) _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · by_cases hl : t.val = 63
    · -- the last point
      rw [show (dat0 V q0 q1 c).leavesExact 2 t = owns (c : Thread nD τ) (ms0_2 t) fullShare ((dat0 V q0 q1 c).after 2 t) from by
        unfold Dat.leavesExact; rw [live0_2 t hl], after0_2]
      rw [acc0_pos V c t hz, Phi0_castSucc V q0 q1 c t, Phi0_pos V c _ _ hz]
      iintro ⟨⟨⟨HS, Hoth⟩, Hg⟩, Ho, ⟨%d0, H0⟩, ⟨%d1, H1⟩, ⟨%d2, H2⟩⟩
      iapply (sound_last c (grid0.coords t) (ms0_0 t) (hs0_0 t) (ms0_1 t) (hs0_1 t) (ms0_2 t) (hs0_2 t) scM0 (Memref.isWhole_whole _) (fun h => hz ((hFirst0 t).mp h)) ((hLast0 t).mpr hl) (xt0 V c t) (yt0 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      rw [Dat.leavesExact_idle (dat0 V q0 q1 c) 2 t (idle0_2 t hl) (noFlush0_2 t hl)]
      rw [acc0_pos V c t hz, Phi0_castSucc V q0 q1 c t, Phi0_pos V c _ _ hz]
      iintro ⟨⟨⟨HS, Hoth⟩, Hg⟩, Ho, ⟨%d0, H0⟩, ⟨%d1, H1⟩, ⟨%d2, H2⟩⟩
      iapply (sound_mid c (grid0.coords t) (ms0_0 t) (hs0_0 t) (ms0_1 t) (hs0_1 t) (ms0_2 t) (hs0_2 t) scM0 (Memref.isWhole_whole _) (fun h => hz ((hFirst0 t).mp h)) (fun h => hl ((hLast0 t).mp h)) (xt0 V c t) (yt0 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V q0 q1 c) (defs₀ (F := F)) Variants.none () Set.univ := fun t => by
  rw [bigSep_W0, bigSep_W0]
  exact sound_body0 V q0 q1 c t

/-- What the launch hands the region is the invariant before the first point; after the last point the invariant gives
    the class's back (the running sum's name forgotten). -/
theorem hin0 (c : Dev nD) : Pipeline.ΦA spec0 c ⊢ (dat0 V q0 q1 c).Φ 0 := by
  rw [show (dat0 V q0 q1 c).Φ 0 = Phi0 V c 0 (Nat.zero_le _) from rfl, Phi0_zero V c 0 _ rfl]
  try exact Idealize.SL.BI.Entails.refl _
theorem hout0 (c : Dev nD) : (dat0 V q0 q1 c).Φ (Fin.last cfg0.N) ⊢ Pipeline.ΦA spec0 c := by
  rw [show (dat0 V q0 q1 c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Region0

end Cert.Kernel.Rbf

end
-- ==== Proof.KRegion1.lean ====
import proofs.«178194_j39135742001578_1_alg».proof.Proof.KBody

set_option maxRecDepth 16384

noncomputable section

namespace Cert.Kernel.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # One of the three calls: its proof data and its body obligation

At a parameter `V`, the buffer contents the region is entered from. The running sum after point `n` is a recursion on the
point (`acc1`): the first point adds its tile's sum to zero, every later one to what the point before left. The scratch
carries it between points (the invariant names its contents after the first point); the output window is idle until
the last point, which stores the total into it. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two tiles at point `t`, at their literal type. -/
abbrev xt1 (c : Dev nD) (t : Fin cfg1.N) : Vec F S1024x256 .f32 := iblk1 V c 0 t
abbrev yt1 (c : Dev nD) (t : Fin cfg1.N) : Vec F S1024x256 .f32 := iblk1 V c 1 t

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The grid's closed forms at this call's configuration (the three calls' grids are one grid). -/
theorem hFirst1 (t : Fin cfg1.N) : condFirst (grid1.coords t) ↔ t.val = 0 := hcondFirst t
theorem hLast1 (t : Fin cfg1.N) : condLast (grid1.coords t) ↔ t.val = 63 := hcondLast t
theorem N1_eq : cfg1.N = 64 := N_1

/-- Where the windows are idle and where the output is written back. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, t.val ≠ 63 → cfg1.idle 2 (grid1.coords t) = true := by decide +kernel
theorem noFlush1_2 : ∀ t : Fin cfg1.N, t.val ≠ 63 → (cfg1.win 2).flush t = false := by decide +kernel
theorem live1_2 : ∀ t : Fin cfg1.N, t.val = 63 → cfg1.idle 2 (grid1.coords t) = false := by decide +kernel

/-- Each window's current staging memref at point `t`, as the pipeline passes it, and its wholeness; the scratch. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0

/-- THE RUNNING SUM after point `n`. -/
def acc1 (c : Dev nD) : (n : ℕ) → n < cfg1.N → Vec F S1x1 .f32
  | 0, hn => step (xt1 V c ⟨0, hn⟩) (yt1 V c ⟨0, hn⟩) k0_pay1
  | n + 1, hn => step (xt1 V c ⟨n + 1, hn⟩) (yt1 V c ⟨n + 1, hn⟩) (acc1 c n (Nat.lt_of_succ_lt hn))

theorem acc1_zero (c : Dev nD) (t : Fin cfg1.N) (h : t.val = 0) :
    acc1 V c t.val t.isLt = step (xt1 V c t) (yt1 V c t) k0_pay1 := by
  obtain ⟨n, hn⟩ := t; cases n with
  | zero => rfl
  | succ n => exact absurd h (Nat.succ_ne_zero n)
theorem acc1_pos (c : Dev nD) (t : Fin cfg1.N) (h : t.val ≠ 0) :
    acc1 V c t.val t.isLt = step (xt1 V c t) (yt1 V c t) (acc1 V c (t.val - 1) (Nat.lt_of_le_of_lt (Nat.sub_le _ _) t.isLt)) := by
  obtain ⟨n, hn⟩ := t; cases n with
  | zero => exact absurd rfl h
  | succ n => rfl

/-- The scoped buffers no window of this call stages, the scratch apart. -/
def others1 (c : Dev nD) : sProp 𝕄 := Pipeline.scopedRestBut (Ix := Unit) (Name := ℕ) (U := UR sig nD τ) (Lvl := ℕ) (Val := Elt F) spec1 c [cc1_scratch0]

/-- The class invariant with the scratch split off as a memref owned at some contents. -/
theorem PhiA1_eq (c : Dev nD) :
    (Pipeline.ΦA spec1 c : sProp 𝕄) = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [bigSepL_singleton, scM1, owns_whole]; try rfl

/-- The invariant before position `n`: before the first point the class's; afterwards the scratch at the running sum. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn) ∗ others1 c) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-- The proof data: the arrays as the region finds them; each input's buffer at its tile; the output's at the running
    sum; the invariant `Phi1`; the two inputs' shares `q0`, `q1` (halves when both read one array); nothing owed. -/
def dat1 (q0 q1 : PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q w := match w with
    | ⟨0, _⟩ => q0
    | ⟨1, _⟩ => q1
    | ⟨2, _⟩ => fullShare
  owed _ := 0

variable (q0 q1 : PosShare TreeShare)

theorem A_eq1 (c : Dev nD) (w : Fin cfg1.W) : (dat1 V q0 q1 c).A w = V c (Pipeline.arrRef spec1 w) := by dsimp only [dat1]
theorem Phi1_castSucc (c : Dev nD) (t : Fin cfg1.N) :
    (dat1 V q0 q1 c).Φ t.castSucc = Phi1 V c t.val (Nat.le_of_lt t.isLt) := by
  dsimp only [dat1]; simp only [Fin.coe_castSucc]
theorem after1_0 (c : Dev nD) (t : Fin cfg1.N) : (dat1 V q0 q1 c).after 0 t = iblk1 V c 0 t := by dsimp only [dat1]
theorem after1_1 (c : Dev nD) (t : Fin cfg1.N) : (dat1 V q0 q1 c).after 1 t = iblk1 V c 1 t := by dsimp only [dat1]
theorem after1_2 (c : Dev nD) (t : Fin cfg1.N) : (dat1 V q0 q1 c).after 2 t = acc1 V c t.val t.isLt := by dsimp only [dat1]
theorem before1_0 (c : Dev nD) (t : Fin cfg1.N) (d) : (dat1 V q0 q1 c).before 0 t d = iblk1 V c 0 t :=
  before1_0_of V (dat1 V q0 q1 c) (A_eq1 V q0 q1 c 0) (after1_0 V q0 q1 c) t d
theorem before1_1 (c : Dev nD) (t : Fin cfg1.N) (d) : (dat1 V q0 q1 c).before 1 t d = iblk1 V c 1 t :=
  before1_1_of V (dat1 V q0 q1 c) (A_eq1 V q0 q1 c 1) (after1_1 V q0 q1 c) t d

/-- What the body is called with at point `t`, -/
def bodyPre1 (c : Dev nD) (t : Fin cfg1.N) : sProp 𝕄 :=
  iprop((dat1 V q0 q1 c).Φ t.castSucc ∗ (dat1 V q0 q1 c).owesAt () t.castSucc
    ∗ (∃ d, owns (c : Thread nD τ) (ms1_0 t) fullShare ((dat1 V q0 q1 c).before 0 t d))
    ∗ (∃ d, owns (c : Thread nD τ) (ms1_1 t) fullShare ((dat1 V q0 q1 c).before 1 t d))
    ∗ (∃ d, owns (c : Thread nD τ) (ms1_2 t) fullShare ((dat1 V q0 q1 c).before 2 t d)))

/-- and what it returns. -/
def bodyPost1 (c : Dev nD) (t : Fin cfg1.N) : sProp 𝕄 :=
  iprop((dat1 V q0 q1 c).Φ t.succ ∗ (dat1 V q0 q1 c).owesAt () t.succ
    ∗ (dat1 V q0 q1 c).leavesExact 0 t
    ∗ (dat1 V q0 q1 c).leavesExact 1 t
    ∗ (dat1 V q0 q1 c).leavesExact 2 t)

set_option maxHeartbeats 4800000 in
/-- The body at any point: the inputs' memrefs hold their tiles; the point is the first, a middle one or the last
    (the closed forms); the invariant hands over the scratch at the running sum so far and takes it back one tile on. -/
theorem sound_body1 (c : Dev nD) (t : Fin cfg1.N) :
    bodyPre1 V q0 q1 c t ⊢ wp frame (wpE (defs₀ (F := F)) Variants.none c none) Set.univ (bodyAt1 t) (fun _ => bodyPost1 V q0 q1 c t) := by
  unfold bodyPre1 bodyPost1 bodyAt1
  simp only [before1_0, before1_1]
  rw [show (dat1 V q0 q1 c).owesAt () t.succ = (dat1 V q0 q1 c).owesAt () t.castSucc from rfl]
  rw [show (dat1 V q0 q1 c).Φ t.succ = Phi1 V c (t.val + 1) t.isLt from rfl, Phi1_succ]
  rw [show (dat1 V q0 q1 c).leavesExact 0 t = owns (c : Thread nD τ) (ms1_0 t) fullShare ((dat1 V q0 q1 c).after 0 t) from by
    unfold Dat.leavesExact; rw [live1_0 t], after1_0]
  rw [show (dat1 V q0 q1 c).leavesExact 1 t = owns (c : Thread nD τ) (ms1_1 t) fullShare ((dat1 V q0 q1 c).after 1 t) from by
    unfold Dat.leavesExact; rw [live1_1 t], after1_1]
  (try rw [cc1_eq_cc0])
  have hN : t.val < 64 := lt_of_lt_of_eq t.isLt N1_eq
  by_cases hz : t.val = 0
  · -- the first point
    have hl : t.val ≠ 63 := by omega
    rw [Dat.leavesExact_idle (dat1 V q0 q1 c) 2 t (idle1_2 t hl) (noFlush1_2 t hl)]
    rw [acc1_zero V c t hz, Phi1_castSucc V q0 q1 c t, Phi1_zero V c _ _ hz, PhiA1_eq]
    iintro ⟨⟨⟨HS, Hoth⟩, Hg⟩, Ho, ⟨%d0, H0⟩, ⟨%d1, H1⟩, ⟨%d2, H2⟩⟩
    iapply (sound_first c (grid1.coords t) (ms1_0 t) (hs1_0 t) (ms1_1 t) (hs1_1 t) (ms1_2 t) (hs1_2 t) scM1 (Memref.isWhole_whole _) ((hFirst1 t).mpr hz) (fun h => hl ((hLast1 t).mp h)) (xt1 V c t) (yt1 V c t) _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · by_cases hl : t.val = 63
    · -- the last point
      rw [show (dat1 V q0 q1 c).leavesExact 2 t = owns (c : Thread nD τ) (ms1_2 t) fullShare ((dat1 V q0 q1 c).after 2 t) from by
        unfold Dat.leavesExact; rw [live1_2 t hl], after1_2]
      rw [acc1_pos V c t hz, Phi1_castSucc V q0 q1 c t, Phi1_pos V c _ _ hz]
      iintro ⟨⟨⟨HS, Hoth⟩, Hg⟩, Ho, ⟨%d0, H0⟩, ⟨%d1, H1⟩, ⟨%d2, H2⟩⟩
      iapply (sound_last c (grid1.coords t) (ms1_0 t) (hs1_0 t) (ms1_1 t) (hs1_1 t) (ms1_2 t) (hs1_2 t) scM1 (Memref.isWhole_whole _) (fun h => hz ((hFirst1 t).mp h)) ((hLast1 t).mpr hl) (xt1 V c t) (yt1 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      rw [Dat.leavesExact_idle (dat1 V q0 q1 c) 2 t (idle1_2 t hl) (noFlush1_2 t hl)]
      rw [acc1_pos V c t hz, Phi1_castSucc V q0 q1 c t, Phi1_pos V c _ _ hz]
      iintro ⟨⟨⟨HS, Hoth⟩, Hg⟩, Ho, ⟨%d0, H0⟩, ⟨%d1, H1⟩, ⟨%d2, H2⟩⟩
      iapply (sound_mid c (grid1.coords t) (ms1_0 t) (hs1_0 t) (ms1_1 t) (hs1_1 t) (ms1_2 t) (hs1_2 t) scM1 (Memref.isWhole_whole _) (fun h => hz ((hFirst1 t).mp h)) (fun h => hl ((hLast1 t).mp h)) (xt1 V c t) (yt1 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V q0 q1 c) (defs₀ (F := F)) Variants.none () Set.univ := fun t => by
  rw [bigSep_W1, bigSep_W1]
  exact sound_body1 V q0 q1 c t

/-- What the launch hands the region is the invariant before the first point; after the last point the invariant gives
    the class's back (the running sum's name forgotten). -/
theorem hin1 (c : Dev nD) : Pipeline.ΦA spec1 c ⊢ (dat1 V q0 q1 c).Φ 0 := by
  rw [show (dat1 V q0 q1 c).Φ 0 = Phi1 V c 0 (Nat.zero_le _) from rfl, Phi1_zero V c 0 _ rfl]
  try exact Idealize.SL.BI.Entails.refl _
theorem hout1 (c : Dev nD) : (dat1 V q0 q1 c).Φ (Fin.last cfg1.N) ⊢ Pipeline.ΦA spec1 c := by
  rw [show (dat1 V q0 q1 c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  iintro ⟨⟨HS, Hoth⟩, Hg⟩
  isplitl [HS Hoth]
  · isplitl [HS]; · iexists _; iexact HS
    iexact Hoth
  iexact Hg

end Region1

end Cert.Kernel.Rbf

end
-- ==== Proof.KRegion2.lean ====
import proofs.«178194_j39135742001578_1_alg».proof.Proof.KBody

set_option maxRecDepth 16384

noncomputable section

namespace Cert.Kernel.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # One of the three calls: its proof data and its body obligation

At a parameter `V`, the buffer contents the region is entered from. The running sum after point `n` is a recursion on the
point (`acc2`): the first point adds its tile's sum to zero, every later one to what the point before left. The scratch
carries it between points (the invariant names its contents after the first point); the output window is idle until
the last point, which stores the total into it. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two tiles at point `t`, at their literal type. -/
abbrev xt2 (c : Dev nD) (t : Fin cfg2.N) : Vec F S1024x256 .f32 := iblk2 V c 0 t
abbrev yt2 (c : Dev nD) (t : Fin cfg2.N) : Vec F S1024x256 .f32 := iblk2 V c 1 t

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The grid's closed forms at this call's configuration (the three calls' grids are one grid). -/
theorem hFirst2 (t : Fin cfg2.N) : condFirst (grid2.coords t) ↔ t.val = 0 := hcondFirst t
theorem hLast2 (t : Fin cfg2.N) : condLast (grid2.coords t) ↔ t.val = 63 := hcondLast t
theorem N2_eq : cfg2.N = 64 := N_2

/-- Where the windows are idle and where the output is written back. -/
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, t.val ≠ 63 → cfg2.idle 2 (grid2.coords t) = true := by decide +kernel
theorem noFlush2_2 : ∀ t : Fin cfg2.N, t.val ≠ 63 → (cfg2.win 2).flush t = false := by decide +kernel
theorem live2_2 : ∀ t : Fin cfg2.N, t.val = 63 → cfg2.idle 2 (grid2.coords t) = false := by decide +kernel

/-- Each window's current staging memref at point `t`, as the pipeline passes it, and its wholeness; the scratch. -/
abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0

/-- THE RUNNING SUM after point `n`. -/
def acc2 (c : Dev nD) : (n : ℕ) → n < cfg2.N → Vec F S1x1 .f32
  | 0, hn => step (xt2 V c ⟨0, hn⟩) (yt2 V c ⟨0, hn⟩) k0_pay1
  | n + 1, hn => step (xt2 V c ⟨n + 1, hn⟩) (yt2 V c ⟨n + 1, hn⟩) (acc2 c n (Nat.lt_of_succ_lt hn))

theorem acc2_zero (c : Dev nD) (t : Fin cfg2.N) (h : t.val = 0) :
    acc2 V c t.val t.isLt = step (xt2 V c t) (yt2 V c t) k0_pay1 := by
  obtain ⟨n, hn⟩ := t; cases n with
  | zero => rfl
  | succ n => exact absurd h (Nat.succ_ne_zero n)
theorem acc2_pos (c : Dev nD) (t : Fin cfg2.N) (h : t.val ≠ 0) :
    acc2 V c t.val t.isLt = step (xt2 V c t) (yt2 V c t) (acc2 V c (t.val - 1) (Nat.lt_of_le_of_lt (Nat.sub_le _ _) t.isLt)) := by
  obtain ⟨n, hn⟩ := t; cases n with
  | zero => exact absurd rfl h
  | succ n => rfl

/-- The scoped buffers no window of this call stages, the scratch apart. -/
def others2 (c : Dev nD) : sProp 𝕄 := Pipeline.scopedRestBut (Ix := Unit) (Name := ℕ) (U := UR sig nD τ) (Lvl := ℕ) (Val := Elt F) spec2 c [cc2_scratch0]

/-- The class invariant with the scratch split off as a memref owned at some contents. -/
theorem PhiA2_eq (c : Dev nD) :
    (Pipeline.ΦA spec2 c : sProp 𝕄) = iprop(iprop((∃ d, owns (c : Thread nD τ) scM2 fullShare d) ∗ others2 c) ∗ (∃ r, prngReg c r)) := by
  unfold Pipeline.ΦA others2
  rw [Pipeline.scopedRest_split_of_list spec2 c [cc2_scratch0] (by decide) (by decide)]
  simp only [bigSepL_singleton, scM2, owns_whole]; try rfl

/-- The invariant before position `n`: before the first point the class's; afterwards the scratch at the running sum. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl
theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-- The proof data: the arrays as the region finds them; each input's buffer at its tile; the output's at the running
    sum; the invariant `Phi2`; the two inputs' shares `q0`, `q1` (halves when both read one array); nothing owed. -/
def dat2 (q0 q1 : PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q w := match w with
    | ⟨0, _⟩ => q0
    | ⟨1, _⟩ => q1
    | ⟨2, _⟩ => fullShare
  owed _ := 0

variable (q0 q1 : PosShare TreeShare)

theorem A_eq2 (c : Dev nD) (w : Fin cfg2.W) : (dat2 V q0 q1 c).A w = V c (Pipeline.arrRef spec2 w) := by dsimp only [dat2]
theorem Phi2_castSucc (c : Dev nD) (t : Fin cfg2.N) :
    (dat2 V q0 q1 c).Φ t.castSucc = Phi2 V c t.val (Nat.le_of_lt t.isLt) := by
  dsimp only [dat2]; simp only [Fin.coe_castSucc]
theorem after2_0 (c : Dev nD) (t : Fin cfg2.N) : (dat2 V q0 q1 c).after 0 t = iblk2 V c 0 t := by dsimp only [dat2]
theorem after2_1 (c : Dev nD) (t : Fin cfg2.N) : (dat2 V q0 q1 c).after 1 t = iblk2 V c 1 t := by dsimp only [dat2]
theorem after2_2 (c : Dev nD) (t : Fin cfg2.N) : (dat2 V q0 q1 c).after 2 t = acc2 V c t.val t.isLt := by dsimp only [dat2]
theorem before2_0 (c : Dev nD) (t : Fin cfg2.N) (d) : (dat2 V q0 q1 c).before 0 t d = iblk2 V c 0 t :=
  before2_0_of V (dat2 V q0 q1 c) (A_eq2 V q0 q1 c 0) (after2_0 V q0 q1 c) t d
theorem before2_1 (c : Dev nD) (t : Fin cfg2.N) (d) : (dat2 V q0 q1 c).before 1 t d = iblk2 V c 1 t :=
  before2_1_of V (dat2 V q0 q1 c) (A_eq2 V q0 q1 c 1) (after2_1 V q0 q1 c) t d

/-- What the body is called with at point `t`, -/
def bodyPre2 (c : Dev nD) (t : Fin cfg2.N) : sProp 𝕄 :=
  iprop((dat2 V q0 q1 c).Φ t.castSucc ∗ (dat2 V q0 q1 c).owesAt () t.castSucc
    ∗ (∃ d, owns (c : Thread nD τ) (ms2_0 t) fullShare ((dat2 V q0 q1 c).before 0 t d))
    ∗ (∃ d, owns (c : Thread nD τ) (ms2_1 t) fullShare ((dat2 V q0 q1 c).before 1 t d))
    ∗ (∃ d, owns (c : Thread nD τ) (ms2_2 t) fullShare ((dat2 V q0 q1 c).before 2 t d)))

/-- and what it returns. -/
def bodyPost2 (c : Dev nD) (t : Fin cfg2.N) : sProp 𝕄 :=
  iprop((dat2 V q0 q1 c).Φ t.succ ∗ (dat2 V q0 q1 c).owesAt () t.succ
    ∗ (dat2 V q0 q1 c).leavesExact 0 t
    ∗ (dat2 V q0 q1 c).leavesExact 1 t
    ∗ (dat2 V q0 q1 c).leavesExact 2 t)

set_option maxHeartbeats 4800000 in
/-- The body at any point: the inputs' memrefs hold their tiles; the point is the first, a middle one or the last
    (the closed forms); the invariant hands over the scratch at the running sum so far and takes it back one tile on. -/
theorem sound_body2 (c : Dev nD) (t : Fin cfg2.N) :
    bodyPre2 V q0 q1 c t ⊢ wp frame (wpE (defs₀ (F := F)) Variants.none c none) Set.univ (bodyAt2 t) (fun _ => bodyPost2 V q0 q1 c t) := by
  unfold bodyPre2 bodyPost2 bodyAt2
  simp only [before2_0, before2_1]
  rw [show (dat2 V q0 q1 c).owesAt () t.succ = (dat2 V q0 q1 c).owesAt () t.castSucc from rfl]
  rw [show (dat2 V q0 q1 c).Φ t.succ = Phi2 V c (t.val + 1) t.isLt from rfl, Phi2_succ]
  rw [show (dat2 V q0 q1 c).leavesExact 0 t = owns (c : Thread nD τ) (ms2_0 t) fullShare ((dat2 V q0 q1 c).after 0 t) from by
    unfold Dat.leavesExact; rw [live2_0 t], after2_0]
  rw [show (dat2 V q0 q1 c).leavesExact 1 t = owns (c : Thread nD τ) (ms2_1 t) fullShare ((dat2 V q0 q1 c).after 1 t) from by
    unfold Dat.leavesExact; rw [live2_1 t], after2_1]
  (try rw [cc2_eq_cc0])
  have hN : t.val < 64 := lt_of_lt_of_eq t.isLt N2_eq
  by_cases hz : t.val = 0
  · -- the first point
    have hl : t.val ≠ 63 := by omega
    rw [Dat.leavesExact_idle (dat2 V q0 q1 c) 2 t (idle2_2 t hl) (noFlush2_2 t hl)]
    rw [acc2_zero V c t hz, Phi2_castSucc V q0 q1 c t, Phi2_zero V c _ _ hz, PhiA2_eq]
    iintro ⟨⟨⟨HS, Hoth⟩, Hg⟩, Ho, ⟨%d0, H0⟩, ⟨%d1, H1⟩, ⟨%d2, H2⟩⟩
    iapply (sound_first c (grid2.coords t) (ms2_0 t) (hs2_0 t) (ms2_1 t) (hs2_1 t) (ms2_2 t) (hs2_2 t) scM2 (Memref.isWhole_whole _) ((hFirst2 t).mpr hz) (fun h => hl ((hLast2 t).mp h)) (xt2 V c t) (yt2 V c t) _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · by_cases hl : t.val = 63
    · -- the last point
      rw [show (dat2 V q0 q1 c).leavesExact 2 t = owns (c : Thread nD τ) (ms2_2 t) fullShare ((dat2 V q0 q1 c).after 2 t) from by
        unfold Dat.leavesExact; rw [live2_2 t hl], after2_2]
      rw [acc2_pos V c t hz, Phi2_castSucc V q0 q1 c t, Phi2_pos V c _ _ hz]
      iintro ⟨⟨⟨HS, Hoth⟩, Hg⟩, Ho, ⟨%d0, H0⟩, ⟨%d1, H1⟩, ⟨%d2, H2⟩⟩
      iapply (sound_last c (grid2.coords t) (ms2_0 t) (hs2_0 t) (ms2_1 t) (hs2_1 t) (ms2_2 t) (hs2_2 t) scM2 (Memref.isWhole_whole _) (fun h => hz ((hFirst2 t).mp h)) ((hLast2 t).mpr hl) (xt2 V c t) (yt2 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      rw [Dat.leavesExact_idle (dat2 V q0 q1 c) 2 t (idle2_2 t hl) (noFlush2_2 t hl)]
      rw [acc2_pos V c t hz, Phi2_castSucc V q0 q1 c t, Phi2_pos V c _ _ hz]
      iintro ⟨⟨⟨HS, Hoth⟩, Hg⟩, Ho, ⟨%d0, H0⟩, ⟨%d1, H1⟩, ⟨%d2, H2⟩⟩
      iapply (sound_mid c (grid2.coords t) (ms2_0 t) (hs2_0 t) (ms2_1 t) (hs2_1 t) (ms2_2 t) (hs2_2 t) scM2 (Memref.isWhole_whole _) (fun h => hz ((hFirst2 t).mp h)) (fun h => hl ((hLast2 t).mp h)) (xt2 V c t) (yt2 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V q0 q1 c) (defs₀ (F := F)) Variants.none () Set.univ := fun t => by
  rw [bigSep_W2, bigSep_W2]
  exact sound_body2 V q0 q1 c t

/-- What the launch hands the region is the invariant before the first point; after the last point the invariant gives
    the class's back (the running sum's name forgotten). -/
theorem hin2 (c : Dev nD) : Pipeline.ΦA spec2 c ⊢ (dat2 V q0 q1 c).Φ 0 := by
  rw [show (dat2 V q0 q1 c).Φ 0 = Phi2 V c 0 (Nat.zero_le _) from rfl, Phi2_zero V c 0 _ rfl]
  try exact Idealize.SL.BI.Entails.refl _
theorem hout2 (c : Dev nD) : (dat2 V q0 q1 c).Φ (Fin.last cfg2.N) ⊢ Pipeline.ΦA spec2 c := by
  rw [show (dat2 V q0 q1 c).Φ (Fin.last cfg2.N) = Phi2 V c (Fin.last cfg2.N).val (Nat.le_of_lt_succ (Fin.last cfg2.N).isLt) from rfl,
    Phi2_pos V c _ _ (by rw [Fin.val_last]; have : cfg2.N = 64 := N_2; omega), PhiA2_eq]
  iintro ⟨⟨HS, Hoth⟩, Hg⟩
  isplitl [HS Hoth]
  · isplitl [HS]; · iexists _; iexact HS
    iexact Hoth
  iexact Hg

end Region2

end Cert.Kernel.Rbf

end
-- ==== Proof.KShared.lean ====
import proofs.«178194_j39135742001578_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # A TensorCore's unscoped buffers around a call whose two input windows read one array

The first two pallas_calls hand one array to two input windows: both windows' arrays are the same whole buffer. At the
call's entry the core's unscoped buffers, each held whole at the full share, split into the buffers behind the window
arrays and the rest; the shared buffer's full share is then dealt to the two windows as its left and its right half
(a points-to at the full share is the two at its halves), and the output window's buffer goes over whole. At the exit
the two halves, at one contents, join back to the full share, and the rest, untouched by the call, is read at the
updated valuation, which agrees with the old one off the window arrays. Nothing here looks at what the buffers hold:
only at which buffers they are. -/

/-! ## custom_call 0: windows 0 and 1 read `main_arg0`, window 2 writes `main_v0` -/

/-- The buffers behind custom_call 0's three window arrays are two: `main_arg0` (windows 0 and 1) and `main_v0` (window 2). -/
theorem arrImage0 : Finset.univ.image (Pipeline.arrRef spec0) = [main_arg0, main_v0].toFinset := by decide

/-- Those two buffers, each whole at the full share at contents `V`. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] arrImage0 (by decide) _

/-- Windows 0 and 1 are inputs, held at the proof data's own shares; window 2 is the output, held at the full share. -/
theorem share0_0 (c : Dev nD) (dat : Dat τ (Elt F) Unit ℕ (UR sig nD τ) ℕ cfg0 c) : dat.share 0 = dat.q 0 := by
  unfold Dat.share
  exact if_neg (by decide)

theorem share0_1 (c : Dev nD) (dat : Dat τ (Elt F) Unit ℕ (UR sig nD τ) ℕ cfg0 c) : dat.share 1 = dat.q 1 := by
  unfold Dat.share
  exact if_neg (by decide)

theorem share0_2 (c : Dev nD) (dat : Dat τ (Elt F) Unit ℕ (UR sig nD τ) ℕ cfg0 c) : dat.share 2 = fullShare := by
  unfold Dat.share
  exact if_pos (by decide)

/-- A TensorCore's unscoped buffers at contents `V` are the two buffers behind the window arrays at `V` and the rest. -/
theorem entry_split0 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec0 c V ∗ Pipeline.unscopedRest (Ix := Unit) (Name := ℕ) (U := UR sig nD τ) (Lvl := ℕ) spec0 c V) :=
  Pipeline.unscopedBufs_split₀ cfgs 0 winFacts₀0.arr_unscoped c V

/-- The three window arrays at contents `G`, the two input windows holding the left and the right half of the full
    share: `main_arg0` whole at the left half at `G 0`, again whole at the right half at `G 1`, and `main_v0` whole at the
    full share at `G 2`. -/
theorem arrays0_eq (c : Dev nD) (dat : Dat τ (Elt F) Unit ℕ (UR sig nD τ) ℕ cfg0 c) (hq0 : dat.q 0 = fullShare.left) (hq1 : dat.q 1 = fullShare.right)
    (G : (w : Fin cfg0.W) → Buf (Elt F) ((cfg0.win w).arr.view.loc (c : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ, share0_0, share0_1, share0_2, hq0, hq1]

/-- ENTRY: a TensorCore's unscoped buffers at contents `V` are custom_call 0's window arrays at the proof data's entry
    contents — those being read off `V` — and the unscoped rest: `main_arg0`'s full share is dealt to windows 0 and 1 as
    its left and right halves, `main_v0` goes whole to window 2. -/
theorem entry_shared0 (c : Dev nD) (dat : Dat τ (Elt F) Unit ℕ (UR sig nD τ) ℕ cfg0 c) (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄) ⊢ iprop(dat.arrays (dat.arrAt · 0) ∗ Pipeline.unscopedRest (Ix := Unit) (Name := ℕ) (U := UR sig nD τ) (Lvl := ℕ) spec0 c V) := by
  rw [entry_split0, arrBufs0_eq, arrays0_eq c dat hq0 hq1]
  refine sep_mono ?_ .rfl
  rw [show dat.arrAt 0 0 = dat.A 0 from rfl, show dat.arrAt 1 0 = dat.A 1 from rfl, show dat.arrAt 2 0 = dat.A 2 from rfl, hA 0, hA 1, hA 2]
  iintro ⟨Ha, Hv⟩
  ihave Ha := (pointsTo_share (PosShare.mem_left_op_right fullShare)).1 $$ Ha
  icases Ha with ⟨Hl, Hr⟩
  isplitl [Hl]; · iexact Hl
  isplitl [Hr]; · iexact Hr
  iexact Hv

/-- EXIT: custom_call 0's window arrays at contents `F'` and the unscoped rest at `V` are the TensorCore's unscoped
    buffers at any valuation `V'` that has the arrays at `F'` and agrees with `V` off them: the two halves of `main_arg0`,
    both at `V' main_arg0`, join to its full share. -/
theorem exit_shared0 (c : Dev nD) (dat : Dat τ (Elt F) Unit ℕ (UR sig nD τ) ℕ cfg0 c) (hq0 : dat.q 0 = fullShare.left) (hq1 : dat.q 1 = fullShare.right)
    (V V' : (b : Ref sig .tc) → Buf (Elt F) ((c : Thread nD τ).loc b))
    (F' : (w : Fin cfg0.W) → Buf (Elt F) ((cfg0.win w).arr.view.loc (c : Thread nD τ)))
    (hF : ∀ w, F' w = V' (Pipeline.arrRef spec0 w)) (hrest : ∀ b, b ∉ Finset.univ.image (Pipeline.arrRef spec0) → V' b = V b) :
    iprop(dat.arrays F' ∗ Pipeline.unscopedRest (Ix := Unit) (Name := ℕ) (U := UR sig nD τ) (Lvl := ℕ) spec0 c V) ⊢ (unscopedBufs c V' : sProp 𝕄) := by
  rw [entry_split0, arrBufs0_eq, arrays0_eq c dat hq0 hq1, hF 0, hF 1, hF 2]
  refine sep_mono ?_ (Entails.of_eq ?_)
  · iintro ⟨Hl, Hr, Hv⟩
    isplitl [Hl Hr]
    · iapply (pointsTo_share (PosShare.mem_left_op_right fullShare)).2
      isplitl [Hl]; · iexact Hl
      iexact Hr
    iexact Hv
  · unfold Pipeline.unscopedRest
    exact bigSep_congr fun b hb => by rw [hrest b (Finset.mem_sdiff.mp hb).2]

/-! ## custom_call 1: windows 0 and 1 read `main_arg1`, window 2 writes `main_v2` -/

/-- The buffers behind custom_call 1's three window arrays are two: `main_arg1` (windows 0 and 1) and `main_v2` (window 2). -/
theorem arrImage1 : Finset.univ.image (Pipeline.arrRef spec1) = [main_arg1, main_v2].toFinset := by decide

/-- Those two buffers, each whole at the full share at contents `V`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)) := by
  unfold Pipeline.arrBufs
  exact bigSep_eq_bigSepL_of_eq [main_arg1, main_v2] arrImage1 (by decide) _

/-- Windows 0 and 1 are inputs, held at the proof data's own shares; window 2 is the output, held at the full share. -/
theorem share1_0 (c : Dev nD) (dat : Dat τ (Elt F) Unit ℕ (UR sig nD τ) ℕ cfg1 c) : dat.share 0 = dat.q 0 := by
  unfold Dat.share
  exact if_neg (by decide)

theorem share1_1 (c : Dev nD) (dat : Dat τ (Elt F) Unit ℕ (UR sig nD τ) ℕ cfg1 c) : dat.share 1 = dat.q 1 := by
  unfold Dat.share
  exact if_neg (by decide)

theorem share1_2 (c : Dev nD) (dat : Dat τ (Elt F) Unit ℕ (UR sig nD τ) ℕ cfg1 c) : dat.share 2 = fullShare := by
  unfold Dat.share
  exact if_pos (by decide)

/-- A TensorCore's unscoped buffers at contents `V` are the two buffers behind the window arrays at `V` and the rest. -/
theorem entry_split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V ∗ Pipeline.unscopedRest (Ix := Unit) (Name := ℕ) (U := UR sig nD τ) (Lvl := ℕ) spec1 c V) :=
  Pipeline.unscopedBufs_split₀ cfgs 1 winFacts₀1.arr_unscoped c V

/-- The three window arrays at contents `G`, the two input windows holding the left and the right half of the full
    share: `main_arg1` whole at the left half at `G 0`, again whole at the right half at `G 1`, and `main_v2` whole at the
    full share at `G 2`. -/
theorem arrays1_eq (c : Dev nD) (dat : Dat τ (Elt F) Unit ℕ (UR sig nD τ) ℕ cfg1 c) (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_arg1) ↦{fullShare.left} G 0) ∗ (((c : Thread nD τ).loc main_arg1) ↦{fullShare.right} G 1)
          ∗ (((c : Thread nD τ).loc main_v2) ↦{fullShare} G 2)) := by
  unfold Dat.arrays
  rw [bigSep_W1, (arr_whole1 0).set_eq_univ, (arr_whole1 2).set_eq_univ, share1_0, share1_1, share1_2, hq0, hq1]

/-- ENTRY: a TensorCore's unscoped buffers at contents `V` are custom_call 1's window arrays at the proof data's entry
    contents — those being read off `V` — and the unscoped rest: `main_arg1`'s full share is dealt to windows 0 and 1 as
    its left and right halves, `main_v2` goes whole to window 2. -/
theorem entry_shared1 (c : Dev nD) (dat : Dat τ (Elt F) Unit ℕ (UR sig nD τ) ℕ cfg1 c) (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest (Ix := Unit) (Name := ℕ) (U := UR sig nD τ) (Lvl := ℕ) spec1 c V) := by
  rw [entry_split1, arrBufs1_eq, arrays1_eq c dat hq0 hq1]
  refine sep_mono ?_ .rfl
  rw [show dat.arrAt 0 0 = dat.A 0 from rfl, show dat.arrAt 1 0 = dat.A 1 from rfl, show dat.arrAt 2 0 = dat.A 2 from rfl, hA 0, hA 1, hA 2]
  iintro ⟨Ha, Hv⟩
  ihave Ha := (pointsTo_share (PosShare.mem_left_op_right fullShare)).1 $$ Ha
  icases Ha with ⟨Hl, Hr⟩
  isplitl [Hl]; · iexact Hl
  isplitl [Hr]; · iexact Hr
  iexact Hv

/-- EXIT: custom_call 1's window arrays at contents `F'` and the unscoped rest at `V` are the TensorCore's unscoped
    buffers at any valuation `V'` that has the arrays at `F'` and agrees with `V` off them: the two halves of `main_arg1`,
    both at `V' main_arg1`, join to its full share. -/
theorem exit_shared1 (c : Dev nD) (dat : Dat τ (Elt F) Unit ℕ (UR sig nD τ) ℕ cfg1 c) (hq0 : dat.q 0 = fullShare.left) (hq1 : dat.q 1 = fullShare.right)
    (V V' : (b : Ref sig .tc) → Buf (Elt F) ((c : Thread nD τ).loc b))
    (F' : (w : Fin cfg1.W) → Buf (Elt F) ((cfg1.win w).arr.view.loc (c : Thread nD τ)))
    (hF : ∀ w, F' w = V' (Pipeline.arrRef spec1 w)) (hrest : ∀ b, b ∉ Finset.univ.image (Pipeline.arrRef spec1) → V' b = V b) :
    iprop(dat.arrays F' ∗ Pipeline.unscopedRest (Ix := Unit) (Name := ℕ) (U := UR sig nD τ) (Lvl := ℕ) spec1 c V) ⊢ (unscopedBufs c V' : sProp 𝕄) := by
  rw [entry_split1, arrBufs1_eq, arrays1_eq c dat hq0 hq1, hF 0, hF 1, hF 2]
  refine sep_mono ?_ (Entails.of_eq ?_)
  · iintro ⟨Hl, Hr, Hv⟩
    isplitl [Hl Hr]
    · iapply (pointsTo_share (PosShare.mem_left_op_right fullShare)).2
      isplitl [Hl]; · iexact Hl
      iexact Hr
    iexact Hv
  · unfold Pipeline.unscopedRest
    exact bigSep_congr fun b hb => by rw [hrest b (Finset.mem_sdiff.mp hb).2]

end Cert.Kernel.Rbf

end
-- ==== Proof.KMain.lean ====
import proofs.«178194_j39135742001578_1_alg».proof.Proof.KRegion0
import proofs.«178194_j39135742001578_1_alg».proof.Proof.KRegion1
import proofs.«178194_j39135742001578_1_alg».proof.Proof.KRegion2
import proofs.«178194_j39135742001578_1_alg».proof.Proof.KShared
import proofs.«178194_j39135742001578_1_alg».proof.Proof.Gen.Kernel.Regions
import Idealize.ShloMosaic.Lib.Pipeline.RegionsLoop

set_option maxRecDepth 16384

noncomputable section

namespace Cert.Kernel.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole program: three calls among host stretches

The buffer contents at every boundary of @main, a fold from the launch memory: a call changes its result array only, a
host stretch what its operations write. Every call's proof data at its entry contents; a region record per call over the
thread state "every unscoped buffer at the boundary's contents, the generator register at some state, nothing owed";
the launch over the six items; the final memory read against the last contents. -/

variable (m : (ℓ : Loc nD τ sig) → Buf (Elt F) ℓ)

/-- The halves of the full share: what two windows reading one array hold of it. -/
abbrev qL : PosShare TreeShare := fullShare.left
abbrev qR : PosShare TreeShare := fullShare.right

/-- Core `c`'s buffers at launch (call 0's entry). -/
abbrev W0 : Dev nD → Valuation τ sig (Elt F) := fun c b => m (c, b)
abbrev U0 : (c : Dev nD) → (b : Ref sig .tc) → Buf (Elt F) ((c : Thread nD τ).loc b) := fun c b => W0 m c b

/-- What call 0 leaves in its result array. -/
def o0 (c : Dev nD) : Buf (Elt F) ((c : Thread nD τ).loc main_v0) := (dat0 (U0 m) qL qR c).arrAt 2 cfg0.N
/-- At call 0's exit: its result array at what the call leaves, every other buffer as entered. -/
abbrev W1 : Dev nD → Valuation τ sig (Elt F) := fun c => Function.update (W0 m c) main_v0 (o0 m c)
abbrev U1 : (c : Dev nD) → (b : Ref sig .tc) → Buf (Elt F) ((c : Thread nD τ).loc b) := fun c b => W1 m c b
theorem W1_of_ne (c : Dev nD) (b : Ref sig .tc) (hb : b ≠ main_v0) : W1 m c (Proc.devRef .tc b) = W0 m c (Proc.devRef .tc b) := by
  simp only [W1, Function.update_of_ne (StableHlo.devRef_ne_of_ne hb : (Proc.devRef .tc b : DevRef τ sig) ≠ Proc.devRef .tc main_v0)]
theorem W1_self (c : Dev nD) : W1 m c (Proc.devRef .tc main_v0) = o0 m c := by
  simp only [W1, Function.update_self]
theorem hF0 (c : Dev nD) (w : Fin cfg0.W) : (dat0 (U0 m) qL qR c).arrAt w cfg0.N = U1 m c (Pipeline.arrRef spec0 w) := by
  match w with
  | ⟨0, _⟩ => exact ((dat0 (U0 m) qL qR c).arrAt_in 0 rfl _).trans ((A_eq0 (U0 m) qL qR c 0).trans (W1_of_ne m c _ (by decide)).symm)
  | ⟨1, _⟩ => exact ((dat0 (U0 m) qL qR c).arrAt_in 1 rfl _).trans ((A_eq0 (U0 m) qL qR c 1).trans (W1_of_ne m c _ (by decide)).symm)
  | ⟨2, _⟩ => exact (W1_self m c).symm
theorem hrest0 (c : Dev nD) : ∀ b, b ∉ Finset.univ.image (Pipeline.arrRef spec0) → U1 m c b = U0 m c b :=
  fun b hb => W1_of_ne m c b fun e => hb (Finset.mem_image.mpr ⟨2, Finset.mem_univ _, e.symm⟩)

/-- After the host stretch `hostOps1`. -/
abbrev W2 : Dev nD → Valuation τ sig (Elt F) := fun c => StableHlo.after hostOps1 (W1 m c)
abbrev U2 : (c : Dev nD) → (b : Ref sig .tc) → Buf (Elt F) ((c : Thread nD τ).loc b) := fun c b => W2 m c b
theorem W2_of (c : Dev nD) (r : Ref sig .tc) (h : r ∉ hostOps1_W) : W2 m c (Proc.devRef .tc r) = W1 m c (Proc.devRef .tc r) :=
  StableHlo.after_of_writes_sub hostOps1 _ hostOps1_writes h

/-- What call 1 leaves in its result array. -/
def o1 (c : Dev nD) : Buf (Elt F) ((c : Thread nD τ).loc main_v2) := (dat1 (U2 m) qL qR c).arrAt 2 cfg1.N
/-- At call 1's exit: its result array at what the call leaves, every other buffer as entered. -/
abbrev W3 : Dev nD → Valuation τ sig (Elt F) := fun c => Function.update (W2 m c) main_v2 (o1 m c)
abbrev U3 : (c : Dev nD) → (b : Ref sig .tc) → Buf (Elt F) ((c : Thread nD τ).loc b) := fun c b => W3 m c b
theorem W3_of_ne (c : Dev nD) (b : Ref sig .tc) (hb : b ≠ main_v2) : W3 m c (Proc.devRef .tc b) = W2 m c (Proc.devRef .tc b) := by
  simp only [W3, Function.update_of_ne (StableHlo.devRef_ne_of_ne hb : (Proc.devRef .tc b : DevRef τ sig) ≠ Proc.devRef .tc main_v2)]
theorem W3_self (c : Dev nD) : W3 m c (Proc.devRef .tc main_v2) = o1 m c := by
  simp only [W3, Function.update_self]
theorem hF1 (c : Dev nD) (w : Fin cfg1.W) : (dat1 (U2 m) qL qR c).arrAt w cfg1.N = U3 m c (Pipeline.arrRef spec1 w) := by
  match w with
  | ⟨0, _⟩ => exact ((dat1 (U2 m) qL qR c).arrAt_in 0 rfl _).trans ((A_eq1 (U2 m) qL qR c 0).trans (W3_of_ne m c _ (by decide)).symm)
  | ⟨1, _⟩ => exact ((dat1 (U2 m) qL qR c).arrAt_in 1 rfl _).trans ((A_eq1 (U2 m) qL qR c 1).trans (W3_of_ne m c _ (by decide)).symm)
  | ⟨2, _⟩ => exact (W3_self m c).symm
theorem hrest1 (c : Dev nD) : ∀ b, b ∉ Finset.univ.image (Pipeline.arrRef spec1) → U3 m c b = U2 m c b :=
  fun b hb => W3_of_ne m c b fun e => hb (Finset.mem_image.mpr ⟨2, Finset.mem_univ _, e.symm⟩)

/-- After the host stretch `hostOps2`. -/
abbrev W4 : Dev nD → Valuation τ sig (Elt F) := fun c => StableHlo.after hostOps2 (W3 m c)
abbrev U4 : (c : Dev nD) → (b : Ref sig .tc) → Buf (Elt F) ((c : Thread nD τ).loc b) := fun c b => W4 m c b
theorem W4_of (c : Dev nD) (r : Ref sig .tc) (h : r ∉ hostOps2_W) : W4 m c (Proc.devRef .tc r) = W3 m c (Proc.devRef .tc r) :=
  StableHlo.after_of_writes_sub hostOps2 _ hostOps2_writes h

/-- What call 2 leaves in its result array. -/
def o2 (c : Dev nD) : Buf (Elt F) ((c : Thread nD τ).loc main_v4) := (dat2 (U4 m) fullShare fullShare c).arrAt 2 cfg2.N
/-- At call 2's exit: its result array at what the call leaves, every other buffer as entered. -/
abbrev W5 : Dev nD → Valuation τ sig (Elt F) := fun c => Function.update (W4 m c) main_v4 (o2 m c)
abbrev U5 : (c : Dev nD) → (b : Ref sig .tc) → Buf (Elt F) ((c : Thread nD τ).loc b) := fun c b => W5 m c b
theorem W5_of_ne (c : Dev nD) (b : Ref sig .tc) (hb : b ≠ main_v4) : W5 m c (Proc.devRef .tc b) = W4 m c (Proc.devRef .tc b) := by
  simp only [W5, Function.update_of_ne (StableHlo.devRef_ne_of_ne hb : (Proc.devRef .tc b : DevRef τ sig) ≠ Proc.devRef .tc main_v4)]
theorem W5_self (c : Dev nD) : W5 m c (Proc.devRef .tc main_v4) = o2 m c := by
  simp only [W5, Function.update_self]
theorem hF2 (c : Dev nD) (w : Fin cfg2.W) : (dat2 (U4 m) fullShare fullShare c).arrAt w cfg2.N = U5 m c (Pipeline.arrRef spec2 w) := by
  match w with
  | ⟨0, _⟩ => exact ((dat2 (U4 m) fullShare fullShare c).arrAt_in 0 rfl _).trans ((A_eq2 (U4 m) fullShare fullShare c 0).trans (W5_of_ne m c _ (by decide)).symm)
  | ⟨1, _⟩ => exact ((dat2 (U4 m) fullShare fullShare c).arrAt_in 1 rfl _).trans ((A_eq2 (U4 m) fullShare fullShare c 1).trans (W5_of_ne m c _ (by decide)).symm)
  | ⟨2, _⟩ => exact (W5_self m c).symm
theorem hrest2 (c : Dev nD) : ∀ b, b ∉ Finset.univ.image (Pipeline.arrRef spec2) → U5 m c b = U4 m c b :=
  fun b hb => W5_of_ne m c b fun e => hb (Finset.mem_image.mpr ⟨2, Finset.mem_univ _, e.symm⟩)

/-- After the host stretch `hostOps3`. -/
abbrev W6 : Dev nD → Valuation τ sig (Elt F) := fun c => StableHlo.after hostOps3 (W5 m c)
abbrev U6 : (c : Dev nD) → (b : Ref sig .tc) → Buf (Elt F) ((c : Thread nD τ).loc b) := fun c b => W6 m c b
theorem W6_of (c : Dev nD) (r : Ref sig .tc) (h : r ∉ hostOps3_W) : W6 m c (Proc.devRef .tc r) = W5 m c (Proc.devRef .tc r) :=
  StableHlo.after_of_writes_sub hostOps3 _ hostOps3_writes h

/-- The arguments end as launched: no host operation and no call writes one. -/
theorem W6_main_arg0 (c : Dev nD) : W6 m c (Proc.devRef .tc main_arg0) = m ((c : Thread nD τ).loc main_arg0) :=
  (W6_of m c main_arg0 (by decide)).trans <| (W5_of_ne m c main_arg0 (by decide)).trans <| (W4_of m c main_arg0 (by decide)).trans <|
    (W3_of_ne m c main_arg0 (by decide)).trans <| (W2_of m c main_arg0 (by decide)).trans <| (W1_of_ne m c main_arg0 (by decide)).trans rfl
theorem W6_main_arg1 (c : Dev nD) : W6 m c (Proc.devRef .tc main_arg1) = m ((c : Thread nD τ).loc main_arg1) :=
  (W6_of m c main_arg1 (by decide)).trans <| (W5_of_ne m c main_arg1 (by decide)).trans <| (W4_of m c main_arg1 (by decide)).trans <|
    (W3_of_ne m c main_arg1 (by decide)).trans <| (W2_of m c main_arg1 (by decide)).trans <| (W1_of_ne m c main_arg1 (by decide)).trans rfl

/-! ## The proof data family and the thread state -/

/-- Every call's proof data, each at its entry contents — a literal match. -/
def pdats : (p : Fin 3) → (c : Dev nD) → Dat τ (Elt F) Unit ℕ (UR sig nD τ) ℕ (Pipeline.pin (pcfgs (F := F)) adm p) c
  | ⟨0, _⟩ => fun c => dat0 (U0 m) qL qR c
  | ⟨1, _⟩ => fun c => dat1 (U2 m) qL qR c
  | ⟨2, _⟩ => fun c => dat2 (U4 m) fullShare fullShare c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item: from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as items -/

set_option backward.isDefEq.respectTransparency.types false in
/-- CALL 0 over the thread state: entered from every unscoped buffer at `W0`, left at `W1`. Its arrays are split
    out of the unscoped buffers (the array its two inputs read dealt to them by halves) and put back at the exit contents; the generator
    register goes into the invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U0 m) qL qR c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := entry_shared0 c (pdats m 0 c) rfl rfl (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last (Pipeline.pin (pcfgs (F := F)) adm 0).N) ⊢ Pipeline.ΦA spec0 c from hout0 (U0 m) qL qR c).trans ?_
    unfold Pipeline.ΦA
    iintro ⟨Hr, Hp⟩
    isplitl [Hp]; · iexact Hp
    isplitr; · iempintro
    iexact Hr
  hexit c := by
    have hjoin := exit_shared0 c (pdats m 0 c) rfl rfl (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W2`, left at `W3`. Its arrays are split
    out of the unscoped buffers (the array its two inputs read dealt to them by halves) and put back at the exit contents; the generator
    register goes into the invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) qL qR c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry_shared1 c (pdats m 1 c) rfl rfl (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last (Pipeline.pin (pcfgs (F := F)) adm 1).N) ⊢ Pipeline.ΦA spec1 c from hout1 (U2 m) qL qR c).trans ?_
    unfold Pipeline.ΦA
    iintro ⟨Hr, Hp⟩
    isplitl [Hp]; · iexact Hp
    isplitr; · iempintro
    iexact Hr
  hexit c := by
    have hjoin := exit_shared1 c (pdats m 1 c) rfl rfl (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at `W4`, left at `W5`. Its arrays are split
    out of the unscoped buffers and put back at the exit contents; the generator
    register goes into the invariant and comes back; nothing is owed; the kernel has no semaphore of its own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (U4 m) fullShare fullShare c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun w => by fin_cases w <;> rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last (Pipeline.pin (pcfgs (F := F)) adm 2).N) ⊢ Pipeline.ΦA spec2 c from hout2 (U4 m) fullShare fullShare c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => by fin_cases w <;> rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    every final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => (show iprop(StableHlo.held (c : Thread nD τ) (Pipeline.ucRefs τ sig) (W6 m c) ∗ R c)
        ⊢ iprop(iprop(StableHlo.held (c : Thread nD τ) (Pipeline.ucRefs τ sig) (W6 m c) ∗ ∃ r, prngReg c r) ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W6_main_arg0 m c),
    (h c _ (mem_uc main_arg1 (by decide))).trans (W6_main_arg1 m c)⟩) (run_all m ρ)

end Cert.Kernel.Rbf

end
-- ==== Proof.KIBody.lean ====
import proofs.«178194_j39135742001578_1_alg».proof.Proof.Gen.KernelIdeal.Launch
import proofs.«178194_j39135742001578_1_alg».proof.Proof.Gen.KernelIdeal.Skeleton
import proofs.«178194_j39135742001578_1_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One grid point of the pairwise-kernel sum

The kernel function keeps a running 1×1 sum in its scratch operand: the first grid point zeroes it, every point adds
the sum over its 1024×1024 tile of `exp(γ · max(‖x_r‖² + ‖y_c‖² − 2⟨x_r, y_c⟩, 0))`, and the last point copies the total
into the output window. The three pallas_calls run the same function (on different operands), so the body is run once,
for the first call's function, over arbitrary whole memrefs; the other two calls' functions are that function. -/

/-- The second and third calls' kernel functions are the first call's. -/
theorem cc0_eq_cc0 : cc0__rbf_sum_kernel (F := F) = cc0__rbf_sum_kernel (F := F) := rfl
theorem cc1_eq_cc0 : cc1__rbf_sum_kernel (F := F) = cc0__rbf_sum_kernel (F := F) := rfl
theorem cc2_eq_cc0 : cc2__rbf_sum_kernel (F := F) = cc0__rbf_sum_kernel (F := F) := rfl

/-- The point is the grid's first: both coordinates zero (the condition under which the scratch is zeroed). -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The point is the grid's last: both coordinates seven (the condition under which the total is written out). -/
abbrev condLast (i : grid0.Coords) : Prop := k0_cond2 i = 1#1

theorem hcondFirst : ∀ t : Fin grid0.N, condFirst (grid0.coords t) ↔ t.val = 0 := by decide +kernel
theorem hcondLast : ∀ t : Fin grid0.N, condLast (grid0.coords t) ↔ t.val = 63 := by decide +kernel

/-- The 1×1 rectangle every access of the scratch and of the output window goes through, and the whole input tile. -/
abbrev r11 : Rect S1x1 := Rect.unit (s := S1x1) ![0, 0] S1x1.size inb_S1x1_S1x1_0_0
abbrev rTile : Rect S1024x256 := Rect.unit (s := S1024x256) ![0, 0] S1024x256.size inb_S1024x256_S1024x256_0_0

set_option maxHeartbeats 1000000 in
/-- FIRST POINT. The scratch is zeroed, then the tile's sum added; the output window is not touched. The pieces the
    scratch ends with are the run's own finds. -/
noncomputable def runFirst (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i)
    (x0 : Vec F S1024x256 .f32) (x1 : Vec F S1024x256 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, fun xo E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A MIDDLE POINT. The scratch, found at `xs`, has the tile's sum added; the output window is not touched. -/
noncomputable def runMid (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i)
    (x0 : Vec F S1024x256 .f32) (x1 : Vec F S1024x256 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, fun xo E K => ?run⟩
  case run =>
    simp only [cc0__rbf_sum_kernel_eq_skeleton]; unfold cc0__rbf_sum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- THE LAST POINT. The scratch, found at `xs`, has the tile's sum added, and the total is stored into the output window. -/
noncomputable def runLast (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i)
    (x0 : Vec F S1024x256 .f32) (x1 : Vec F S1024x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-- What one point makes of the running sum: the kernel's arithmetic as one pure term of the two tiles and the sum found. -/
abbrev step (x0 x1 : Vec F S1024x256 .f32) (s : Vec F S1x1 .f32) : Vec F S1x1 .f32 := k0_pay2 x0 x1 s

theorem hz11 : (![0, 0] : Fin S1x1.rank → ℕ) = fun _ => 0 := by funext a; fin_cases a <;> rfl
theorem hzTile : (![0, 0] : Fin S1024x256.rank → ℕ) = fun _ => 0 := by funext a; fin_cases a <;> rfl

theorem coverFirst (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i) (x0 x1 : Vec F S1024x256 .f32) (y : S1x1.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S1x1.size (by sl_kernel_rfl) y

/-- The first point leaves the tile's sum added to zero. -/
theorem first_val (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i) (x0 x1 : Vec F S1024x256 .f32)
    (v : View sig .tc .vmem S1x1 .f32) (f : v.ty.Contents (Elt F)) :
    v.read (Elt F) (v.writes (Elt F) f (runFirst c i arg2 harg2 arg3 harg3 arg4 harg4 arg5 harg5 hc0 hc1 x0 x1).1) = step x0 x1 k0_pay1 := by
  rw [View.read_writes_eq_canon _ _ _ (coverFirst c i arg2 harg2 arg3 harg3 arg4 harg4 arg5 harg5 hc0 hc1 x0 x1)]
  unfold runFirst; dsimp only; sl_unfold_words
  rw [View.canon_cons_unit_zero (S := S1x1) hz11, View.readCov_unit_zero (S := S1x1) _ hz11]
  simp only [View.readAt_eq_ld, harg2.read_unread, harg3.read_unread, View.ld_unit_zero (S := S1024x256) hzTile]

theorem coverMid (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i) (x0 x1 : Vec F S1024x256 .f32) (xs : Vec F S1x1 .f32) (y : S1x1.Idx) :
    ∃ pc ∈ (runMid c i arg2 harg2 arg3 harg3 arg4 harg4 arg5 harg5 hc0 hc1 x0 x1 xs).1, y ∈ pc.1.set :=
  View.cover_of_tiledL (runMid c i arg2 harg2 arg3 harg3 arg4 harg4 arg5 harg5 hc0 hc1 x0 x1 xs).1 S1x1.size (by sl_kernel_rfl) y

/-- A middle point leaves the tile's sum added to what it found. -/
theorem mid_val (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i) (x0 x1 : Vec F S1024x256 .f32) (xs : Vec F S1x1 .f32)
    (v : View sig .tc .vmem S1x1 .f32) (f : v.ty.Contents (Elt F)) :
    v.read (Elt F) (v.writes (Elt F) f (runMid c i arg2 harg2 arg3 harg3 arg4 harg4 arg5 harg5 hc0 hc1 x0 x1 xs).1) = step x0 x1 xs := by
  rw [View.read_writes_eq_canon _ _ _ (coverMid c i arg2 harg2 arg3 harg3 arg4 harg4 arg5 harg5 hc0 hc1 x0 x1 xs)]
  unfold runMid; dsimp only; sl_unfold_words
  rw [View.canon_cons_unit_zero (S := S1x1) hz11]
  simp only [View.readAt_eq_ld, harg2.read_unread, harg3.read_unread, harg5.read_unread, View.ld_unit_zero (S := S1024x256) hzTile, View.ld_unit_zero (S := S1x1) hz11]

theorem coverLastS (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32) (y : S1x1.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S1x1.size (by sl_kernel_rfl) y
theorem coverLastO (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32) (y : S1x1.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S1x1.size (by sl_kernel_rfl) y

theorem last_valS (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32)
    (v : View sig .tc .vmem S1x1 .f32) (f : v.ty.Contents (Elt F)) :
    v.read (Elt F) (v.writes (Elt F) f (runLast c i arg2 harg2 arg3 harg3 arg4 harg4 arg5 harg5 hc0 hc1 x0 x1 xs).2.1) = step x0 x1 xs := by
  rw [View.read_writes_eq_canon _ _ _ (coverLastS c i arg2 harg2 arg3 harg3 arg4 harg4 arg5 harg5 hc0 hc1 x0 x1 xs)]
  unfold runLast; dsimp only; sl_unfold_words
  rw [View.canon_cons_unit_zero (S := S1x1) hz11]
  simp only [View.readAt_eq_ld, harg2.read_unread, harg3.read_unread, harg5.read_unread, View.ld_unit_zero (S := S1024x256) hzTile, View.ld_unit_zero (S := S1x1) hz11]
theorem last_valO (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32)
    (v : View sig .tc .vmem S1x1 .f32) (f : v.ty.Contents (Elt F)) :
    v.read (Elt F) (v.writes (Elt F) f (runLast c i arg2 harg2 arg3 harg3 arg4 harg4 arg5 harg5 hc0 hc1 x0 x1 xs).1) = step x0 x1 xs := by
  rw [View.read_writes_eq_canon _ _ _ (coverLastO c i arg2 harg2 arg3 harg3 arg4 harg4 arg5 harg5 hc0 hc1 x0 x1 xs)]
  unfold runLast; dsimp only; sl_unfold_words
  rw [View.canon_cons_unit_zero (S := S1x1) hz11, View.readCov_unit_zero (S := S1x1) _ hz11]
  simp only [View.readAt_eq_ld, harg2.read_unread, harg3.read_unread, harg5.read_unread, View.ld_unit_zero (S := S1024x256) hzTile, View.ld_unit_zero (S := S1x1) hz11]

/-! ## The three cases with the scratch's contents named -/

theorem sound_first (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : condFirst i) (hc1 : ¬condLast i) (x0 x1 : Vec F S1024x256 .f32) (xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ (∃ d, owns (c : Thread nD τ) arg5 fullShare d)
        ∗ (iprop(owns (c : Thread nD τ) arg2 fullShare x0 ∗ owns (c : Thread nD τ) arg3 fullShare x1 ∗ owns (c : Thread nD τ) arg4 fullShare xo ∗ owns (c : Thread nD τ) arg5 fullShare (step x0 x1 k0_pay1)) -∗ K ⟨⟩))
      ⊢ wp frame (wpE (defs₀ (F := F)) Variants.none c none) E (cc0__rbf_sum_kernel i arg2 harg2 arg3 harg3 arg4 harg4 arg5 harg5) K := by
  iintro ⟨H0, H1, H2, HS, Hk⟩
  iapply ((runFirst c i arg2 harg2 arg3 harg3 arg4 harg4 arg5 harg5 hc0 hc1 x0 x1).2 xo E K)
  isplitl [H0]; · iexact H0
  isplitl [H1]; · iexact H1
  isplitl [H2]; · iexact H2
  isplitl [HS]; · iexact HS
  iintro ⟨H0, H1, H2, ⟨%es, HS⟩⟩
  iapply Hk
  isplitl [H0]; · iexact H0
  isplitl [H1]; · iexact H1
  isplitl [H2]; · iexact H2
  unfold owns; iexists _; isplitr
  swap; · iexact HS
  ipureintro; exact first_val c i arg2 harg2 arg3 harg3 arg4 harg4 arg5 harg5 hc0 hc1 x0 x1 _ _

theorem sound_mid (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : ¬condLast i) (x0 x1 : Vec F S1024x256 .f32) (xs xo : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare xo ∗ owns (c : Thread nD τ) arg5 fullShare xs
        ∗ (iprop(owns (c : Thread nD τ) arg2 fullShare x0 ∗ owns (c : Thread nD τ) arg3 fullShare x1 ∗ owns (c : Thread nD τ) arg4 fullShare xo ∗ owns (c : Thread nD τ) arg5 fullShare (step x0 x1 xs)) -∗ K ⟨⟩))
      ⊢ wp frame (wpE (defs₀ (F := F)) Variants.none c none) E (cc0__rbf_sum_kernel i arg2 harg2 arg3 harg3 arg4 harg4 arg5 harg5) K := by
  iintro ⟨H0, H1, H2, HS, Hk⟩
  iapply ((runMid c i arg2 harg2 arg3 harg3 arg4 harg4 arg5 harg5 hc0 hc1 x0 x1 xs).2 xo E K)
  isplitl [H0]; · iexact H0
  isplitl [H1]; · iexact H1
  isplitl [H2]; · iexact H2
  isplitl [HS]; · iexact HS
  iintro ⟨H0, H1, H2, ⟨%es, HS⟩⟩
  iapply Hk
  isplitl [H0]; · iexact H0
  isplitl [H1]; · iexact H1
  isplitl [H2]; · iexact H2
  unfold owns; iexists _; isplitr
  swap; · iexact HS
  ipureintro; exact mid_val c i arg2 harg2 arg3 harg3 arg4 harg4 arg5 harg5 hc0 hc1 x0 x1 xs _ _

theorem sound_last (c : Dev nD) (i : grid0.Coords) (arg2 : Memref sig .tc .vmem S1024x256 .f32) (harg2 : arg2.IsWhole) (arg3 : Memref sig .tc .vmem S1024x256 .f32) (harg3 : arg3.IsWhole)
    (arg4 : Memref sig .tc .vmem S1x1 .f32) (harg4 : arg4.IsWhole) (arg5 : Memref sig .tc .vmem S1x1 .f32) (harg5 : arg5.IsWhole) (hc0 : ¬condFirst i) (hc1 : condLast i) (x0 x1 : Vec F S1024x256 .f32) (xs : Vec F S1x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (step x0 x1 xs) ∗ owns (c : Thread nD τ) arg5 fullShare (step x0 x1 xs)) -∗ K ⟨⟩))
      ⊢ wp frame (wpE (defs₀ (F := F)) Variants.none c none) E (cc0__rbf_sum_kernel i arg2 harg2 arg3 harg3 arg4 harg4 arg5 harg5) K := by
  iintro ⟨H0, H1, H2, HS, Hk⟩
  iapply ((runLast c i arg2 harg2 arg3 harg3 arg4 harg4 arg5 harg5 hc0 hc1 x0 x1 xs).2.2 E K)
  isplitl [H0]; · iexact H0
  isplitl [H1]; · iexact H1
  isplitl [H2]; · iexact H2
  isplitl [HS]; · iexact HS
  iintro ⟨H0, H1, ⟨%eo, H2⟩, ⟨%es, HS⟩⟩
  iapply Hk
  isplitl [H0]; · iexact H0
  isplitl [H1]; · iexact H1
  isplitl [H2]
  · unfold owns; iexists _; isplitr
    swap; · iexact H2
    ipureintro; exact last_valO c i arg2 harg2 arg3 harg3 arg4 harg4 arg5 harg5 hc0 hc1 x0 x1 xs _ _
  unfold owns; iexists _; isplitr
  swap; · iexact HS
  ipureintro; exact last_valS c i arg2 harg2 arg3 harg3 arg4 harg4 arg5 harg5 hc0 hc1 x0 x1 xs _ _

end Cert.KernelIdeal.Rbf

end
-- ==== Proof.KIRegion0.lean ====
import proofs.«178194_j39135742001578_1_alg».proof.Proof.KIBody

set_option maxRecDepth 16384

noncomputable section

namespace Cert.KernelIdeal.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One of the three calls: its proof data and its body obligation

At a parameter `V`, the buffer contents the region is entered from. The running sum after point `n` is a recursion on the
point (`acc0`): the first point adds its tile's sum to zero, every later one to what the point before left. The scratch
carries it between points (the invariant names its contents after the first point); the output window is idle until
the last point, which stores the total into it. -/

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two tiles at point `t`, at their literal type. -/
abbrev xt0 (c : Dev nD) (t : Fin cfg0.N) : Vec F S1024x256 .f32 := iblk0 V c 0 t
abbrev yt0 (c : Dev nD) (t : Fin cfg0.N) : Vec F S1024x256 .f32 := iblk0 V c 1 t

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The grid's closed forms at this call's configuration (the three calls' grids are one grid). -/
theorem hFirst0 (t : Fin cfg0.N) : condFirst (grid0.coords t) ↔ t.val = 0 := hcondFirst t
theorem hLast0 (t : Fin cfg0.N) : condLast (grid0.coords t) ↔ t.val = 63 := hcondLast t
theorem N0_eq : cfg0.N = 64 := N_0

/-- Where the windows are idle and where the output is written back. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, t.val ≠ 63 → cfg0.idle 2 (grid0.coords t) = true := by decide +kernel
theorem noFlush0_2 : ∀ t : Fin cfg0.N, t.val ≠ 63 → (cfg0.win 2).flush t = false := by decide +kernel
theorem live0_2 : ∀ t : Fin cfg0.N, t.val = 63 → cfg0.idle 2 (grid0.coords t) = false := by decide +kernel

/-- Each window's current staging memref at point `t`, as the pipeline passes it, and its wholeness; the scratch. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0

/-- THE RUNNING SUM after point `n`. -/
def acc0 (c : Dev nD) : (n : ℕ) → n < cfg0.N → Vec F S1x1 .f32
  | 0, hn => step (xt0 V c ⟨0, hn⟩) (yt0 V c ⟨0, hn⟩) k0_pay1
  | n + 1, hn => step (xt0 V c ⟨n + 1, hn⟩) (yt0 V c ⟨n + 1, hn⟩) (acc0 c n (Nat.lt_of_succ_lt hn))

theorem acc0_zero (c : Dev nD) (t : Fin cfg0.N) (h : t.val = 0) :
    acc0 V c t.val t.isLt = step (xt0 V c t) (yt0 V c t) k0_pay1 := by
  obtain ⟨n, hn⟩ := t; cases n with
  | zero => rfl
  | succ n => exact absurd h (Nat.succ_ne_zero n)
theorem acc0_pos (c : Dev nD) (t : Fin cfg0.N) (h : t.val ≠ 0) :
    acc0 V c t.val t.isLt = step (xt0 V c t) (yt0 V c t) (acc0 V c (t.val - 1) (Nat.lt_of_le_of_lt (Nat.sub_le _ _) t.isLt)) := by
  obtain ⟨n, hn⟩ := t; cases n with
  | zero => exact absurd rfl h
  | succ n => rfl

/-- The scoped buffers no window of this call stages, the scratch apart. -/
def others0 (c : Dev nD) : sProp 𝕄 := Pipeline.scopedRestBut (Ix := Unit) (Name := ℕ) (U := UR sig nD τ) (Lvl := ℕ) (Val := Elt F) spec0 c [cc0_scratch0]

/-- The class invariant with the scratch split off as a memref owned at some contents. -/
theorem PhiA0_eq (c : Dev nD) :
    (Pipeline.ΦA spec0 c : sProp 𝕄) = iprop(iprop((∃ d, owns (c : Thread nD τ) scM0 fullShare d) ∗ others0 c) ∗ (∃ r, prngReg c r)) := by
  unfold Pipeline.ΦA others0
  rw [Pipeline.scopedRest_split_of_list spec0 c [cc0_scratch0] (by decide) (by decide)]
  simp only [bigSepL_singleton, scM0, owns_whole]; try rfl

/-- The invariant before position `n`: before the first point the class's; afterwards the scratch at the running sum. -/
def Phi0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(owns (c : Thread nD τ) scM0 fullShare (acc0 V c n hn) ∗ others0 c) ∗ (∃ r, prngReg c r)) := rfl
theorem Phi0_pos (c : Dev nD) (n : ℕ) (h : n ≤ cfg0.N) (hz : n ≠ 0) :
    Phi0 V c n h = iprop(iprop(owns (c : Thread nD τ) scM0 fullShare (acc0 V c (n - 1) (by omega)) ∗ others0 c) ∗ (∃ r, prngReg c r)) := by
  cases n with
  | zero => exact absurd rfl hz
  | succ n => rfl

/-- The proof data: the arrays as the region finds them; each input's buffer at its tile; the output's at the running
    sum; the invariant `Phi0`; the two inputs' shares `q0`, `q1` (halves when both read one array); nothing owed. -/
def dat0 (q0 q1 : PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q w := match w with
    | ⟨0, _⟩ => q0
    | ⟨1, _⟩ => q1
    | ⟨2, _⟩ => fullShare
  owed _ := 0

variable (q0 q1 : PosShare TreeShare)

theorem A_eq0 (c : Dev nD) (w : Fin cfg0.W) : (dat0 V q0 q1 c).A w = V c (Pipeline.arrRef spec0 w) := by dsimp only [dat0]
theorem Phi0_castSucc (c : Dev nD) (t : Fin cfg0.N) :
    (dat0 V q0 q1 c).Φ t.castSucc = Phi0 V c t.val (Nat.le_of_lt t.isLt) := by
  dsimp only [dat0]; simp only [Fin.coe_castSucc]
theorem after0_0 (c : Dev nD) (t : Fin cfg0.N) : (dat0 V q0 q1 c).after 0 t = iblk0 V c 0 t := by dsimp only [dat0]
theorem after0_1 (c : Dev nD) (t : Fin cfg0.N) : (dat0 V q0 q1 c).after 1 t = iblk0 V c 1 t := by dsimp only [dat0]
theorem after0_2 (c : Dev nD) (t : Fin cfg0.N) : (dat0 V q0 q1 c).after 2 t = acc0 V c t.val t.isLt := by dsimp only [dat0]
theorem before0_0 (c : Dev nD) (t : Fin cfg0.N) (d) : (dat0 V q0 q1 c).before 0 t d = iblk0 V c 0 t :=
  before0_0_of V (dat0 V q0 q1 c) (A_eq0 V q0 q1 c 0) (after0_0 V q0 q1 c) t d
theorem before0_1 (c : Dev nD) (t : Fin cfg0.N) (d) : (dat0 V q0 q1 c).before 1 t d = iblk0 V c 1 t :=
  before0_1_of V (dat0 V q0 q1 c) (A_eq0 V q0 q1 c 1) (after0_1 V q0 q1 c) t d

/-- What the body is called with at point `t`, -/
def bodyPre0 (c : Dev nD) (t : Fin cfg0.N) : sProp 𝕄 :=
  iprop((dat0 V q0 q1 c).Φ t.castSucc ∗ (dat0 V q0 q1 c).owesAt () t.castSucc
    ∗ (∃ d, owns (c : Thread nD τ) (ms0_0 t) fullShare ((dat0 V q0 q1 c).before 0 t d))
    ∗ (∃ d, owns (c : Thread nD τ) (ms0_1 t) fullShare ((dat0 V q0 q1 c).before 1 t d))
    ∗ (∃ d, owns (c : Thread nD τ) (ms0_2 t) fullShare ((dat0 V q0 q1 c).before 2 t d)))

/-- and what it returns. -/
def bodyPost0 (c : Dev nD) (t : Fin cfg0.N) : sProp 𝕄 :=
  iprop((dat0 V q0 q1 c).Φ t.succ ∗ (dat0 V q0 q1 c).owesAt () t.succ
    ∗ (dat0 V q0 q1 c).leavesExact 0 t
    ∗ (dat0 V q0 q1 c).leavesExact 1 t
    ∗ (dat0 V q0 q1 c).leavesExact 2 t)

set_option maxHeartbeats 4800000 in
/-- The body at any point: the inputs' memrefs hold their tiles; the point is the first, a middle one or the last
    (the closed forms); the invariant hands over the scratch at the running sum so far and takes it back one tile on. -/
theorem sound_body0 (c : Dev nD) (t : Fin cfg0.N) :
    bodyPre0 V q0 q1 c t ⊢ wp frame (wpE (defs₀ (F := F)) Variants.none c none) Set.univ (bodyAt0 t) (fun _ => bodyPost0 V q0 q1 c t) := by
  unfold bodyPre0 bodyPost0 bodyAt0
  simp only [before0_0, before0_1]
  rw [show (dat0 V q0 q1 c).owesAt () t.succ = (dat0 V q0 q1 c).owesAt () t.castSucc from rfl]
  rw [show (dat0 V q0 q1 c).Φ t.succ = Phi0 V c (t.val + 1) t.isLt from rfl, Phi0_succ]
  rw [show (dat0 V q0 q1 c).leavesExact 0 t = owns (c : Thread nD τ) (ms0_0 t) fullShare ((dat0 V q0 q1 c).after 0 t) from by
    unfold Dat.leavesExact; rw [live0_0 t], after0_0]
  rw [show (dat0 V q0 q1 c).leavesExact 1 t = owns (c : Thread nD τ) (ms0_1 t) fullShare ((dat0 V q0 q1 c).after 1 t) from by
    unfold Dat.leavesExact; rw [live0_1 t], after0_1]
  (try rw [cc0_eq_cc0])
  have hN : t.val < 64 := lt_of_lt_of_eq t.isLt N0_eq
  by_cases hz : t.val = 0
  · -- the first point
    have hl : t.val ≠ 63 := by omega
    rw [Dat.leavesExact_idle (dat0 V q0 q1 c) 2 t (idle0_2 t hl) (noFlush0_2 t hl)]
    rw [acc0_zero V c t hz, Phi0_castSucc V q0 q1 c t, Phi0_zero V c _ _ hz, PhiA0_eq]
    iintro ⟨⟨⟨HS, Hoth⟩, Hg⟩, Ho, ⟨%d0, H0⟩, ⟨%d1, H1⟩, ⟨%d2, H2⟩⟩
    iapply (sound_first c (grid0.coords t) (ms0_0 t) (hs0_0 t) (ms0_1 t) (hs0_1 t) (ms0_2 t) (hs0_2 t) scM0 (Memref.isWhole_whole _) ((hFirst0 t).mpr hz) (fun h => hl ((hLast0 t).mp h)) (xt0 V c t) (yt0 V c t) _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · by_cases hl : t.val = 63
    · -- the last point
      rw [show (dat0 V q0 q1 c).leavesExact 2 t = owns (c : Thread nD τ) (ms0_2 t) fullShare ((dat0 V q0 q1 c).after 2 t) from by
        unfold Dat.leavesExact; rw [live0_2 t hl], after0_2]
      rw [acc0_pos V c t hz, Phi0_castSucc V q0 q1 c t, Phi0_pos V c _ _ hz]
      iintro ⟨⟨⟨HS, Hoth⟩, Hg⟩, Ho, ⟨%d0, H0⟩, ⟨%d1, H1⟩, ⟨%d2, H2⟩⟩
      iapply (sound_last c (grid0.coords t) (ms0_0 t) (hs0_0 t) (ms0_1 t) (hs0_1 t) (ms0_2 t) (hs0_2 t) scM0 (Memref.isWhole_whole _) (fun h => hz ((hFirst0 t).mp h)) ((hLast0 t).mpr hl) (xt0 V c t) (yt0 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      rw [Dat.leavesExact_idle (dat0 V q0 q1 c) 2 t (idle0_2 t hl) (noFlush0_2 t hl)]
      rw [acc0_pos V c t hz, Phi0_castSucc V q0 q1 c t, Phi0_pos V c _ _ hz]
      iintro ⟨⟨⟨HS, Hoth⟩, Hg⟩, Ho, ⟨%d0, H0⟩, ⟨%d1, H1⟩, ⟨%d2, H2⟩⟩
      iapply (sound_mid c (grid0.coords t) (ms0_0 t) (hs0_0 t) (ms0_1 t) (hs0_1 t) (ms0_2 t) (hs0_2 t) scM0 (Memref.isWhole_whole _) (fun h => hz ((hFirst0 t).mp h)) (fun h => hl ((hLast0 t).mp h)) (xt0 V c t) (yt0 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V q0 q1 c) (defs₀ (F := F)) Variants.none () Set.univ := fun t => by
  rw [bigSep_W0, bigSep_W0]
  exact sound_body0 V q0 q1 c t

/-- What the launch hands the region is the invariant before the first point; after the last point the invariant gives
    the class's back (the running sum's name forgotten). -/
theorem hin0 (c : Dev nD) : Pipeline.ΦA spec0 c ⊢ (dat0 V q0 q1 c).Φ 0 := by
  rw [show (dat0 V q0 q1 c).Φ 0 = Phi0 V c 0 (Nat.zero_le _) from rfl, Phi0_zero V c 0 _ rfl]
  try exact Idealize.SL.BI.Entails.refl _
theorem hout0 (c : Dev nD) : (dat0 V q0 q1 c).Φ (Fin.last cfg0.N) ⊢ Pipeline.ΦA spec0 c := by
  rw [show (dat0 V q0 q1 c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, Hoth⟩, Hg⟩
  isplitl [HS Hoth]
  · isplitl [HS]; · iexists _; iexact HS
    iexact Hoth
  iexact Hg

end Region0

end Cert.KernelIdeal.Rbf

end
-- ==== Proof.KIRegion1.lean ====
import proofs.«178194_j39135742001578_1_alg».proof.Proof.KIBody

set_option maxRecDepth 16384

noncomputable section

namespace Cert.KernelIdeal.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One of the three calls: its proof data and its body obligation

At a parameter `V`, the buffer contents the region is entered from. The running sum after point `n` is a recursion on the
point (`acc1`): the first point adds its tile's sum to zero, every later one to what the point before left. The scratch
carries it between points (the invariant names its contents after the first point); the output window is idle until
the last point, which stores the total into it. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two tiles at point `t`, at their literal type. -/
abbrev xt1 (c : Dev nD) (t : Fin cfg1.N) : Vec F S1024x256 .f32 := iblk1 V c 0 t
abbrev yt1 (c : Dev nD) (t : Fin cfg1.N) : Vec F S1024x256 .f32 := iblk1 V c 1 t

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The grid's closed forms at this call's configuration (the three calls' grids are one grid). -/
theorem hFirst1 (t : Fin cfg1.N) : condFirst (grid1.coords t) ↔ t.val = 0 := hcondFirst t
theorem hLast1 (t : Fin cfg1.N) : condLast (grid1.coords t) ↔ t.val = 63 := hcondLast t
theorem N1_eq : cfg1.N = 64 := N_1

/-- Where the windows are idle and where the output is written back. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, t.val ≠ 63 → cfg1.idle 2 (grid1.coords t) = true := by decide +kernel
theorem noFlush1_2 : ∀ t : Fin cfg1.N, t.val ≠ 63 → (cfg1.win 2).flush t = false := by decide +kernel
theorem live1_2 : ∀ t : Fin cfg1.N, t.val = 63 → cfg1.idle 2 (grid1.coords t) = false := by decide +kernel

/-- Each window's current staging memref at point `t`, as the pipeline passes it, and its wholeness; the scratch. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0

/-- THE RUNNING SUM after point `n`. -/
def acc1 (c : Dev nD) : (n : ℕ) → n < cfg1.N → Vec F S1x1 .f32
  | 0, hn => step (xt1 V c ⟨0, hn⟩) (yt1 V c ⟨0, hn⟩) k0_pay1
  | n + 1, hn => step (xt1 V c ⟨n + 1, hn⟩) (yt1 V c ⟨n + 1, hn⟩) (acc1 c n (Nat.lt_of_succ_lt hn))

theorem acc1_zero (c : Dev nD) (t : Fin cfg1.N) (h : t.val = 0) :
    acc1 V c t.val t.isLt = step (xt1 V c t) (yt1 V c t) k0_pay1 := by
  obtain ⟨n, hn⟩ := t; cases n with
  | zero => rfl
  | succ n => exact absurd h (Nat.succ_ne_zero n)
theorem acc1_pos (c : Dev nD) (t : Fin cfg1.N) (h : t.val ≠ 0) :
    acc1 V c t.val t.isLt = step (xt1 V c t) (yt1 V c t) (acc1 V c (t.val - 1) (Nat.lt_of_le_of_lt (Nat.sub_le _ _) t.isLt)) := by
  obtain ⟨n, hn⟩ := t; cases n with
  | zero => exact absurd rfl h
  | succ n => rfl

/-- The scoped buffers no window of this call stages, the scratch apart. -/
def others1 (c : Dev nD) : sProp 𝕄 := Pipeline.scopedRestBut (Ix := Unit) (Name := ℕ) (U := UR sig nD τ) (Lvl := ℕ) (Val := Elt F) spec1 c [cc1_scratch0]

/-- The class invariant with the scratch split off as a memref owned at some contents. -/
theorem PhiA1_eq (c : Dev nD) :
    (Pipeline.ΦA spec1 c : sProp 𝕄) = iprop(iprop((∃ d, owns (c : Thread nD τ) scM1 fullShare d) ∗ others1 c) ∗ (∃ r, prngReg c r)) := by
  unfold Pipeline.ΦA others1
  rw [Pipeline.scopedRest_split_of_list spec1 c [cc1_scratch0] (by decide) (by decide)]
  simp only [bigSepL_singleton, scM1, owns_whole]; try rfl

/-- The invariant before position `n`: before the first point the class's; afterwards the scratch at the running sum. -/
def Phi1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(owns (c : Thread nD τ) scM1 fullShare (acc1 V c n hn) ∗ others1 c) ∗ (∃ r, prngReg c r)) := rfl
theorem Phi1_pos (c : Dev nD) (n : ℕ) (h : n ≤ cfg1.N) (hz : n ≠ 0) :
    Phi1 V c n h = iprop(iprop(owns (c : Thread nD τ) scM1 fullShare (acc1 V c (n - 1) (by omega)) ∗ others1 c) ∗ (∃ r, prngReg c r)) := by
  cases n with
  | zero => exact absurd rfl hz
  | succ n => rfl

/-- The proof data: the arrays as the region finds them; each input's buffer at its tile; the output's at the running
    sum; the invariant `Phi1`; the two inputs' shares `q0`, `q1` (halves when both read one array); nothing owed. -/
def dat1 (q0 q1 : PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q w := match w with
    | ⟨0, _⟩ => q0
    | ⟨1, _⟩ => q1
    | ⟨2, _⟩ => fullShare
  owed _ := 0

variable (q0 q1 : PosShare TreeShare)

theorem A_eq1 (c : Dev nD) (w : Fin cfg1.W) : (dat1 V q0 q1 c).A w = V c (Pipeline.arrRef spec1 w) := by dsimp only [dat1]
theorem Phi1_castSucc (c : Dev nD) (t : Fin cfg1.N) :
    (dat1 V q0 q1 c).Φ t.castSucc = Phi1 V c t.val (Nat.le_of_lt t.isLt) := by
  dsimp only [dat1]; simp only [Fin.coe_castSucc]
theorem after1_0 (c : Dev nD) (t : Fin cfg1.N) : (dat1 V q0 q1 c).after 0 t = iblk1 V c 0 t := by dsimp only [dat1]
theorem after1_1 (c : Dev nD) (t : Fin cfg1.N) : (dat1 V q0 q1 c).after 1 t = iblk1 V c 1 t := by dsimp only [dat1]
theorem after1_2 (c : Dev nD) (t : Fin cfg1.N) : (dat1 V q0 q1 c).after 2 t = acc1 V c t.val t.isLt := by dsimp only [dat1]
theorem before1_0 (c : Dev nD) (t : Fin cfg1.N) (d) : (dat1 V q0 q1 c).before 0 t d = iblk1 V c 0 t :=
  before1_0_of V (dat1 V q0 q1 c) (A_eq1 V q0 q1 c 0) (after1_0 V q0 q1 c) t d
theorem before1_1 (c : Dev nD) (t : Fin cfg1.N) (d) : (dat1 V q0 q1 c).before 1 t d = iblk1 V c 1 t :=
  before1_1_of V (dat1 V q0 q1 c) (A_eq1 V q0 q1 c 1) (after1_1 V q0 q1 c) t d

/-- What the body is called with at point `t`, -/
def bodyPre1 (c : Dev nD) (t : Fin cfg1.N) : sProp 𝕄 :=
  iprop((dat1 V q0 q1 c).Φ t.castSucc ∗ (dat1 V q0 q1 c).owesAt () t.castSucc
    ∗ (∃ d, owns (c : Thread nD τ) (ms1_0 t) fullShare ((dat1 V q0 q1 c).before 0 t d))
    ∗ (∃ d, owns (c : Thread nD τ) (ms1_1 t) fullShare ((dat1 V q0 q1 c).before 1 t d))
    ∗ (∃ d, owns (c : Thread nD τ) (ms1_2 t) fullShare ((dat1 V q0 q1 c).before 2 t d)))

/-- and what it returns. -/
def bodyPost1 (c : Dev nD) (t : Fin cfg1.N) : sProp 𝕄 :=
  iprop((dat1 V q0 q1 c).Φ t.succ ∗ (dat1 V q0 q1 c).owesAt () t.succ
    ∗ (dat1 V q0 q1 c).leavesExact 0 t
    ∗ (dat1 V q0 q1 c).leavesExact 1 t
    ∗ (dat1 V q0 q1 c).leavesExact 2 t)

set_option maxHeartbeats 4800000 in
/-- The body at any point: the inputs' memrefs hold their tiles; the point is the first, a middle one or the last
    (the closed forms); the invariant hands over the scratch at the running sum so far and takes it back one tile on. -/
theorem sound_body1 (c : Dev nD) (t : Fin cfg1.N) :
    bodyPre1 V q0 q1 c t ⊢ wp frame (wpE (defs₀ (F := F)) Variants.none c none) Set.univ (bodyAt1 t) (fun _ => bodyPost1 V q0 q1 c t) := by
  unfold bodyPre1 bodyPost1 bodyAt1
  simp only [before1_0, before1_1]
  rw [show (dat1 V q0 q1 c).owesAt () t.succ = (dat1 V q0 q1 c).owesAt () t.castSucc from rfl]
  rw [show (dat1 V q0 q1 c).Φ t.succ = Phi1 V c (t.val + 1) t.isLt from rfl, Phi1_succ]
  rw [show (dat1 V q0 q1 c).leavesExact 0 t = owns (c : Thread nD τ) (ms1_0 t) fullShare ((dat1 V q0 q1 c).after 0 t) from by
    unfold Dat.leavesExact; rw [live1_0 t], after1_0]
  rw [show (dat1 V q0 q1 c).leavesExact 1 t = owns (c : Thread nD τ) (ms1_1 t) fullShare ((dat1 V q0 q1 c).after 1 t) from by
    unfold Dat.leavesExact; rw [live1_1 t], after1_1]
  (try rw [cc1_eq_cc0])
  have hN : t.val < 64 := lt_of_lt_of_eq t.isLt N1_eq
  by_cases hz : t.val = 0
  · -- the first point
    have hl : t.val ≠ 63 := by omega
    rw [Dat.leavesExact_idle (dat1 V q0 q1 c) 2 t (idle1_2 t hl) (noFlush1_2 t hl)]
    rw [acc1_zero V c t hz, Phi1_castSucc V q0 q1 c t, Phi1_zero V c _ _ hz, PhiA1_eq]
    iintro ⟨⟨⟨HS, Hoth⟩, Hg⟩, Ho, ⟨%d0, H0⟩, ⟨%d1, H1⟩, ⟨%d2, H2⟩⟩
    iapply (sound_first c (grid1.coords t) (ms1_0 t) (hs1_0 t) (ms1_1 t) (hs1_1 t) (ms1_2 t) (hs1_2 t) scM1 (Memref.isWhole_whole _) ((hFirst1 t).mpr hz) (fun h => hl ((hLast1 t).mp h)) (xt1 V c t) (yt1 V c t) _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · by_cases hl : t.val = 63
    · -- the last point
      rw [show (dat1 V q0 q1 c).leavesExact 2 t = owns (c : Thread nD τ) (ms1_2 t) fullShare ((dat1 V q0 q1 c).after 2 t) from by
        unfold Dat.leavesExact; rw [live1_2 t hl], after1_2]
      rw [acc1_pos V c t hz, Phi1_castSucc V q0 q1 c t, Phi1_pos V c _ _ hz]
      iintro ⟨⟨⟨HS, Hoth⟩, Hg⟩, Ho, ⟨%d0, H0⟩, ⟨%d1, H1⟩, ⟨%d2, H2⟩⟩
      iapply (sound_last c (grid1.coords t) (ms1_0 t) (hs1_0 t) (ms1_1 t) (hs1_1 t) (ms1_2 t) (hs1_2 t) scM1 (Memref.isWhole_whole _) (fun h => hz ((hFirst1 t).mp h)) ((hLast1 t).mpr hl) (xt1 V c t) (yt1 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      rw [Dat.leavesExact_idle (dat1 V q0 q1 c) 2 t (idle1_2 t hl) (noFlush1_2 t hl)]
      rw [acc1_pos V c t hz, Phi1_castSucc V q0 q1 c t, Phi1_pos V c _ _ hz]
      iintro ⟨⟨⟨HS, Hoth⟩, Hg⟩, Ho, ⟨%d0, H0⟩, ⟨%d1, H1⟩, ⟨%d2, H2⟩⟩
      iapply (sound_mid c (grid1.coords t) (ms1_0 t) (hs1_0 t) (ms1_1 t) (hs1_1 t) (ms1_2 t) (hs1_2 t) scM1 (Memref.isWhole_whole _) (fun h => hz ((hFirst1 t).mp h)) (fun h => hl ((hLast1 t).mp h)) (xt1 V c t) (yt1 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V q0 q1 c) (defs₀ (F := F)) Variants.none () Set.univ := fun t => by
  rw [bigSep_W1, bigSep_W1]
  exact sound_body1 V q0 q1 c t

/-- What the launch hands the region is the invariant before the first point; after the last point the invariant gives
    the class's back (the running sum's name forgotten). -/
theorem hin1 (c : Dev nD) : Pipeline.ΦA spec1 c ⊢ (dat1 V q0 q1 c).Φ 0 := by
  rw [show (dat1 V q0 q1 c).Φ 0 = Phi1 V c 0 (Nat.zero_le _) from rfl, Phi1_zero V c 0 _ rfl]
  try exact Idealize.SL.BI.Entails.refl _
theorem hout1 (c : Dev nD) : (dat1 V q0 q1 c).Φ (Fin.last cfg1.N) ⊢ Pipeline.ΦA spec1 c := by
  rw [show (dat1 V q0 q1 c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  iintro ⟨⟨HS, Hoth⟩, Hg⟩
  isplitl [HS Hoth]
  · isplitl [HS]; · iexists _; iexact HS
    iexact Hoth
  iexact Hg

end Region1

end Cert.KernelIdeal.Rbf

end
-- ==== Proof.KIRegion2.lean ====
import proofs.«178194_j39135742001578_1_alg».proof.Proof.KIBody

set_option maxRecDepth 16384

noncomputable section

namespace Cert.KernelIdeal.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # One of the three calls: its proof data and its body obligation

At a parameter `V`, the buffer contents the region is entered from. The running sum after point `n` is a recursion on the
point (`acc2`): the first point adds its tile's sum to zero, every later one to what the point before left. The scratch
carries it between points (the invariant names its contents after the first point); the output window is idle until
the last point, which stores the total into it. -/

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two tiles at point `t`, at their literal type. -/
abbrev xt2 (c : Dev nD) (t : Fin cfg2.N) : Vec F S1024x256 .f32 := iblk2 V c 0 t
abbrev yt2 (c : Dev nD) (t : Fin cfg2.N) : Vec F S1024x256 .f32 := iblk2 V c 1 t

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The grid's closed forms at this call's configuration (the three calls' grids are one grid). -/
theorem hFirst2 (t : Fin cfg2.N) : condFirst (grid2.coords t) ↔ t.val = 0 := hcondFirst t
theorem hLast2 (t : Fin cfg2.N) : condLast (grid2.coords t) ↔ t.val = 63 := hcondLast t
theorem N2_eq : cfg2.N = 64 := N_2

/-- Where the windows are idle and where the output is written back. -/
theorem live2_0 : ∀ t : Fin cfg2.N, cfg2.idle 0 (grid2.coords t) = false := by decide +kernel
theorem live2_1 : ∀ t : Fin cfg2.N, cfg2.idle 1 (grid2.coords t) = false := by decide +kernel
theorem idle2_2 : ∀ t : Fin cfg2.N, t.val ≠ 63 → cfg2.idle 2 (grid2.coords t) = true := by decide +kernel
theorem noFlush2_2 : ∀ t : Fin cfg2.N, t.val ≠ 63 → (cfg2.win 2).flush t = false := by decide +kernel
theorem live2_2 : ∀ t : Fin cfg2.N, t.val = 63 → cfg2.idle 2 (grid2.coords t) = false := by decide +kernel

/-- Each window's current staging memref at point `t`, as the pipeline passes it, and its wholeness; the scratch. -/
abbrev ms2_0 (t : Fin cfg2.N) : Memref sig .tc .vmem S1024x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0

/-- THE RUNNING SUM after point `n`. -/
def acc2 (c : Dev nD) : (n : ℕ) → n < cfg2.N → Vec F S1x1 .f32
  | 0, hn => step (xt2 V c ⟨0, hn⟩) (yt2 V c ⟨0, hn⟩) k0_pay1
  | n + 1, hn => step (xt2 V c ⟨n + 1, hn⟩) (yt2 V c ⟨n + 1, hn⟩) (acc2 c n (Nat.lt_of_succ_lt hn))

theorem acc2_zero (c : Dev nD) (t : Fin cfg2.N) (h : t.val = 0) :
    acc2 V c t.val t.isLt = step (xt2 V c t) (yt2 V c t) k0_pay1 := by
  obtain ⟨n, hn⟩ := t; cases n with
  | zero => rfl
  | succ n => exact absurd h (Nat.succ_ne_zero n)
theorem acc2_pos (c : Dev nD) (t : Fin cfg2.N) (h : t.val ≠ 0) :
    acc2 V c t.val t.isLt = step (xt2 V c t) (yt2 V c t) (acc2 V c (t.val - 1) (Nat.lt_of_le_of_lt (Nat.sub_le _ _) t.isLt)) := by
  obtain ⟨n, hn⟩ := t; cases n with
  | zero => exact absurd rfl h
  | succ n => rfl

/-- The scoped buffers no window of this call stages, the scratch apart. -/
def others2 (c : Dev nD) : sProp 𝕄 := Pipeline.scopedRestBut (Ix := Unit) (Name := ℕ) (U := UR sig nD τ) (Lvl := ℕ) (Val := Elt F) spec2 c [cc2_scratch0]

/-- The class invariant with the scratch split off as a memref owned at some contents. -/
theorem PhiA2_eq (c : Dev nD) :
    (Pipeline.ΦA spec2 c : sProp 𝕄) = iprop(iprop((∃ d, owns (c : Thread nD τ) scM2 fullShare d) ∗ others2 c) ∗ (∃ r, prngReg c r)) := by
  unfold Pipeline.ΦA others2
  rw [Pipeline.scopedRest_split_of_list spec2 c [cc2_scratch0] (by decide) (by decide)]
  simp only [bigSepL_singleton, scM2, owns_whole]; try rfl

/-- The invariant before position `n`: before the first point the class's; afterwards the scratch at the running sum. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl
theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-- The proof data: the arrays as the region finds them; each input's buffer at its tile; the output's at the running
    sum; the invariant `Phi2`; the two inputs' shares `q0`, `q1` (halves when both read one array); nothing owed. -/
def dat2 (q0 q1 : PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q w := match w with
    | ⟨0, _⟩ => q0
    | ⟨1, _⟩ => q1
    | ⟨2, _⟩ => fullShare
  owed _ := 0

variable (q0 q1 : PosShare TreeShare)

theorem A_eq2 (c : Dev nD) (w : Fin cfg2.W) : (dat2 V q0 q1 c).A w = V c (Pipeline.arrRef spec2 w) := by dsimp only [dat2]
theorem Phi2_castSucc (c : Dev nD) (t : Fin cfg2.N) :
    (dat2 V q0 q1 c).Φ t.castSucc = Phi2 V c t.val (Nat.le_of_lt t.isLt) := by
  dsimp only [dat2]; simp only [Fin.coe_castSucc]
theorem after2_0 (c : Dev nD) (t : Fin cfg2.N) : (dat2 V q0 q1 c).after 0 t = iblk2 V c 0 t := by dsimp only [dat2]
theorem after2_1 (c : Dev nD) (t : Fin cfg2.N) : (dat2 V q0 q1 c).after 1 t = iblk2 V c 1 t := by dsimp only [dat2]
theorem after2_2 (c : Dev nD) (t : Fin cfg2.N) : (dat2 V q0 q1 c).after 2 t = acc2 V c t.val t.isLt := by dsimp only [dat2]
theorem before2_0 (c : Dev nD) (t : Fin cfg2.N) (d) : (dat2 V q0 q1 c).before 0 t d = iblk2 V c 0 t :=
  before2_0_of V (dat2 V q0 q1 c) (A_eq2 V q0 q1 c 0) (after2_0 V q0 q1 c) t d
theorem before2_1 (c : Dev nD) (t : Fin cfg2.N) (d) : (dat2 V q0 q1 c).before 1 t d = iblk2 V c 1 t :=
  before2_1_of V (dat2 V q0 q1 c) (A_eq2 V q0 q1 c 1) (after2_1 V q0 q1 c) t d

/-- What the body is called with at point `t`, -/
def bodyPre2 (c : Dev nD) (t : Fin cfg2.N) : sProp 𝕄 :=
  iprop((dat2 V q0 q1 c).Φ t.castSucc ∗ (dat2 V q0 q1 c).owesAt () t.castSucc
    ∗ (∃ d, owns (c : Thread nD τ) (ms2_0 t) fullShare ((dat2 V q0 q1 c).before 0 t d))
    ∗ (∃ d, owns (c : Thread nD τ) (ms2_1 t) fullShare ((dat2 V q0 q1 c).before 1 t d))
    ∗ (∃ d, owns (c : Thread nD τ) (ms2_2 t) fullShare ((dat2 V q0 q1 c).before 2 t d)))

/-- and what it returns. -/
def bodyPost2 (c : Dev nD) (t : Fin cfg2.N) : sProp 𝕄 :=
  iprop((dat2 V q0 q1 c).Φ t.succ ∗ (dat2 V q0 q1 c).owesAt () t.succ
    ∗ (dat2 V q0 q1 c).leavesExact 0 t
    ∗ (dat2 V q0 q1 c).leavesExact 1 t
    ∗ (dat2 V q0 q1 c).leavesExact 2 t)

set_option maxHeartbeats 4800000 in
/-- The body at any point: the inputs' memrefs hold their tiles; the point is the first, a middle one or the last
    (the closed forms); the invariant hands over the scratch at the running sum so far and takes it back one tile on. -/
theorem sound_body2 (c : Dev nD) (t : Fin cfg2.N) :
    bodyPre2 V q0 q1 c t ⊢ wp frame (wpE (defs₀ (F := F)) Variants.none c none) Set.univ (bodyAt2 t) (fun _ => bodyPost2 V q0 q1 c t) := by
  unfold bodyPre2 bodyPost2 bodyAt2
  simp only [before2_0, before2_1]
  rw [show (dat2 V q0 q1 c).owesAt () t.succ = (dat2 V q0 q1 c).owesAt () t.castSucc from rfl]
  rw [show (dat2 V q0 q1 c).Φ t.succ = Phi2 V c (t.val + 1) t.isLt from rfl, Phi2_succ]
  rw [show (dat2 V q0 q1 c).leavesExact 0 t = owns (c : Thread nD τ) (ms2_0 t) fullShare ((dat2 V q0 q1 c).after 0 t) from by
    unfold Dat.leavesExact; rw [live2_0 t], after2_0]
  rw [show (dat2 V q0 q1 c).leavesExact 1 t = owns (c : Thread nD τ) (ms2_1 t) fullShare ((dat2 V q0 q1 c).after 1 t) from by
    unfold Dat.leavesExact; rw [live2_1 t], after2_1]
  (try rw [cc2_eq_cc0])
  have hN : t.val < 64 := lt_of_lt_of_eq t.isLt N2_eq
  by_cases hz : t.val = 0
  · -- the first point
    have hl : t.val ≠ 63 := by omega
    rw [Dat.leavesExact_idle (dat2 V q0 q1 c) 2 t (idle2_2 t hl) (noFlush2_2 t hl)]
    rw [acc2_zero V c t hz, Phi2_castSucc V q0 q1 c t, Phi2_zero V c _ _ hz, PhiA2_eq]
    iintro ⟨⟨⟨HS, Hoth⟩, Hg⟩, Ho, ⟨%d0, H0⟩, ⟨%d1, H1⟩, ⟨%d2, H2⟩⟩
    iapply (sound_first c (grid2.coords t) (ms2_0 t) (hs2_0 t) (ms2_1 t) (hs2_1 t) (ms2_2 t) (hs2_2 t) scM2 (Memref.isWhole_whole _) ((hFirst2 t).mpr hz) (fun h => hl ((hLast2 t).mp h)) (xt2 V c t) (yt2 V c t) _ Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2
  · by_cases hl : t.val = 63
    · -- the last point
      rw [show (dat2 V q0 q1 c).leavesExact 2 t = owns (c : Thread nD τ) (ms2_2 t) fullShare ((dat2 V q0 q1 c).after 2 t) from by
        unfold Dat.leavesExact; rw [live2_2 t hl], after2_2]
      rw [acc2_pos V c t hz, Phi2_castSucc V q0 q1 c t, Phi2_pos V c _ _ hz]
      iintro ⟨⟨⟨HS, Hoth⟩, Hg⟩, Ho, ⟨%d0, H0⟩, ⟨%d1, H1⟩, ⟨%d2, H2⟩⟩
      iapply (sound_last c (grid2.coords t) (ms2_0 t) (hs2_0 t) (ms2_1 t) (hs2_1 t) (ms2_2 t) (hs2_2 t) scM2 (Memref.isWhole_whole _) (fun h => hz ((hFirst2 t).mp h)) ((hLast2 t).mpr hl) (xt2 V c t) (yt2 V c t) _ Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · -- a middle point
      rw [Dat.leavesExact_idle (dat2 V q0 q1 c) 2 t (idle2_2 t hl) (noFlush2_2 t hl)]
      rw [acc2_pos V c t hz, Phi2_castSucc V q0 q1 c t, Phi2_pos V c _ _ hz]
      iintro ⟨⟨⟨HS, Hoth⟩, Hg⟩, Ho, ⟨%d0, H0⟩, ⟨%d1, H1⟩, ⟨%d2, H2⟩⟩
      iapply (sound_mid c (grid2.coords t) (ms2_0 t) (hs2_0 t) (ms2_1 t) (hs2_1 t) (ms2_2 t) (hs2_2 t) scM2 (Memref.isWhole_whole _) (fun h => hz ((hFirst2 t).mp h)) (fun h => hl ((hLast2 t).mp h)) (xt2 V c t) (yt2 V c t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V q0 q1 c) (defs₀ (F := F)) Variants.none () Set.univ := fun t => by
  rw [bigSep_W2, bigSep_W2]
  exact sound_body2 V q0 q1 c t

/-- What the launch hands the region is the invariant before the first point; after the last point the invariant gives
    the class's back (the running sum's name forgotten). -/
theorem hin2 (c : Dev nD) : Pipeline.ΦA spec2 c ⊢ (dat2 V q0 q1 c).Φ 0 := by
  rw [show (dat2 V q0 q1 c).Φ 0 = Phi2 V c 0 (Nat.zero_le _) from rfl, Phi2_zero V c 0 _ rfl]
  try exact Idealize.SL.BI.Entails.refl _
theorem hout2 (c : Dev nD) : (dat2 V q0 q1 c).Φ (Fin.last cfg2.N) ⊢ Pipeline.ΦA spec2 c := by
  rw [show (dat2 V q0 q1 c).Φ (Fin.last cfg2.N) = Phi2 V c (Fin.last cfg2.N).val (Nat.le_of_lt_succ (Fin.last cfg2.N).isLt) from rfl,
    Phi2_pos V c _ _ (by rw [Fin.val_last]; have : cfg2.N = 64 := N_2; omega), PhiA2_eq]
  iintro ⟨⟨HS, Hoth⟩, Hg⟩
  isplitl [HS Hoth]
  · isplitl [HS]; · iexists _; iexact HS
    iexact Hoth
  iexact Hg

end Region2

end Cert.KernelIdeal.Rbf

end
-- ==== Proof.KIShared.lean ====
import proofs.«178194_j39135742001578_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # A TensorCore's unscoped buffers around a call whose two input windows read one array

The first two pallas_calls hand one array to two input windows: both windows' arrays are the same whole buffer. At the
call's entry the core's unscoped buffers, each held whole at the full share, split into the buffers behind the window
arrays and the rest; the shared buffer's full share is then dealt to the two windows as its left and its right half
(a points-to at the full share is the two at its halves), and the output window's buffer goes over whole. At the exit
the two halves, at one contents, join back to the full share, and the rest, untouched by the call, is read at the
updated valuation, which agrees with the old one off the window arrays. Nothing here looks at what the buffers hold:
only at which buffers they are. -/

/-! ## custom_call 0: windows 0 and 1 read `main_arg0`, window 2 writes `main_v0` -/

/-- The buffers behind custom_call 0's three window arrays are two: `main_arg0` (windows 0 and 1) and `main_v0` (window 2). -/
theorem arrImage0 : Finset.univ.image (Pipeline.arrRef spec0) = [main_arg0, main_v0].toFinset := by decide

/-- Those two buffers, each whole at the full share at contents `V`. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] arrImage0 (by decide) _

/-- Windows 0 and 1 are inputs, held at the proof data's own shares; window 2 is the output, held at the full share. -/
theorem share0_0 (c : Dev nD) (dat : Dat τ (Elt F) Unit ℕ (UR sig nD τ) ℕ cfg0 c) : dat.share 0 = dat.q 0 := by
  unfold Dat.share
  exact if_neg (by decide)

theorem share0_1 (c : Dev nD) (dat : Dat τ (Elt F) Unit ℕ (UR sig nD τ) ℕ cfg0 c) : dat.share 1 = dat.q 1 := by
  unfold Dat.share
  exact if_neg (by decide)

theorem share0_2 (c : Dev nD) (dat : Dat τ (Elt F) Unit ℕ (UR sig nD τ) ℕ cfg0 c) : dat.share 2 = fullShare := by
  unfold Dat.share
  exact if_pos (by decide)

/-- A TensorCore's unscoped buffers at contents `V` are the two buffers behind the window arrays at `V` and the rest. -/
theorem entry_split0 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec0 c V ∗ Pipeline.unscopedRest (Ix := Unit) (Name := ℕ) (U := UR sig nD τ) (Lvl := ℕ) spec0 c V) :=
  Pipeline.unscopedBufs_split₀ cfgs 0 winFacts₀0.arr_unscoped c V

/-- The three window arrays at contents `G`, the two input windows holding the left and the right half of the full
    share: `main_arg0` whole at the left half at `G 0`, again whole at the right half at `G 1`, and `main_v0` whole at the
    full share at `G 2`. -/
theorem arrays0_eq (c : Dev nD) (dat : Dat τ (Elt F) Unit ℕ (UR sig nD τ) ℕ cfg0 c) (hq0 : dat.q 0 = fullShare.left) (hq1 : dat.q 1 = fullShare.right)
    (G : (w : Fin cfg0.W) → Buf (Elt F) ((cfg0.win w).arr.view.loc (c : Thread nD τ))) :
    (dat.arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2)) := by
  unfold Dat.arrays
  rw [bigSep_W0, (arr_whole0 0).set_eq_univ, (arr_whole0 2).set_eq_univ, share0_0, share0_1, share0_2, hq0, hq1]

/-- ENTRY: a TensorCore's unscoped buffers at contents `V` are custom_call 0's window arrays at the proof data's entry
    contents — those being read off `V` — and the unscoped rest: `main_arg0`'s full share is dealt to windows 0 and 1 as
    its left and right halves, `main_v0` goes whole to window 2. -/
theorem entry_shared0 (c : Dev nD) (dat : Dat τ (Elt F) Unit ℕ (UR sig nD τ) ℕ cfg0 c) (hq0 : dat.q 0 = fullShare.left) (hq1 : dat.q 1 = fullShare.right)
    (V : (b : Ref sig .tc) → Buf (Elt F) ((c : Thread nD τ).loc b)) (hA : ∀ w, dat.A w = V (Pipeline.arrRef spec0 w)) :
    (unscopedBufs c V : sProp 𝕄) ⊢ iprop(dat.arrays (dat.arrAt · 0) ∗ Pipeline.unscopedRest (Ix := Unit) (Name := ℕ) (U := UR sig nD τ) (Lvl := ℕ) spec0 c V) := by
  rw [entry_split0, arrBufs0_eq, arrays0_eq c dat hq0 hq1]
  refine sep_mono ?_ .rfl
  rw [show dat.arrAt 0 0 = dat.A 0 from rfl, show dat.arrAt 1 0 = dat.A 1 from rfl, show dat.arrAt 2 0 = dat.A 2 from rfl, hA 0, hA 1, hA 2]
  iintro ⟨Ha, Hv⟩
  ihave Ha := (pointsTo_share (PosShare.mem_left_op_right fullShare)).1 $$ Ha
  icases Ha with ⟨Hl, Hr⟩
  isplitl [Hl]; · iexact Hl
  isplitl [Hr]; · iexact Hr
  iexact Hv

/-- EXIT: custom_call 0's window arrays at contents `F'` and the unscoped rest at `V` are the TensorCore's unscoped
    buffers at any valuation `V'` that has the arrays at `F'` and agrees with `V` off them: the two halves of `main_arg0`,
    both at `V' main_arg0`, join to its full share. -/
theorem exit_shared0 (c : Dev nD) (dat : Dat τ (Elt F) Unit ℕ (UR sig nD τ) ℕ cfg0 c) (hq0 : dat.q 0 = fullShare.left) (hq1 : dat.q 1 = fullShare.right)
    (V V' : (b : Ref sig .tc) → Buf (Elt F) ((c : Thread nD τ).loc b))
    (F' : (w : Fin cfg0.W) → Buf (Elt F) ((cfg0.win w).arr.view.loc (c : Thread nD τ)))
    (hF : ∀ w, F' w = V' (Pipeline.arrRef spec0 w)) (hrest : ∀ b, b ∉ Finset.univ.image (Pipeline.arrRef spec0) → V' b = V b) :
    iprop(dat.arrays F' ∗ Pipeline.unscopedRest (Ix := Unit) (Name := ℕ) (U := UR sig nD τ) (Lvl := ℕ) spec0 c V) ⊢ (unscopedBufs c V' : sProp 𝕄) := by
  rw [entry_split0, arrBufs0_eq, arrays0_eq c dat hq0 hq1, hF 0, hF 1, hF 2]
  refine sep_mono ?_ (Entails.of_eq ?_)
  · iintro ⟨Hl, Hr, Hv⟩
    isplitl [Hl Hr]
    · iapply (pointsTo_share (PosShare.mem_left_op_right fullShare)).2
      isplitl [Hl]; · iexact Hl
      iexact Hr
    iexact Hv
  · unfold Pipeline.unscopedRest
    exact bigSep_congr fun b hb => by rw [hrest b (Finset.mem_sdiff.mp hb).2]

/-! ## custom_call 1: windows 0 and 1 read `main_arg1`, window 2 writes `main_v2` -/

/-- The buffers behind custom_call 1's three window arrays are two: `main_arg1` (windows 0 and 1) and `main_v2` (window 2). -/
theorem arrImage1 : Finset.univ.image (Pipeline.arrRef spec1) = [main_arg1, main_v2].toFinset := by decide

/-- Those two buffers, each whole at the full share at contents `V`. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v2) ↦{fullShare} V main_v2)) := by
  unfold Pipeline.arrBufs
  exact bigSep_eq_bigSepL_of_eq [main_arg1, main_v2] arrImage1 (by decide) _

/-- Windows 0 and 1 are inputs, held at the proof data's own shares; window 2 is the output, held at the full share. -/
theorem share1_0 (c : Dev nD) (dat : Dat τ (Elt F) Unit ℕ (UR sig nD τ) ℕ cfg1 c) : dat.share 0 = dat.q 0 := by
  unfold Dat.share
  exact if_neg (by decide)

theorem share1_1 (c : Dev nD) (dat : Dat τ (Elt F) Unit ℕ (UR sig nD τ) ℕ cfg1 c) : dat.share 1 = dat.q 1 := by
  unfold Dat.share
  exact if_neg (by decide)

theorem share1_2 (c : Dev nD) (dat : Dat τ (Elt F) Unit ℕ (UR sig nD τ) ℕ cfg1 c) : dat.share 2 = fullShare := by
  unfold Dat.share
  exact if_pos (by decide)

/-- A TensorCore's unscoped buffers at contents `V` are the two buffers behind the window arrays at `V` and the rest. -/
theorem entry_split1 (c : Dev nD) (V : (b : Ref sig .tc) → Buf (Elt F) ((c : Thread nD τ).loc b)) :
    (unscopedBufs c V : sProp 𝕄) = iprop(Pipeline.arrBufs (Ix := Unit) (Name := ℕ) (U := UR sig nD τ) (Lvl := ℕ) spec1 c V ∗ Pipeline.unscopedRest (Ix := Unit) (Name := ℕ) (U := UR sig nD τ) (Lvl := ℕ) spec1 c V) :=
  Pipeline.unscopedBufs_split₀ cfgs 1 winFacts₀1.arr_unscoped c V

/-- The three window arrays at contents `G`, the two input windows holding the left and the right half of the full
    share: `main_arg1` whole at the left half at `G 0`, again whole at the right half at `G 1`, and `main_v2` whole at the
    full share at `G 2`. -/
theorem arrays1_eq (c : Dev nD) (dat : Dat τ (Elt F) Unit ℕ (UR sig nD τ) ℕ cfg1 c) (hq0 : dat.q 0 = fullShare.left) (hq1 : dat.q 1 = fullShare.right)
    (G : (w : Fin cfg1.W) → Buf (Elt F) ((cfg1.win w).arr.view.loc (c : Thread nD τ))) :
    (dat.arrays G : sProp 𝕄)
      = iprop((((c : Thread nD τ).loc main_arg1) ↦{fullShare.left} G 0) ∗ (((c : Thread nD τ).loc main_arg1) ↦{fullShare.right} G 1)
          ∗ (((c : Thread nD τ).loc main_v2) ↦{fullShare} G 2)) := by
  unfold Dat.arrays
  rw [bigSep_W1, (arr_whole1 0).set_eq_univ, (arr_whole1 2).set_eq_univ, share1_0, share1_1, share1_2, hq0, hq1]

/-- ENTRY: a TensorCore's unscoped buffers at contents `V` are custom_call 1's window arrays at the proof data's entry
    contents — those being read off `V` — and the unscoped rest: `main_arg1`'s full share is dealt to windows 0 and 1 as
    its left and right halves, `main_v2` goes whole to window 2. -/
theorem entry_shared1 (c : Dev nD) (dat : Dat τ (Elt F) Unit ℕ (UR sig nD τ) ℕ cfg1 c) (hq0 : dat.q 0 = fullShare.left) (hq1 : dat.q 1 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest (Ix := Unit) (Name := ℕ) (U := UR sig nD τ) (Lvl := ℕ) spec1 c V) := by
  rw [entry_split1, arrBufs1_eq, arrays1_eq c dat hq0 hq1]
  refine sep_mono ?_ .rfl
  rw [show dat.arrAt 0 0 = dat.A 0 from rfl, show dat.arrAt 1 0 = dat.A 1 from rfl, show dat.arrAt 2 0 = dat.A 2 from rfl, hA 0, hA 1, hA 2]
  iintro ⟨Ha, Hv⟩
  ihave Ha := (pointsTo_share (PosShare.mem_left_op_right fullShare)).1 $$ Ha
  icases Ha with ⟨Hl, Hr⟩
  isplitl [Hl]; · iexact Hl
  isplitl [Hr]; · iexact Hr
  iexact Hv

/-- EXIT: custom_call 1's window arrays at contents `F'` and the unscoped rest at `V` are the TensorCore's unscoped
    buffers at any valuation `V'` that has the arrays at `F'` and agrees with `V` off them: the two halves of `main_arg1`,
    both at `V' main_arg1`, join to its full share. -/
theorem exit_shared1 (c : Dev nD) (dat : Dat τ (Elt F) Unit ℕ (UR sig nD τ) ℕ cfg1 c) (hq0 : dat.q 0 = fullShare.left) (hq1 : dat.q 1 = fullShare.right)
    (V V' : (b : Ref sig .tc) → Buf (Elt F) ((c : Thread nD τ).loc b))
    (F' : (w : Fin cfg1.W) → Buf (Elt F) ((cfg1.win w).arr.view.loc (c : Thread nD τ)))
    (hF : ∀ w, F' w = V' (Pipeline.arrRef spec1 w)) (hrest : ∀ b, b ∉ Finset.univ.image (Pipeline.arrRef spec1) → V' b = V b) :
    iprop(dat.arrays F' ∗ Pipeline.unscopedRest (Ix := Unit) (Name := ℕ) (U := UR sig nD τ) (Lvl := ℕ) spec1 c V) ⊢ (unscopedBufs c V' : sProp 𝕄) := by
  rw [entry_split1, arrBufs1_eq, arrays1_eq c dat hq0 hq1, hF 0, hF 1, hF 2]
  refine sep_mono ?_ (Entails.of_eq ?_)
  · iintro ⟨Hl, Hr, Hv⟩
    isplitl [Hl Hr]
    · iapply (pointsTo_share (PosShare.mem_left_op_right fullShare)).2
      isplitl [Hl]; · iexact Hl
      iexact Hr
    iexact Hv
  · unfold Pipeline.unscopedRest
    exact bigSep_congr fun b hb => by rw [hrest b (Finset.mem_sdiff.mp hb).2]

end Cert.KernelIdeal.Rbf

end
-- ==== Proof.KIMain.lean ====
import proofs.«178194_j39135742001578_1_alg».proof.Proof.KIRegion0
import proofs.«178194_j39135742001578_1_alg».proof.Proof.KIRegion1
import proofs.«178194_j39135742001578_1_alg».proof.Proof.KIRegion2
import proofs.«178194_j39135742001578_1_alg».proof.Proof.KIShared
import proofs.«178194_j39135742001578_1_alg».proof.Proof.Gen.KernelIdeal.Regions
import Idealize.ShloMosaic.Lib.Pipeline.RegionsLoop

set_option maxRecDepth 16384

noncomputable section

namespace Cert.KernelIdeal.Rbf

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole program: three calls among host stretches

The buffer contents at every boundary of @main, a fold from the launch memory: a call changes its result array only, a
host stretch what its operations write. Every call's proof data at its entry contents; a region record per call over the
thread state "every unscoped buffer at the boundary's contents, the generator register at some state, nothing owed";
the launch over the six items; the final memory read against the last contents. -/

variable (m : (ℓ : Loc nD τ sig) → Buf (Elt F) ℓ)

/-- The halves of the full share: what two windows reading one array hold of it. -/
abbrev qL : PosShare TreeShare := fullShare.left
abbrev qR : PosShare TreeShare := fullShare.right

/-- Core `c`'s buffers at launch (call 0's entry). -/
abbrev W0 : Dev nD → Valuation τ sig (Elt F) := fun c b => m (c, b)
abbrev U0 : (c : Dev nD) → (b : Ref sig .tc) → Buf (Elt F) ((c : Thread nD τ).loc b) := fun c b => W0 m c b

/-- What call 0 leaves in its result array. -/
def o0 (c : Dev nD) : Buf (Elt F) ((c : Thread nD τ).loc main_v0) := (dat0 (U0 m) qL qR c).arrAt 2 cfg0.N
/-- At call 0's exit: its result array at what the call leaves, every other buffer as entered. -/
abbrev W1 : Dev nD → Valuation τ sig (Elt F) := fun c => Function.update (W0 m c) main_v0 (o0 m c)
abbrev U1 : (c : Dev nD) → (b : Ref sig .tc) → Buf (Elt F) ((c : Thread nD τ).loc b) := fun c b => W1 m c b
theorem W1_of_ne (c : Dev nD) (b : Ref sig .tc) (hb : b ≠ main_v0) : W1 m c (Proc.devRef .tc b) = W0 m c (Proc.devRef .tc b) := by
  simp only [W1, Function.update_of_ne (StableHlo.devRef_ne_of_ne hb : (Proc.devRef .tc b : DevRef τ sig) ≠ Proc.devRef .tc main_v0)]
theorem W1_self (c : Dev nD) : W1 m c (Proc.devRef .tc main_v0) = o0 m c := by
  simp only [W1, Function.update_self]
theorem hF0 (c : Dev nD) (w : Fin cfg0.W) : (dat0 (U0 m) qL qR c).arrAt w cfg0.N = U1 m c (Pipeline.arrRef spec0 w) := by
  match w with
  | ⟨0, _⟩ => exact ((dat0 (U0 m) qL qR c).arrAt_in 0 rfl _).trans ((A_eq0 (U0 m) qL qR c 0).trans (W1_of_ne m c _ (by decide)).symm)
  | ⟨1, _⟩ => exact ((dat0 (U0 m) qL qR c).arrAt_in 1 rfl _).trans ((A_eq0 (U0 m) qL qR c 1).trans (W1_of_ne m c _ (by decide)).symm)
  | ⟨2, _⟩ => exact (W1_self m c).symm
theorem hrest0 (c : Dev nD) : ∀ b, b ∉ Finset.univ.image (Pipeline.arrRef spec0) → U1 m c b = U0 m c b :=
  fun b hb => W1_of_ne m c b fun e => hb (Finset.mem_image.mpr ⟨2, Finset.mem_univ _, e.symm⟩)

/-- After the host stretch `hostOps1`. -/
abbrev W2 : Dev nD → Valuation τ sig (Elt F) := fun c => StableHlo.after hostOps1 (W1 m c)
abbrev U2 : (c : Dev nD) → (b : Ref sig .tc) → Buf (Elt F) ((c : Thread nD τ).loc b) := fun c b => W2 m c b
theorem W2_of (c : Dev nD) (r : Ref sig .tc) (h : r ∉ hostOps1_W) : W2 m c (Proc.devRef .tc r) = W1 m c (Proc.devRef .tc r) :=
  StableHlo.after_of_writes_sub hostOps1 _ hostOps1_writes h

/-- What call 1 leaves in its result array. -/
def o1 (c : Dev nD) : Buf (Elt F) ((c : Thread nD τ).loc main_v2) := (dat1 (U2 m) qL qR c).arrAt 2 cfg1.N
/-- At call 1's exit: its result array at what the call leaves, every other buffer as entered. -/
abbrev W3 : Dev nD → Valuation τ sig (Elt F) := fun c => Function.update (W2 m c) main_v2 (o1 m c)
abbrev U3 : (c : Dev nD) → (b : Ref sig .tc) → Buf (Elt F) ((c : Thread nD τ).loc b) := fun c b => W3 m c b
theorem W3_of_ne (c : Dev nD) (b : Ref sig .tc) (hb : b ≠ main_v2) : W3 m c (Proc.devRef .tc b) = W2 m c (Proc.devRef .tc b) := by
  simp only [W3, Function.update_of_ne (StableHlo.devRef_ne_of_ne hb : (Proc.devRef .tc b : DevRef τ sig) ≠ Proc.devRef .tc main_v2)]
theorem W3_self (c : Dev nD) : W3 m c (Proc.devRef .tc main_v2) = o1 m c := by
  simp only [W3, Function.update_self]
theorem hF1 (c : Dev nD) (w : Fin cfg1.W) : (dat1 (U2 m) qL qR c).arrAt w cfg1.N = U3 m c (Pipeline.arrRef spec1 w) := by
  match w with
  | ⟨0, _⟩ => exact ((dat1 (U2 m) qL qR c).arrAt_in 0 rfl _).trans ((A_eq1 (U2 m) qL qR c 0).trans (W3_of_ne m c _ (by decide)).symm)
  | ⟨1, _⟩ => exact ((dat1 (U2 m) qL qR c).arrAt_in 1 rfl _).trans ((A_eq1 (U2 m) qL qR c 1).trans (W3_of_ne m c _ (by decide)).symm)
  | ⟨2, _⟩ => exact (W3_self m c).symm
theorem hrest1 (c : Dev nD) : ∀ b, b ∉ Finset.univ.image (Pipeline.arrRef spec1) → U3 m c b = U2 m c b :=
  fun b hb => W3_of_ne m c b fun e => hb (Finset.mem_image.mpr ⟨2, Finset.mem_univ _, e.symm⟩)

/-- After the host stretch `hostOps2`. -/
abbrev W4 : Dev nD → Valuation τ sig (Elt F) := fun c => StableHlo.after hostOps2 (W3 m c)
abbrev U4 : (c : Dev nD) → (b : Ref sig .tc) → Buf (Elt F) ((c : Thread nD τ).loc b) := fun c b => W4 m c b
theorem W4_of (c : Dev nD) (r : Ref sig .tc) (h : r ∉ hostOps2_W) : W4 m c (Proc.devRef .tc r) = W3 m c (Proc.devRef .tc r) :=
  StableHlo.after_of_writes_sub hostOps2 _ hostOps2_writes h

/-- What call 2 leaves in its result array. -/
def o2 (c : Dev nD) : Buf (Elt F) ((c : Thread nD τ).loc main_v4) := (dat2 (U4 m) fullShare fullShare c).arrAt 2 cfg2.N
/-- At call 2's exit: its result array at what the call leaves, every other buffer as entered. -/
abbrev W5 : Dev nD → Valuation τ sig (Elt F) := fun c => Function.update (W4 m c) main_v4 (o2 m c)
abbrev U5 : (c : Dev nD) → (b : Ref sig .tc) → Buf (Elt F) ((c : Thread nD τ).loc b) := fun c b => W5 m c b
theorem W5_of_ne (c : Dev nD) (b : Ref sig .tc) (hb : b ≠ main_v4) : W5 m c (Proc.devRef .tc b) = W4 m c (Proc.devRef .tc b) := by
  simp only [W5, Function.update_of_ne (StableHlo.devRef_ne_of_ne hb : (Proc.devRef .tc b : DevRef τ sig) ≠ Proc.devRef .tc main_v4)]
theorem W5_self (c : Dev nD) : W5 m c (Proc.devRef .tc main_v4) = o2 m c := by
  simp only [W5, Function.update_self]
theorem hF2 (c : Dev nD) (w : Fin cfg2.W) : (dat2 (U4 m) fullShare fullShare c).arrAt w cfg2.N = U5 m c (Pipeline.arrRef spec2 w) := by
  match w with
  | ⟨0, _⟩ => exact ((dat2 (U4 m) fullShare fullShare c).arrAt_in 0 rfl _).trans ((A_eq2 (U4 m) fullShare fullShare c 0).trans (W5_of_ne m c _ (by decide)).symm)
  | ⟨1, _⟩ => exact ((dat2 (U4 m) fullShare fullShare c).arrAt_in 1 rfl _).trans ((A_eq2 (U4 m) fullShare fullShare c 1).trans (W5_of_ne m c _ (by decide)).symm)
  | ⟨2, _⟩ => exact (W5_self m c).symm
theorem hrest2 (c : Dev nD) : ∀ b, b ∉ Finset.univ.image (Pipeline.arrRef spec2) → U5 m c b = U4 m c b :=
  fun b hb => W5_of_ne m c b fun e => hb (Finset.mem_image.mpr ⟨2, Finset.mem_univ _, e.symm⟩)

/-- After the host stretch `hostOps3`. -/
abbrev W6 : Dev nD → Valuation τ sig (Elt F) := fun c => StableHlo.after hostOps3 (W5 m c)
abbrev U6 : (c : Dev nD) → (b : Ref sig .tc) → Buf (Elt F) ((c : Thread nD τ).loc b) := fun c b => W6 m c b
theorem W6_of (c : Dev nD) (r : Ref sig .tc) (h : r ∉ hostOps3_W) : W6 m c (Proc.devRef .tc r) = W5 m c (Proc.devRef .tc r) :=
  StableHlo.after_of_writes_sub hostOps3 _ hostOps3_writes h

/-- The arguments end as launched: no host operation and no call writes one. -/
theorem W6_main_arg0 (c : Dev nD) : W6 m c (Proc.devRef .tc main_arg0) = m ((c : Thread nD τ).loc main_arg0) :=
  (W6_of m c main_arg0 (by decide)).trans <| (W5_of_ne m c main_arg0 (by decide)).trans <| (W4_of m c main_arg0 (by decide)).trans <|
    (W3_of_ne m c main_arg0 (by decide)).trans <| (W2_of m c main_arg0 (by decide)).trans <| (W1_of_ne m c main_arg0 (by decide)).trans rfl
theorem W6_main_arg1 (c : Dev nD) : W6 m c (Proc.devRef .tc main_arg1) = m ((c : Thread nD τ).loc main_arg1) :=
  (W6_of m c main_arg1 (by decide)).trans <| (W5_of_ne m c main_arg1 (by decide)).trans <| (W4_of m c main_arg1 (by decide)).trans <|
    (W3_of_ne m c main_arg1 (by decide)).trans <| (W2_of m c main_arg1 (by decide)).trans <| (W1_of_ne m c main_arg1 (by decide)).trans rfl

/-! ## The proof data family and the thread state -/

/-- Every call's proof data, each at its entry contents — a literal match. -/
def pdats : (p : Fin 3) → (c : Dev nD) → Dat τ (Elt F) Unit ℕ (UR sig nD τ) ℕ (Pipeline.pin (pcfgs (F := F)) adm p) c
  | ⟨0, _⟩ => fun c => dat0 (U0 m) qL qR c
  | ⟨1, _⟩ => fun c => dat1 (U2 m) qL qR c
  | ⟨2, _⟩ => fun c => dat2 (U4 m) fullShare fullShare c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as an item: from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as items -/

set_option backward.isDefEq.respectTransparency.types false in
/-- CALL 0 over the thread state: entered from every unscoped buffer at `W0`, left at `W1`. Its arrays are split
    out of the unscoped buffers (the array its two inputs read dealt to them by halves) and put back at the exit contents; the generator
    register goes into the invariant and comes back; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (U0 m) qL qR c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := entry_shared0 c (pdats m 0 c) rfl rfl (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last (Pipeline.pin (pcfgs (F := F)) adm 0).N) ⊢ Pipeline.ΦA spec0 c from hout0 (U0 m) qL qR c).trans ?_
    unfold Pipeline.ΦA
    iintro ⟨Hr, Hp⟩
    isplitl [Hp]; · iexact Hp
    isplitr; · iempintro
    iexact Hr
  hexit c := by
    have hjoin := exit_shared0 c (pdats m 0 c) rfl rfl (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 over the thread state: entered from every unscoped buffer at `W2`, left at `W3`. Its arrays are split
    out of the unscoped buffers (the array its two inputs read dealt to them by halves) and put back at the exit contents; the generator
    register goes into the invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) qL qR c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := entry_shared1 c (pdats m 1 c) rfl rfl (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last (Pipeline.pin (pcfgs (F := F)) adm 1).N) ⊢ Pipeline.ΦA spec1 c from hout1 (U2 m) qL qR c).trans ?_
    unfold Pipeline.ΦA
    iintro ⟨Hr, Hp⟩
    isplitl [Hp]; · iexact Hp
    isplitr; · iempintro
    iexact Hr
  hexit c := by
    have hjoin := exit_shared1 c (pdats m 1 c) rfl rfl (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 over the thread state: entered from every unscoped buffer at `W4`, left at `W5`. Its arrays are split
    out of the unscoped buffers and put back at the exit contents; the generator
    register goes into the invariant and comes back; nothing is owed; the kernel has no semaphore of its own. -/
def reg2 : Pipeline.RegionSeg (pcfgs (F := F)) adm (pdats m) () defs₀ 𝒱₀ L lv 2 where
  win := launch2.win.to₀
  block_pos := block_pos2
  stage_whole := stage_whole2
  K := PEmpty
  osem k := k.elim
  ho := Pipeline.OwnSemFacts.none _
  hbody c := (body_obligation2 (U4 m) fullShare fullShare c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun w => by fin_cases w <;> rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last (Pipeline.pin (pcfgs (F := F)) adm 2).N) ⊢ Pipeline.ΦA spec2 c from hout2 (U4 m) fullShare fullShare c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => by fin_cases w <;> rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six items in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    every final memory holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => (show iprop(StableHlo.held (c : Thread nD τ) (Pipeline.ucRefs τ sig) (W6 m c) ∗ R c)
        ⊢ iprop(iprop(StableHlo.held (c : Thread nD τ) (Pipeline.ucRefs τ sig) (W6 m c) ∗ ∃ r, prngReg c r) ∗ ∃ W, owes (c : Thread nD τ) (0 : CellTallies nD τ sig Unit) W) from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ (mem_uc main_arg0 (by decide))).trans (W6_main_arg0 m c),
    (h c _ (mem_uc main_arg1 (by decide))).trans (W6_main_arg1 m c)⟩) (run_all m ρ)

end Cert.KernelIdeal.Rbf

end
-- ==== Proof.RbfSpec.lean ====
import Idealize.ShloMosaic.PureOps.Ideal
import Idealize.ShloMosaic.PureOps.Ideal.Laws
import Idealize.ShloMosaic.Lib.ValueIdx

/-!
# The mean pairwise Gaussian kernel, as a function of two 8192×256 arrays

For rows `a`, `b` of 256 entries the kernel entry is `exp(γ · max(‖a‖² + ‖b‖² − 2⟨a, b⟩, 0))` with `γ` the literal
`−1/256`; `total X Y` sums it over every pair of rows of `X` and `Y`. Both programs compute
`total X X / n + total Y Y / n − 2 · total X Y / n` with `n = 2²⁶`; they differ in where the factor two sits relative to
the last quotient, which over the extended reals is associativity of the product (the divisor is a nonzero real).
-/

noncomputable section

namespace Cert.RbfSpec

open Idealize.ShloMosaic

/-- The inner product of two rows. -/
def dot (a b : Fin 256 → EReal) : EReal := ∑ k : Fin 256, a k * b k

/-- The kernel entry of two rows: `exp(γ · max(‖a‖² + ‖b‖² − 2⟨a, b⟩, 0))`, the three literals as the programs spell them. -/
def kern (a b : Fin 256 → EReal) : EReal :=
  Ideal.exp (Ideal.ofBits .f32 0xBB800000#32
    * max ((dot a a + dot b b) - Ideal.ofBits .f32 0x40000000#32 * dot a b) (Ideal.ofBits .f32 0x00000000#32))

/-- Row `R` of an array of 256-entry rows. -/
abbrev row {n : Nat} (X : (⟨2, ![n, 256]⟩ : Shape).Idx → EReal) (R : Fin n) : Fin 256 → EReal := fun k => X (ValueIdx.ix2 R k)

/-- The kernel entries summed over every pair of rows of two arrays (rows of `x` outermost). -/
def pairSum {n m : Nat} (x : (⟨2, ![n, 256]⟩ : Shape).Idx → EReal) (y : (⟨2, ![m, 256]⟩ : Shape).Idx → EReal) : EReal :=
  ∑ r : Fin n, ∑ c : Fin m, kern (row x r) (row y c)

/-- The divisor `n = 8192 · 8192 = 2²⁶`, as both programs spell it. -/
abbrev cnt : EReal := Ideal.ofBits .f32 0x4C800000#32
/-- The literal two. -/
abbrev two : EReal := Ideal.ofBits .f32 0x40000000#32

/-- The Pallas program's result from the three sums: the factor two multiplies the cross sum BEFORE the quotient. -/
def kernelResult (ss tt st : EReal) : EReal := (Ideal.div ss cnt + Ideal.div tt cnt) - Ideal.div (two * st) cnt
/-- The reference's: the factor two multiplies the cross MEAN. -/
def referenceResult (ss tt st : EReal) : EReal := (Ideal.div ss cnt + Ideal.div tt cnt) - two * Ideal.div st cnt

end Cert.RbfSpec

end
-- ==== Proof.BlockSum.lean ====
import proofs.«178194_j39135742001578_1_alg».proof.Proof.RbfSpec
import Mathlib.Algebra.BigOperators.Fin
import Mathlib.Algebra.BigOperators.Group.Finset.Basic
import Mathlib.Data.Fintype.BigOperators
import Mathlib.Data.EReal.Inv

/-!
# Sums over tiles, and the two spellings of the final combination

Pure algebra over the extended reals. Addition on `EReal` is a commutative monoid, so a sum over the 8192 × 8192 pairs of
rows may be taken tile by tile (tiles of 1024 consecutive rows, 8 × 8 of them) in any order; and the product is
associative, so the factor two may sit before or after the quotient by the nonzero real `2²⁶`.
-/

noncomputable section

namespace Cert.RbfSpec

open Idealize.ShloMosaic

/-! ## The quotient by `2²⁶` -/

/-- The divisor is the real `2²⁶`, which is not zero. -/
theorem cnt_ne_zero : cnt ≠ 0 := by
  simp [cnt, Ideal.ofBits, Ideal.ieee]

/-- So the quotient by it is the product with its inverse, at every extended real. -/
theorem div_cnt (x : EReal) : Ideal.div x cnt = x * cnt⁻¹ := by
  unfold Ideal.div
  rw [if_neg cnt_ne_zero]

/-- The two results agree: `(2 · st) · n⁻¹ = 2 · (st · n⁻¹)`. -/
theorem results_eq (ss tt st : EReal) : kernelResult ss tt st = referenceResult ss tt st := by
  unfold kernelResult referenceResult
  rw [div_cnt (two * st), div_cnt st, mul_assoc]

/-! ## A running sum in closed form -/

/-- An accumulator that starts at `0 + g 0` and adds `g (n + 1)` at each step holds the partial sums of `g`. -/
theorem acc_closed (a g : ℕ → EReal) (h0 : a 0 = 0 + g 0) (hs : ∀ n, a (n + 1) = a n + g (n + 1)) (n : ℕ) :
    a n = ∑ t ∈ Finset.range (n + 1), g t := by
  induction n with
  | zero => rw [h0, zero_add, Finset.sum_range_one]
  | succ n ih => rw [hs n, ih, Finset.sum_range_succ _ (n + 1)]

/-! ## Rows by tile -/

/-- Row r of tile b: tiles are 1024 consecutive rows. -/
def tileRow (b : Fin 8) (r : Fin 1024) : Fin 8192 := ⟨b.val * 1024 + r.val, by omega⟩

/-- Every row is row `R % 1024` of tile `R / 1024`, and of no other. -/
def tileEquiv : Fin 8 × Fin 1024 ≃ Fin 8192 where
  toFun x := tileRow x.1 x.2
  invFun R := (⟨R.val / 1024, by omega⟩, ⟨R.val % 1024, by omega⟩)
  left_inv x := by
    obtain ⟨b, r⟩ := x
    refine Prod.ext (Fin.ext ?_) (Fin.ext ?_)
    · show (b.val * 1024 + r.val) / 1024 = b.val
      omega
    · show (b.val * 1024 + r.val) % 1024 = r.val
      omega
  right_inv R := by
    refine Fin.ext ?_
    show R.val / 1024 * 1024 + R.val % 1024 = R.val
    omega

/-- A sum over the rows, taken tile by tile. -/
theorem sum_tileRow {M : Type*} [AddCommMonoid M] (h : Fin 8192 → M) :
    (∑ b : Fin 8, ∑ r : Fin 1024, h (tileRow b r)) = ∑ R : Fin 8192, h R :=
  (Fintype.sum_prod_type' fun b r => h (tileRow b r)).symm.trans
    (Fintype.sum_equiv tileEquiv _ _ fun _ => rfl)

/-- A sum over the pairs of rows, taken tile pair by tile pair. -/
theorem sum_tiles (f : Fin 8192 → Fin 8192 → EReal) :
    (∑ bi : Fin 8, ∑ bj : Fin 8, ∑ r : Fin 1024, ∑ c : Fin 1024, f (tileRow bi r) (tileRow bj c))
      = ∑ R : Fin 8192, ∑ C : Fin 8192, f R C :=
  calc (∑ bi : Fin 8, ∑ bj : Fin 8, ∑ r : Fin 1024, ∑ c : Fin 1024, f (tileRow bi r) (tileRow bj c))
      = ∑ bi : Fin 8, ∑ r : Fin 1024, ∑ bj : Fin 8, ∑ c : Fin 1024, f (tileRow bi r) (tileRow bj c) :=
        Finset.sum_congr rfl fun _ _ => Finset.sum_comm
    _ = ∑ bi : Fin 8, ∑ r : Fin 1024, ∑ C : Fin 8192, f (tileRow bi r) C :=
        Finset.sum_congr rfl fun bi _ => Finset.sum_congr rfl fun r _ => sum_tileRow (f (tileRow bi r))
    _ = ∑ R : Fin 8192, ∑ C : Fin 8192, f R C := sum_tileRow fun R => ∑ C : Fin 8192, f R C

/-! ## The 64 grid points -/

/-- Point `t` of the 8 × 8 grid, row-major, is the pair `(t / 8, t % 8)`. -/
def pointEquiv : Fin 64 ≃ Fin 8 × Fin 8 where
  toFun t := (⟨t.val / 8, by omega⟩, ⟨t.val % 8, by omega⟩)
  invFun x := ⟨x.1.val * 8 + x.2.val, by omega⟩
  left_inv t := by
    refine Fin.ext ?_
    show t.val / 8 * 8 + t.val % 8 = t.val
    omega
  right_inv x := by
    obtain ⟨p, q⟩ := x
    refine Prod.ext (Fin.ext ?_) (Fin.ext ?_)
    · show (p.val * 8 + q.val) / 8 = p.val
      omega
    · show (p.val * 8 + q.val) % 8 = q.val
      omega

/-- A sum over the grid points in row-major order is the double sum over the grid's two coordinates. -/
theorem sum_points (g : Fin 8 → Fin 8 → EReal) :
    (∑ t ∈ Finset.range 64, (if h : t < 64 then g ⟨t / 8, by omega⟩ ⟨t % 8, by omega⟩ else 0))
      = ∑ bi : Fin 8, ∑ bj : Fin 8, g bi bj := by
  rw [Finset.sum_range]
  calc (∑ t : Fin 64, (if h : t.val < 64 then g ⟨t.val / 8, by omega⟩ ⟨t.val % 8, by omega⟩ else 0))
      = ∑ t : Fin 64, g (pointEquiv t).1 (pointEquiv t).2 :=
        Finset.sum_congr rfl fun t _ => dif_pos t.isLt
    _ = ∑ x : Fin 8 × Fin 8, g x.1 x.2 := Fintype.sum_equiv pointEquiv _ _ fun _ => rfl
    _ = ∑ bi : Fin 8, ∑ bj : Fin 8, g bi bj := Fintype.sum_prod_type' g

end Cert.RbfSpec

end
-- ==== Proof.LibColumn.lean ====
/-
  Column vectors read at an index given by coordinates.

  A sum or maximum taken with `keepdims` leaves a column `[a, 1]`, which is then spread over the lanes. These three
  readings complete the library's list of small layout forms (leading unit axes, one row spread over many rows)
  with the column ones: a vector `[a]` viewed as a column, a row `[1, a]` viewed as a column, and a column `[a, 1]`
  spread to `[a, b]`. Each is the general lemma for its operation with the coordinate arithmetic done: a shape cast
  keeps the row-major position, and a broadcast reads coordinate 0 on a unit axis.
-/
import Idealize.ShloMosaic.Lib.ValueLayout

namespace Cert.LibColumn

open Idealize.ShloMosaic Idealize.ShloMosaic.ValueIdx

variable {α : Type}

/-- An `[a]` vector cast to an `[a, 1]` column reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a]` row cast to an `[a, 1]` column reads, at `(i, u)`, the row at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` column broadcast to `[a, b]` reads, at `(p, c)`, the column at `p`: every lane of a row holds the row's one
    entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PointValue.lean ====
import proofs.«178194_j39135742001578_1_alg».proof.Proof.Gen.KernelIdeal.Skeleton
import proofs.«178194_j39135742001578_1_alg».proof.Proof.RbfSpec
import proofs.«178194_j39135742001578_1_alg».proof.Proof.LibColumn
import Idealize.ShloMosaic.Lib.ValueIdx
import Idealize.ShloMosaic.Lib.Pipeline.Value
import Idealize.ShloMosaic.Lib.ValueLayout
import Idealize.ShloMosaic.PureOps.Ideal.Laws

/-!
# What one grid point computes, on extended reals

A grid point holds two 1024×256 tiles x (rows r) and y (rows c) and a carried 1×1 value s. It forms the squared norms
‖x r‖² and ‖y c‖² as lane sums, the cross products ⟨x r, y c⟩ as the matrix product of x with the transpose of y, the
entry exp(γ · max(‖x r‖² + ‖y c‖² − 2⟨x r, y c⟩, 0)) at every (r, c), and adds the sum of all entries to s. Read on
extended reals every step is exact: a lane sum is a finite sum, a change of float format is the identity, a cast, a
transpose or a broadcast reads one entry of its operand. So the stored value is s plus the sum over all pairs of rows of
the kernel entry of the two rows; the first grid point's other store is the constant zero.

The literals (γ, two, zero inside the maximum) stay as their 32-bit words, the same words the specification uses; only
the zero that is stored alone is evaluated.
-/

noncomputable section

namespace Cert.KernelIdeal.PointValue

open Idealize.ShloMosaic Idealize.ShloMosaic.ValueIdx Cert.KernelIdeal Cert.RbfSpec Cert.LibColumn

/-! ## Sums along one axis -/

/-- A sum along the lanes of a 1024×256 tile, read at row r. -/
theorem laneSum256_apply (v : FVec Ideal S1024x256 .f32) (h : S1024x256.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 256, v (ix2 r k) :=
  (Ideal.multiReduction_add_single v _ h hφ hacc (ix1 r)).trans
    (Finset.sum_congr rfl fun k _ => congrArg v (funext fun a => Fin.ext (by match a with | ⟨0, _⟩ => rfl | ⟨1, _⟩ => rfl)))

/-- A sum along the lanes of a 1024×1024 matrix, read at row r. -/
theorem laneSum1024_apply (v : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ c : Fin 1024, v (ix2 r c) :=
  (Ideal.multiReduction_add_single v _ h hφ hacc (ix1 r)).trans
    (Finset.sum_congr rfl fun k _ => congrArg v (funext fun a => Fin.ext (by match a with | ⟨0, _⟩ => rfl | ⟨1, _⟩ => rfl)))

/-- A sum down a 1024×1 column, read at its one lane. -/
theorem colSum_apply (v : FVec Ideal S1024x1 .f32) (h : S1024x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ r : Fin 1024, v (ix2 r u) :=
  (Ideal.multiReduction_add_single v _ h hφ hacc (ix1 u)).trans
    (Finset.sum_congr rfl fun k _ => congrArg v (funext fun a => Fin.ext (by match a with | ⟨0, _⟩ => rfl | ⟨1, _⟩ => rfl)))

/-! ## The matrix product at an index

The product contracts axis 1 of its left operand with axis 0 of its right one. The four facts below say where an output
index (r, c) and a contraction coordinate k sit in each operand: (r, k) on the left, (k, c) on the right. -/

theorem lhs_axis0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_axis1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_axis0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_axis1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The matrix product into a zero accumulator, read at (r, c): the sum over the contraction coordinate. -/
theorem tileProduct_apply (l : FVec Ideal S1024x256 .bf16) (m : FVec Ideal S256x1024 .bf16) (r c : Fin 1024) :
    matmul dot_S1024x256_S256x1024_S1024x1024_1_0_0_1_n_n none l m (constant (F := Ideal) S1024x1024 .f32 0x00000000#32) (ix2 r c)
      = ∑ k : Fin 256, l (ix2 r k) * m (ix2 k c) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r c) ((ValueIdx.contrEquiv1 dot_S1024x256_S256x1024_S1024x1024_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S1024x256_S256x1024_S1024x1024_1_0_0_1_n_n.rhsIdx (ix2 r c) ((ValueIdx.contrEquiv1 dot_S1024x256_S256x1024_S1024x1024_1_0_0_1_n_n 256 rfl rfl).symm k) = ix2 k c := funext fun a => Fin.ext (by
    match a with
    | ⟨0, _⟩ => exact (rhs_axis0 _ _).trans hk
    | ⟨1, _⟩ => exact rhs_axis1 _ _)
  rw [el, er]

/-! ## The three inner products at an index -/

/-- The squared norm of each row, as a column: at (r, u) it is the row's inner product with itself. -/
theorem sqCol_apply (v : FVec Ideal S1024x256 .f32) (h : S1024x256.Reduces [1] S1024) (hφ : FKind.Formats .f32)
    (hacc : (0x00000000#32 : BitVec 32) = FKind.add.neutral .f32 hφ) (hc : S1024.ShapeCasts S1024x1) (r : Fin 1024) (u : Fin 1) :
    shapeCast S1024x1 (multiReduction .add [1] S1024 (mulf v v) 0x00000000#32 h hφ hacc) hc (ix2 r u) = dot (row v r) (row v r) :=
  (shapeCast_a_a1_apply _ hc r u).trans (laneSum256_apply _ h hφ hacc r)

/-- That column spread over the lanes: at (r, c) the squared norm of row r. -/
theorem sqRows_apply (v : FVec Ideal S1024x256 .f32) (h : S1024x256.Reduces [1] S1024) (hφ : FKind.Formats .f32)
    (hacc : (0x00000000#32 : BitVec 32) = FKind.add.neutral .f32 hφ) (hc : S1024.ShapeCasts S1024x1)
    (hb : S1024x1.Broadcasts S1024x1024) (r c : Fin 1024) :
    broadcastTo S1024x1024 (shapeCast S1024x1 (multiReduction .add [1] S1024 (mulf v v) 0x00000000#32 h hφ hacc) hc) hb (ix2 r c)
      = dot (row v r) (row v r) :=
  (broadcastTo_a1_ab_apply _ hb r c).trans (sqCol_apply v h hφ hacc hc r 0)

/-- The column transposed to a row and spread over the rows: at (r, c) the squared norm of row c. -/
theorem sqCols_apply (v : FVec Ideal S1024x256 .f32) (h : S1024x256.Reduces [1] S1024) (hφ : FKind.Formats .f32)
    (hacc : (0x00000000#32 : BitVec 32) = FKind.add.neutral .f32 hφ) (hc : S1024.ShapeCasts S1024x1)
    (ht : S1024x1.Transposes [1, 0] S1x1024) (hb : S1x1024.Broadcasts S1024x1024) (r c : Fin 1024) :
    broadcastTo S1024x1024 (transpose S1x1024 [1, 0] (shapeCast S1024x1 (multiReduction .add [1] S1024 (mulf v v) 0x00000000#32 h hφ hacc) hc) ht) hb (ix2 r c)
      = dot (row v c) (row v c) :=
  (broadcastTo_1b_ab_apply _ hb r c).trans ((transpose_ix2_apply _ ht 0 c).trans (sqCol_apply v h hφ hacc hc c 0))

/-- The product of the first tile with the transpose of the second, read at (r, c): the inner product of row r of the first
    with row c of the second (the change of format is the identity on extended reals). -/
theorem cross_apply (x y : FVec Ideal S1024x256 .f32) (hlt : FTy.bits .bf16 < FTy.bits .f32)
    (ht : S1024x256.Transposes [1, 0] S256x1024) (r c : Fin 1024) :
    matmul dot_S1024x256_S256x1024_S1024x1024_1_0_0_1_n_n none (truncf .bf16 x hlt)
        (transpose S256x1024 [1, 0] (truncf .bf16 y hlt) ht) (constant (F := Ideal) S1024x1024 .f32 0x00000000#32) (ix2 r c)
      = dot (row x r) (row y c) :=
  (tileProduct_apply _ _ r c).trans (Finset.sum_congr rfl fun k _ =>
    congrArg (x (ix2 r k) * ·) (transpose_ix2_apply (truncf .bf16 y hlt) ht k c))

/-! ## One entry, and the sum of the entries -/

/-- The arithmetic of one entry, for any three matrices A (the first squared norms), B (the second) and C (the cross
    products): exp(γ · max((A + B) − 2·C, 0)) with the three literals left as their words. -/
theorem entry_apply (A B C : FVec Ideal S1024x1024 .f32) (i : S1024x1024.Idx) :
    exp (mulf (broadcast S1024x1024 (Scalar.ofBits (F := Ideal) .f32 0xBB800000#32))
      (maximumf (subf (addf A B) (mulf (broadcast S1024x1024 (Scalar.ofBits (F := Ideal) .f32 0x40000000#32)) C))
        (broadcast S1024x1024 (Scalar.ofBits (F := Ideal) .f32 0x00000000#32)))) i
      = Ideal.exp (Ideal.ofBits .f32 0xBB800000#32
          * max ((A i + B i) - Ideal.ofBits .f32 0x40000000#32 * C i) (Ideal.ofBits .f32 0x00000000#32)) := rfl

/-- The entry arithmetic over the three inner products is the kernel entry of the two rows. -/
theorem kern_of_eq {a b : Fin 256 → EReal} {A B C : EReal} (hA : A = dot a a) (hB : B = dot b b) (hC : C = dot a b) :
    Ideal.exp (Ideal.ofBits .f32 0xBB800000#32
        * max ((A + B) - Ideal.ofBits .f32 0x40000000#32 * C) (Ideal.ofBits .f32 0x00000000#32)) = kern a b := by
  subst hA hB hC; rfl

/-- The two sums that follow the entries — along the lanes, then down the column, through the two casts — read at the one
    index of the 1×1 result: the double sum of the matrix. -/
theorem total_apply (M : FVec Ideal S1024x1024 .f32) (h1 : S1024x1024.Reduces [1] S1024) (hφ : FKind.Formats .f32)
    (hacc : (0x00000000#32 : BitVec 32) = FKind.add.neutral .f32 hφ) (hc : S1024.ShapeCasts S1024x1)
    (h0 : S1024x1.Reduces [0] S1) (hφ' : FKind.Formats .f32) (hacc' : (0x00000000#32 : BitVec 32) = FKind.add.neutral .f32 hφ')
    (hc1 : S1.ShapeCasts S1x1) (p q : Fin 1) :
    shapeCast S1x1 (multiReduction .add [0] S1 (shapeCast S1024x1 (multiReduction .add [1] S1024 M 0x00000000#32 h1 hφ hacc) hc)
        0x00000000#32 h0 hφ' hacc') hc1 (ix2 p q) = ∑ r : Fin 1024, ∑ c : Fin 1024, M (ix2 r c) :=
  (shapeCast_a_1a_apply _ hc1 p q).trans ((colSum_apply _ h0 hφ' hacc' q).trans
    (Finset.sum_congr rfl fun r _ => (shapeCast_a_a1_apply _ hc r q).trans (laneSum1024_apply M h1 hφ hacc r)))

/-! ## The two values a grid point stores -/

/-- The zeroing payload is zero everywhere. -/
theorem pay1_apply (j : S1x1.Idx) : Gen.k0_pay1 (F := Ideal) j = 0 := by
  unfold Gen.k0_pay1
  refine (congrFun (shapeCast_self _ _) j).trans ?_
  exact Ideal.ofBits_zero_f32

/-- The accumulating payload: the carried value plus the sum of the kernel entries over every pair of rows of the two tiles. -/
theorem pay2_apply (x y : Vec Ideal S1024x256 .f32) (s : Vec Ideal S1x1 .f32) (j : S1x1.Idx) :
    Gen.k0_pay2 (F := Ideal) x y s j = s j + pairSum x y := by
  obtain ⟨p, q, rfl⟩ : ∃ (p : Fin 1) (q : Fin 1), j = ix2 p q := ⟨j 0, j 1, eq_ix2 j⟩
  unfold Gen.k0_pay2
  refine (congrFun (shapeCast_self _ _) _).trans ?_
  refine congrArg (s (ix2 p q) + ·) ?_
  refine (total_apply _ _ _ _ _ _ _ _ _ p q).trans ?_
  refine Finset.sum_congr rfl fun r _ => Finset.sum_congr rfl fun c _ => ?_
  refine (entry_apply _ _ _ _).trans ?_
  exact kern_of_eq (sqRows_apply x _ _ _ _ _ r c) (sqCols_apply y _ _ _ _ _ _ r c) (cross_apply x y _ _ r c)

end Cert.KernelIdeal.PointValue

end
-- ==== Proof.KIOut0.lean ====
import proofs.«178194_j39135742001578_1_alg».proof.Proof.KIRegion0
import proofs.«178194_j39135742001578_1_alg».proof.Proof.BlockSum
import proofs.«178194_j39135742001578_1_alg».proof.Proof.PointValue
import Idealize.ShloMosaic.Lib.Pipeline.Value

set_option maxRecDepth 16384

noncomputable section

namespace Cert.KernelIdeal.RbfValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Rbf
open Cert.RbfSpec

/-! # What one of the three calls leaves in its 1×1 result

The 8 × 8 grid walks the pairs of row tiles in row-major order: point t holds rows (t / 8)·1024 … of the first operand
and rows (t % 8)·1024 … of the second. Each point adds the kernel entries over its pair of tiles to the running sum,
so after the last point the sum is over every pair of rows, and the last point's write-back fills the 1×1 array. -/

section Out0

variable (V : (c : Dev nD) → (b : Ref sig .tc) → Buf (Elt Ideal) ((c : Thread nD τ).loc b))

/-- The call's two operands (the arrays its two input windows read), as arrays of 8192 rows of 256 entries. -/
abbrev X0 (c : Dev nD) : (⟨2, ![8192, 256]⟩ : Shape).Idx → EReal := V c main_arg0
abbrev Y0 (c : Dev nD) : (⟨2, ![8192, 256]⟩ : Shape).Idx → EReal := V c main_arg0

/-- The grid has 64 points. -/
theorem lt64_0 (t : Fin cfg0.N) : t.val < 64 := lt_of_lt_of_eq t.isLt N_0

/-- The two inputs' block indices over the grid: the first follows the point's first coordinate, the second its second. -/
theorem idx0 : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-- The first tile at point t is rows of tile t / 8 of the first operand. -/
theorem xt0_apply (c : Dev nD) (t : Fin cfg0.N) (r : Fin 1024) (k : Fin 256) :
    xt0 V c t (ValueIdx.ix2 r k)
      = X0 V c (ValueIdx.ix2 (tileRow ⟨t.val / 8, by have := lt64_0 t; omega⟩ r) k) := by
  obtain ⟨e0, e1, -, -⟩ := idx0 t
  unfold xt0 iblk0
  show X0 V c (((cfg0.win 0).blk t).view.emb (ValueIdx.ix2 r k)) = X0 V c _
  refine congrArg _ (funext fun a => Fin.ext ?_)
  match a with
  | ⟨0, _⟩ => show win0_0.index t (0 : Fin 2) * 1024 + 1 * r.val = t.val / 8 * 1024 + r.val; rw [e0]; omega
  | ⟨1, _⟩ => show win0_0.index t (1 : Fin 2) * 256 + 1 * k.val = k.val; rw [e1]; omega

/-- The second tile at point t is rows of tile t % 8 of the second operand. -/
theorem yt0_apply (c : Dev nD) (t : Fin cfg0.N) (r : Fin 1024) (k : Fin 256) :
    yt0 V c t (ValueIdx.ix2 r k)
      = Y0 V c (ValueIdx.ix2 (tileRow ⟨t.val % 8, by omega⟩ r) k) := by
  obtain ⟨-, -, e0, e1⟩ := idx0 t
  unfold yt0 iblk0
  show Y0 V c (((cfg0.win 1).blk t).view.emb (ValueIdx.ix2 r k)) = Y0 V c _
  refine congrArg _ (funext fun a => Fin.ext ?_)
  match a with
  | ⟨0, _⟩ => show win0_1.index t (0 : Fin 2) * 1024 + 1 * r.val = t.val % 8 * 1024 + r.val; rw [e0]; omega
  | ⟨1, _⟩ => show win0_1.index t (1 : Fin 2) * 256 + 1 * k.val = k.val; rw [e1]; omega

/-- The kernel entries summed over the pairs of rows of tile bi of the first operand and tile bj of the second. -/
def tileSum0 (c : Dev nD) (bi bj : Fin 8) : EReal :=
  ∑ r : Fin 1024, ∑ q : Fin 1024, kern (row (X0 V c) (tileRow bi r)) (row (Y0 V c) (tileRow bj q))

/-- What point t adds to the running sum: the kernel entries over its pair of tiles. -/
theorem pairSum_tiles0 (c : Dev nD) (t : Fin cfg0.N) :
    pairSum (xt0 V c t) (yt0 V c t) = tileSum0 V c ⟨t.val / 8, by have := lt64_0 t; omega⟩ ⟨t.val % 8, by omega⟩ := by
  unfold pairSum tileSum0
  refine Finset.sum_congr rfl fun r _ => Finset.sum_congr rfl fun q _ => ?_
  exact congrArg₂ kern (funext fun k => xt0_apply V c t r k) (funext fun k => yt0_apply V c t q k)

/-- The term point t adds, as a function of the point's number (zero past the grid). -/
def g0 (c : Dev nD) (t : ℕ) : EReal :=
  if h : t < cfg0.N then pairSum (xt0 V c ⟨t, h⟩) (yt0 V c ⟨t, h⟩) else 0

/-- After point n the running sum holds the terms of the points up to n. -/
theorem acc0_closed (c : Dev nD) (j : S1x1.Idx) :
    ∀ (n : ℕ) (hn : n < cfg0.N), acc0 V c n hn j = ∑ t ∈ Finset.range (n + 1), g0 V c t
  | 0, hn => by
    rw [Finset.sum_range_one]
    show k0_pay2 (F := Ideal) (xt0 V c ⟨0, hn⟩) (yt0 V c ⟨0, hn⟩) (k0_pay1 (F := Ideal)) j = g0 V c 0
    refine (PointValue.pay2_apply _ _ _ j).trans ?_
    rw [PointValue.pay1_apply, zero_add]
    unfold g0; rw [dif_pos hn]
  | n + 1, hn => by
    rw [Finset.sum_range_succ, ← acc0_closed c j n (Nat.lt_of_succ_lt hn)]
    show k0_pay2 (F := Ideal) (xt0 V c ⟨n + 1, hn⟩) (yt0 V c ⟨n + 1, hn⟩) (acc0 V c n (Nat.lt_of_succ_lt hn)) j = _
    refine (PointValue.pay2_apply _ _ _ j).trans ?_
    unfold g0; rw [dif_pos hn]

/-- Point t's term is the tile sum at the grid coordinates (t / 8, t % 8). -/
theorem g0_eq (c : Dev nD) (t : ℕ) :
    g0 V c t = if h : t < 64 then tileSum0 V c ⟨t / 8, by omega⟩ ⟨t % 8, by omega⟩ else 0 := by
  by_cases h : t < 64
  · rw [dif_pos h]; unfold g0; rw [dif_pos (lt_of_lt_of_eq h N_0.symm)]
    exact pairSum_tiles0 V c ⟨t, lt_of_lt_of_eq h N_0.symm⟩
  · rw [dif_neg h]; unfold g0; rw [dif_neg (fun h' => h (lt_of_lt_of_eq h' N_0))]

/-- The 64 points' terms add up to the sum over every pair of rows. -/
theorem total0 (c : Dev nD) : ∑ t ∈ Finset.range 64, g0 V c t = pairSum (X0 V c) (Y0 V c) := by
  rw [Finset.sum_congr rfl fun t _ => g0_eq V c t, sum_points (tileSum0 V c)]
  exact sum_tiles fun R C => kern (row (X0 V c) R) (row (Y0 V c) C)

/-! ## The write-back -/

/-- The grid's last point, the only one that writes the result back. -/
abbrev tLast0 : Fin cfg0.N := ⟨63, lt_of_lt_of_eq (by omega : 63 < 64) N_0.symm⟩

/-- The result's block index is (0, 0) at every point. -/
theorem idxOut0 : ∀ t : Fin cfg0.N, win0_2.index t (0 : Fin 2) = 0 ∧ win0_2.index t (1 : Fin 2) = 0 :=
  (by decide +kernel : ∀ t : Fin grid0.N, _)

/-- An index of the result array is in point t's block iff each coordinate is in the block's range on its axis. -/
theorem mem_out0 (t : Fin cfg0.N) (i : S1x1.Idx) :
    i ∈ ((cfg0.win 2).blk t).view.set
      ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The last point's block is the whole 1×1 array. -/
theorem cover0 (i : S1x1.Idx) : ∃ t : Fin cfg0.N, (cfg0.win 2).flush t = true ∧ i ∈ ((cfg0.win 2).blk t).view.set := by
  refine ⟨tLast0, (flush0_2 tLast0).mpr rfl, ?_⟩
  rw [mem_out0]
  obtain ⟨e0, e1⟩ := idxOut0 tLast0
  have h0 : (i 0).val < 1 := ValueIdx.idx2_lt0 i
  have h1 : (i 1).val < 1 := ValueIdx.idx2_lt1 i
  intro a
  match a with
  | ⟨0, _⟩ => show win0_2.index tLast0 (0 : Fin 2) * 1 ≤ (i 0).val ∧ (i 0).val < win0_2.index tLast0 (0 : Fin 2) * 1 + 1; rw [e0]; omega
  | ⟨1, _⟩ => show win0_2.index tLast0 (1 : Fin 2) * 1 ≤ (i 1).val ∧ (i 1).val < win0_2.index tLast0 (1 : Fin 2) * 1 + 1; rw [e1]; omega

/-- After the last point the running sum is the sum over every pair of rows. -/
theorem acc0_last (c : Dev nD) (t : Fin cfg0.N) (h : t.val = 63) (j : S1x1.Idx) :
    acc0 V c t.val t.isLt j = pairSum (X0 V c) (Y0 V c) := by
  obtain ⟨n, hn⟩ := t
  obtain rfl : n = 63 := h
  exact (acc0_closed V c j 63 hn).trans (total0 V c)

variable (q0 q1 : PosShare TreeShare)

/-- What the one write-back writes is the block of the constant array at that sum. -/
theorem flushed0_eq (c : Dev nD) (t : Fin cfg0.N) (hf : (cfg0.win 2).flush t = true) :
    (dat0 (F := Ideal) V q0 q1 c).flushed 2 t
      = ((cfg0.win 2).blk t).view.read (Elt Ideal) (fun _ => pairSum (X0 V c) (Y0 V c)) := by
  have h63 : t.val = 63 := by have := (flush0_2 t).mp hf; have := lt64_0 t; omega
  show (cfg0.win 2).cut (grid0.coords t) ((dat0 (F := Ideal) V q0 q1 c).after 2 t) = _
  rw [after0_2]
  funext j
  exact acc0_last V c t h63 j

/-- THE RESULT of the call: the kernel entries summed over every pair of rows of its two operands. -/
theorem out_val0 (c : Dev nD) :
    (dat0 (F := Ideal) V q0 q1 c).arrAt 2 cfg0.N
      = fun _ => pairSum (V c main_arg0 : (⟨2, ![8192, 256]⟩ : Shape).Idx → EReal) (V c main_arg0 : (⟨2, ![8192, 256]⟩ : Shape).Idx → EReal) :=
  (dat0 (F := Ideal) V q0 q1 c).arrAt_eq_of_cover 2 (fun _ => pairSum (X0 V c) (Y0 V c))
    (fun t hf => flushed0_eq V q0 q1 c t hf) cover0

end Out0

end Cert.KernelIdeal.RbfValue

end
-- ==== Proof.KIOut1.lean ====
import proofs.«178194_j39135742001578_1_alg».proof.Proof.KIRegion1
import proofs.«178194_j39135742001578_1_alg».proof.Proof.BlockSum
import proofs.«178194_j39135742001578_1_alg».proof.Proof.PointValue
import Idealize.ShloMosaic.Lib.Pipeline.Value

set_option maxRecDepth 16384

noncomputable section

namespace Cert.KernelIdeal.RbfValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Rbf
open Cert.RbfSpec

/-! # What one of the three calls leaves in its 1×1 result

The 8 × 8 grid walks the pairs of row tiles in row-major order: point t holds rows (t / 8)·1024 … of the first operand
and rows (t % 8)·1024 … of the second. Each point adds the kernel entries over its pair of tiles to the running sum,
so after the last point the sum is over every pair of rows, and the last point's write-back fills the 1×1 array. -/

section Out1

variable (V : (c : Dev nD) → (b : Ref sig .tc) → Buf (Elt Ideal) ((c : Thread nD τ).loc b))

/-- The call's two operands (the arrays its two input windows read), as arrays of 8192 rows of 256 entries. -/
abbrev X1 (c : Dev nD) : (⟨2, ![8192, 256]⟩ : Shape).Idx → EReal := V c main_arg1
abbrev Y1 (c : Dev nD) : (⟨2, ![8192, 256]⟩ : Shape).Idx → EReal := V c main_arg1

/-- The grid has 64 points. -/
theorem lt64_1 (t : Fin cfg1.N) : t.val < 64 := lt_of_lt_of_eq t.isLt N_1

/-- The two inputs' block indices over the grid: the first follows the point's first coordinate, the second its second. -/
theorem idx1 : ∀ t : Fin cfg1.N, win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, _)

/-- The first tile at point t is rows of tile t / 8 of the first operand. -/
theorem xt1_apply (c : Dev nD) (t : Fin cfg1.N) (r : Fin 1024) (k : Fin 256) :
    xt1 V c t (ValueIdx.ix2 r k)
      = X1 V c (ValueIdx.ix2 (tileRow ⟨t.val / 8, by have := lt64_1 t; omega⟩ r) k) := by
  obtain ⟨e0, e1, -, -⟩ := idx1 t
  unfold xt1 iblk1
  show X1 V c (((cfg1.win 0).blk t).view.emb (ValueIdx.ix2 r k)) = X1 V c _
  refine congrArg _ (funext fun a => Fin.ext ?_)
  match a with
  | ⟨0, _⟩ => show win1_0.index t (0 : Fin 2) * 1024 + 1 * r.val = t.val / 8 * 1024 + r.val; rw [e0]; omega
  | ⟨1, _⟩ => show win1_0.index t (1 : Fin 2) * 256 + 1 * k.val = k.val; rw [e1]; omega

/-- The second tile at point t is rows of tile t % 8 of the second operand. -/
theorem yt1_apply (c : Dev nD) (t : Fin cfg1.N) (r : Fin 1024) (k : Fin 256) :
    yt1 V c t (ValueIdx.ix2 r k)
      = Y1 V c (ValueIdx.ix2 (tileRow ⟨t.val % 8, by omega⟩ r) k) := by
  obtain ⟨-, -, e0, e1⟩ := idx1 t
  unfold yt1 iblk1
  show Y1 V c (((cfg1.win 1).blk t).view.emb (ValueIdx.ix2 r k)) = Y1 V c _
  refine congrArg _ (funext fun a => Fin.ext ?_)
  match a with
  | ⟨0, _⟩ => show win1_1.index t (0 : Fin 2) * 1024 + 1 * r.val = t.val % 8 * 1024 + r.val; rw [e0]; omega
  | ⟨1, _⟩ => show win1_1.index t (1 : Fin 2) * 256 + 1 * k.val = k.val; rw [e1]; omega

/-- The kernel entries summed over the pairs of rows of tile bi of the first operand and tile bj of the second. -/
def tileSum1 (c : Dev nD) (bi bj : Fin 8) : EReal :=
  ∑ r : Fin 1024, ∑ q : Fin 1024, kern (row (X1 V c) (tileRow bi r)) (row (Y1 V c) (tileRow bj q))

/-- What point t adds to the running sum: the kernel entries over its pair of tiles. -/
theorem pairSum_tiles1 (c : Dev nD) (t : Fin cfg1.N) :
    pairSum (xt1 V c t) (yt1 V c t) = tileSum1 V c ⟨t.val / 8, by have := lt64_1 t; omega⟩ ⟨t.val % 8, by omega⟩ := by
  unfold pairSum tileSum1
  refine Finset.sum_congr rfl fun r _ => Finset.sum_congr rfl fun q _ => ?_
  exact congrArg₂ kern (funext fun k => xt1_apply V c t r k) (funext fun k => yt1_apply V c t q k)

/-- The term point t adds, as a function of the point's number (zero past the grid). -/
def g1 (c : Dev nD) (t : ℕ) : EReal :=
  if h : t < cfg1.N then pairSum (xt1 V c ⟨t, h⟩) (yt1 V c ⟨t, h⟩) else 0

/-- After point n the running sum holds the terms of the points up to n. -/
theorem acc1_closed (c : Dev nD) (j : S1x1.Idx) :
    ∀ (n : ℕ) (hn : n < cfg1.N), acc1 V c n hn j = ∑ t ∈ Finset.range (n + 1), g1 V c t
  | 0, hn => by
    rw [Finset.sum_range_one]
    show k0_pay2 (F := Ideal) (xt1 V c ⟨0, hn⟩) (yt1 V c ⟨0, hn⟩) (k0_pay1 (F := Ideal)) j = g1 V c 0
    refine (PointValue.pay2_apply _ _ _ j).trans ?_
    rw [PointValue.pay1_apply, zero_add]
    unfold g1; rw [dif_pos hn]
  | n + 1, hn => by
    rw [Finset.sum_range_succ, ← acc1_closed c j n (Nat.lt_of_succ_lt hn)]
    show k0_pay2 (F := Ideal) (xt1 V c ⟨n + 1, hn⟩) (yt1 V c ⟨n + 1, hn⟩) (acc1 V c n (Nat.lt_of_succ_lt hn)) j = _
    refine (PointValue.pay2_apply _ _ _ j).trans ?_
    unfold g1; rw [dif_pos hn]

/-- Point t's term is the tile sum at the grid coordinates (t / 8, t % 8). -/
theorem g1_eq (c : Dev nD) (t : ℕ) :
    g1 V c t = if h : t < 64 then tileSum1 V c ⟨t / 8, by omega⟩ ⟨t % 8, by omega⟩ else 0 := by
  by_cases h : t < 64
  · rw [dif_pos h]; unfold g1; rw [dif_pos (lt_of_lt_of_eq h N_1.symm)]
    exact pairSum_tiles1 V c ⟨t, lt_of_lt_of_eq h N_1.symm⟩
  · rw [dif_neg h]; unfold g1; rw [dif_neg (fun h' => h (lt_of_lt_of_eq h' N_1))]

/-- The 64 points' terms add up to the sum over every pair of rows. -/
theorem total1 (c : Dev nD) : ∑ t ∈ Finset.range 64, g1 V c t = pairSum (X1 V c) (Y1 V c) := by
  rw [Finset.sum_congr rfl fun t _ => g1_eq V c t, sum_points (tileSum1 V c)]
  exact sum_tiles fun R C => kern (row (X1 V c) R) (row (Y1 V c) C)

/-! ## The write-back -/

/-- The grid's last point, the only one that writes the result back. -/
abbrev tLast1 : Fin cfg1.N := ⟨63, lt_of_lt_of_eq (by omega : 63 < 64) N_1.symm⟩

/-- The result's block index is (0, 0) at every point. -/
theorem idxOut1 : ∀ t : Fin cfg1.N, win1_2.index t (0 : Fin 2) = 0 ∧ win1_2.index t (1 : Fin 2) = 0 :=
  (by decide +kernel : ∀ t : Fin grid1.N, _)

/-- An index of the result array is in point t's block iff each coordinate is in the block's range on its axis. -/
theorem mem_out1 (t : Fin cfg1.N) (i : S1x1.Idx) :
    i ∈ ((cfg1.win 2).blk t).view.set
      ↔ ∀ a : Fin 2, win1_2.index t a * S1x1.size a ≤ (i a).val ∧ (i a).val < win1_2.index t a * S1x1.size a + S1x1.size a := by
  show i ∈ ((View.whole main_v2).slice (win1_2.rect t)).set ↔ _
  rw [View.set_slice_whole, Rect.mem_set_unit]
  exact Iff.rfl

/-- The last point's block is the whole 1×1 array. -/
theorem cover1 (i : S1x1.Idx) : ∃ t : Fin cfg1.N, (cfg1.win 2).flush t = true ∧ i ∈ ((cfg1.win 2).blk t).view.set := by
  refine ⟨tLast1, (flush1_2 tLast1).mpr rfl, ?_⟩
  rw [mem_out1]
  obtain ⟨e0, e1⟩ := idxOut1 tLast1
  have h0 : (i 0).val < 1 := ValueIdx.idx2_lt0 i
  have h1 : (i 1).val < 1 := ValueIdx.idx2_lt1 i
  intro a
  match a with
  | ⟨0, _⟩ => show win1_2.index tLast1 (0 : Fin 2) * 1 ≤ (i 0).val ∧ (i 0).val < win1_2.index tLast1 (0 : Fin 2) * 1 + 1; rw [e0]; omega
  | ⟨1, _⟩ => show win1_2.index tLast1 (1 : Fin 2) * 1 ≤ (i 1).val ∧ (i 1).val < win1_2.index tLast1 (1 : Fin 2) * 1 + 1; rw [e1]; omega

/-- After the last point the running sum is the sum over every pair of rows. -/
theorem acc1_last (c : Dev nD) (t : Fin cfg1.N) (h : t.val = 63) (j : S1x1.Idx) :
    acc1 V c t.val t.isLt j = pairSum (X1 V c) (Y1 V c) := by
  obtain ⟨n, hn⟩ := t
  obtain rfl : n = 63 := h
  exact (acc1_closed V c j 63 hn).trans (total1 V c)

variable (q0 q1 : PosShare TreeShare)

/-- What the one write-back writes is the block of the constant array at that sum. -/
theorem flushed1_eq (c : Dev nD) (t : Fin cfg1.N) (hf : (cfg1.win 2).flush t = true) :
    (dat1 (F := Ideal) V q0 q1 c).flushed 2 t
      = ((cfg1.win 2).blk t).view.read (Elt Ideal) (fun _ => pairSum (X1 V c) (Y1 V c)) := by
  have h63 : t.val = 63 := by have := (flush1_2 t).mp hf; have := lt64_1 t; omega
  show (cfg1.win 2).cut (grid1.coords t) ((dat1 (F := Ideal) V q0 q1 c).after 2 t) = _
  rw [after1_2]
  funext j
  exact acc1_last V c t h63 j

/-- THE RESULT of the call: the kernel entries summed over every pair of rows of its two operands. -/
theorem out_val1 (c : Dev nD) :
    (dat1 (F := Ideal) V q0 q1 c).arrAt 2 cfg1.N
      = fun _ => pairSum (V c main_arg1 : (⟨2, ![8192, 256]⟩ : Shape).Idx → EReal) (V c main_arg1 : (⟨2, ![8192, 256]⟩ : Shape).Idx → EReal) :=
  (dat1 (F := Ideal) V q0 q1 c).arrAt_eq_of_cover 2 (fun _ => pairSum (X1 V c) (Y1 V c))
    (fun t hf => flushed1_eq V q0 q1 c t hf) cover1

end Out1

end Cert.KernelIdeal.RbfValue

end
-- ==== Proof.KIOut2.lean ====
import proofs.«178194_j39135742001578_1_alg».proof.Proof.KIRegion2
import proofs.«178194_j39135742001578_1_alg».proof.Proof.BlockSum
import proofs.«178194_j39135742001578_1_alg».proof.Proof.PointValue
import Idealize.ShloMosaic.Lib.Pipeline.Value

set_option maxRecDepth 16384

noncomputable section

namespace Cert.KernelIdeal.RbfValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Rbf
open Cert.RbfSpec

/-! # What one of the three calls leaves in its 1×1 result

The 8 × 8 grid walks the pairs of row tiles in row-major order: point t holds rows (t / 8)·1024 … of the first operand
and rows (t % 8)·1024 … of the second. Each point adds the kernel entries over its pair of tiles to the running sum,
so after the last point the sum is over every pair of rows, and the last point's write-back fills the 1×1 array. -/

section Out2

variable (V : (c : Dev nD) → (b : Ref sig .tc) → Buf (Elt Ideal) ((c : Thread nD τ).loc b))

/-- The call's two operands (the arrays its two input windows read), as arrays of 8192 rows of 256 entries. -/
abbrev X2 (c : Dev nD) : (⟨2, ![8192, 256]⟩ : Shape).Idx → EReal := V c main_arg0
abbrev Y2 (c : Dev nD) : (⟨2, ![8192, 256]⟩ : Shape).Idx → EReal := V c main_arg1

/-- The grid has 64 points. -/
theorem lt64_2 (t : Fin cfg2.N) : t.val < 64 := lt_of_lt_of_eq t.isLt N_2

/-- The two inputs' block indices over the grid: the first follows the point's first coordinate, the second its second. -/
theorem idx2 : ∀ t : Fin cfg2.N, win2_0.index t (0 : Fin 2) = t.val / 8 ∧ win2_0.index t (1 : Fin 2) = 0
    ∧ win2_1.index t (0 : Fin 2) = t.val % 8 ∧ win2_1.index t (1 : Fin 2) = 0 :=
  (by decide +kernel : ∀ t : Fin grid2.N, _)

/-- The first tile at point t is rows of tile t / 8 of the first operand. -/
theorem xt2_apply (c : Dev nD) (t : Fin cfg2.N) (r : Fin 1024) (k : Fin 256) :
    xt2 V c t (ValueIdx.ix2 r k)
      = X2 V c (ValueIdx.ix2 (tileRow ⟨t.val / 8, by have := lt64_2 t; omega⟩ r) k) := by
  obtain ⟨e0, e1, -, -⟩ := idx2 t
  unfold xt2 iblk2
  show X2 V c (((cfg2.win 0).blk t).view.emb (ValueIdx.ix2 r k)) = X2 V c _
  refine congrArg _ (funext fun a => Fin.ext ?_)
  match a with
  | ⟨0, _⟩ => show win2_0.index t (0 : Fin 2) * 1024 + 1 * r.val = t.val / 8 * 1024 + r.val; rw [e0]; omega
  | ⟨1, _⟩ => show win2_0.index t (1 : Fin 2) * 256 + 1 * k.val = k.val; rw [e1]; omega

/-- The second tile at point t is rows of tile t % 8 of the second operand. -/
theorem yt2_apply (c : Dev nD) (t : Fin cfg2.N) (r : Fin 1024) (k : Fin 256) :
    yt2 V c t (ValueIdx.ix2 r k)
      = Y2 V c (ValueIdx.ix2 (tileRow ⟨t.val % 8, by omega⟩ r) k) := by
  obtain ⟨-, -, e0, e1⟩ := idx2 t
  unfold yt2 iblk2
  show Y2 V c (((cfg2.win 1).blk t).view.emb (ValueIdx.ix2 r k)) = Y2 V c _
  refine congrArg _ (funext fun a => Fin.ext ?_)
  match a with
  | ⟨0, _⟩ => show win2_1.index t (0 : Fin 2) * 1024 + 1 * r.val = t.val % 8 * 1024 + r.val; rw [e0]; omega
  | ⟨1, _⟩ => show win2_1.index t (1 : Fin 2) * 256 + 1 * k.val = k.val; rw [e1]; omega

/-- The kernel entries summed over the pairs of rows of tile bi of the first operand and tile bj of the second. -/
def tileSum2 (c : Dev nD) (bi bj : Fin 8) : EReal :=
  ∑ r : Fin 1024, ∑ q : Fin 1024, kern (row (X2 V c) (tileRow bi r)) (row (Y2 V c) (tileRow bj q))

/-- What point t adds to the running sum: the kernel entries over its pair of tiles. -/
theorem pairSum_tiles2 (c : Dev nD) (t : Fin cfg2.N) :
    pairSum (xt2 V c t) (yt2 V c t) = tileSum2 V c ⟨t.val / 8, by have := lt64_2 t; omega⟩ ⟨t.val % 8, by omega⟩ := by
  unfold pairSum tileSum2
  refine Finset.sum_congr rfl fun r _ => Finset.sum_congr rfl fun q _ => ?_
  exact congrArg₂ kern (funext fun k => xt2_apply V c t r k) (funext fun k => yt2_apply V c t q k)

/-- The term point t adds, as a function of the point's number (zero past the grid). -/
def g2 (c : Dev nD) (t : ℕ) : EReal :=
  if h : t < cfg2.N then pairSum (xt2 V c ⟨t, h⟩) (yt2 V c ⟨t, h⟩) else 0

/-- After point n the running sum holds the terms of the points up to n. -/
theorem acc2_closed (c : Dev nD) (j : S1x1.Idx) :
    ∀ (n : ℕ) (hn : n < cfg2.N), acc2 V c n hn j = ∑ t ∈ Finset.range (n + 1), g2 V c t
  | 0, hn => by
    rw [Finset.sum_range_one]
    show k0_pay2 (F := Ideal) (xt2 V c ⟨0, hn⟩) (yt2 V c ⟨0, hn⟩) (k0_pay1 (F := Ideal)) j = g2 V c 0
    refine (PointValue.pay2_apply _ _ _ j).trans ?_
    rw [PointValue.pay1_apply, zero_add]
    unfold g2; rw [dif_pos hn]
  | n + 1, hn => by
    rw [Finset.sum_range_succ, ← acc2_closed c j n (Nat.lt_of_succ_lt hn)]
    show k0_pay2 (F := Ideal) (xt2 V c ⟨n + 1, hn⟩) (yt2 V c ⟨n + 1, hn⟩) (acc2 V c n (Nat.lt_of_succ_lt hn)) j = _
    refine (PointValue.pay2_apply _ _ _ j).trans ?_
    unfold g2; rw [dif_pos hn]

/-- Point t's term is the tile sum at the grid coordinates (t / 8, t % 8). -/
theorem g2_eq (c : Dev nD) (t : ℕ) :
    g2 V c t = if h : t < 64 then tileSum2 V c ⟨t / 8, by omega⟩ ⟨t % 8, by omega⟩ else 0 := by
  by_cases h : t < 64
  · rw [dif_pos h]; unfold g2; rw [dif_pos (lt_of_lt_of_eq h N_2.symm)]
    exact pairSum_tiles2 V c ⟨t, lt_of_lt_of_eq h N_2.symm⟩
  · rw [dif_neg h]; unfold g2; rw [dif_neg (fun h' => h (lt_of_lt_of_eq h' N_2))]

/-- The 64 points' terms add up to the sum over every pair of rows. -/
theorem total2 (c : Dev nD) : ∑ t ∈ Finset.range 64, g2 V c t = pairSum (X2 V c) (Y2 V c) := by
  rw [Finset.sum_congr rfl fun t _ => g2_eq V c t, sum_points (tileSum2 V c)]
  exact sum_tiles fun R C => kern (row (X2 V c) R) (row (Y2 V c) C)

/-! ## The write-back -/

/-- The grid's last point, the only one that writes the result back. -/
abbrev tLast2 : Fin cfg2.N := ⟨63, lt_of_lt_of_eq (by omega : 63 < 64) N_2.symm⟩

/-- The result's block index is (0, 0) at every point. -/
theorem idxOut2 : ∀ t : Fin cfg2.N, win2_2.index t (0 : Fin 2) = 0 ∧ win2_2.index t (1 : Fin 2) = 0 :=
  (by decide +kernel : ∀ t : Fin grid2.N, _)

/-- An index of the result array is in point t's block iff each coordinate is in the block's range on its axis. -/
theorem mem_out2 (t : Fin cfg2.N) (i : S1x1.Idx) :
    i ∈ ((cfg2.win 2).blk t).view.set
      ↔ ∀ a : Fin 2, win2_2.index t a * S1x1.size a ≤ (i a).val ∧ (i a).val < win2_2.index t a * S1x1.size a + S1x1.size a := by
  show i ∈ ((View.whole main_v4).slice (win2_2.rect t)).set ↔ _
  rw [View.set_slice_whole, Rect.mem_set_unit]
  exact Iff.rfl

/-- The last point's block is the whole 1×1 array. -/
theorem cover2 (i : S1x1.Idx) : ∃ t : Fin cfg2.N, (cfg2.win 2).flush t = true ∧ i ∈ ((cfg2.win 2).blk t).view.set := by
  refine ⟨tLast2, (flush2_2 tLast2).mpr rfl, ?_⟩
  rw [mem_out2]
  obtain ⟨e0, e1⟩ := idxOut2 tLast2
  have h0 : (i 0).val < 1 := ValueIdx.idx2_lt0 i
  have h1 : (i 1).val < 1 := ValueIdx.idx2_lt1 i
  intro a
  match a with
  | ⟨0, _⟩ => show win2_2.index tLast2 (0 : Fin 2) * 1 ≤ (i 0).val ∧ (i 0).val < win2_2.index tLast2 (0 : Fin 2) * 1 + 1; rw [e0]; omega
  | ⟨1, _⟩ => show win2_2.index tLast2 (1 : Fin 2) * 1 ≤ (i 1).val ∧ (i 1).val < win2_2.index tLast2 (1 : Fin 2) * 1 + 1; rw [e1]; omega

/-- After the last point the running sum is the sum over every pair of rows. -/
theorem acc2_last (c : Dev nD) (t : Fin cfg2.N) (h : t.val = 63) (j : S1x1.Idx) :
    acc2 V c t.val t.isLt j = pairSum (X2 V c) (Y2 V c) := by
  obtain ⟨n, hn⟩ := t
  obtain rfl : n = 63 := h
  exact (acc2_closed V c j 63 hn).trans (total2 V c)

variable (q0 q1 : PosShare TreeShare)

/-- What the one write-back writes is the block of the constant array at that sum. -/
theorem flushed2_eq (c : Dev nD) (t : Fin cfg2.N) (hf : (cfg2.win 2).flush t = true) :
    (dat2 (F := Ideal) V q0 q1 c).flushed 2 t
      = ((cfg2.win 2).blk t).view.read (Elt Ideal) (fun _ => pairSum (X2 V c) (Y2 V c)) := by
  have h63 : t.val = 63 := by have := (flush2_2 t).mp hf; have := lt64_2 t; omega
  show (cfg2.win 2).cut (grid2.coords t) ((dat2 (F := Ideal) V q0 q1 c).after 2 t) = _
  rw [after2_2]
  funext j
  exact acc2_last V c t h63 j

/-- THE RESULT of the call: the kernel entries summed over every pair of rows of its two operands. -/
theorem out_val2 (c : Dev nD) :
    (dat2 (F := Ideal) V q0 q1 c).arrAt 2 cfg2.N
      = fun _ => pairSum (V c main_arg0 : (⟨2, ![8192, 256]⟩ : Shape).Idx → EReal) (V c main_arg1 : (⟨2, ![8192, 256]⟩ : Shape).Idx → EReal) :=
  (dat2 (F := Ideal) V q0 q1 c).arrAt_eq_of_cover 2 (fun _ => pairSum (X2 V c) (Y2 V c))
    (fun t hf => flushed2_eq V q0 q1 c t hf) cover2

end Out2

end Cert.KernelIdeal.RbfValue

end
-- ==== Proof.KITail.lean ====
import proofs.«178194_j39135742001578_1_alg».proof.Proof.KIMain
import proofs.«178194_j39135742001578_1_alg».proof.Proof.RbfSpec
import proofs.«178194_j39135742001578_1_alg».proof.Proof.KIOut0
import proofs.«178194_j39135742001578_1_alg».proof.Proof.KIOut1
import proofs.«178194_j39135742001578_1_alg».proof.Proof.KIOut2
import Idealize.ShloMosaic.Lib.StableHlo.Run

set_option maxRecDepth 16384

noncomputable section

namespace Cert.KernelIdeal.RbfValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Rbf Cert.RbfSpec

local notation "𝕄" => MT nD τ sig Unit (Elt Ideal) ℕ (UR sig nD τ) ℕ

/-! # The host operations after the three calls, at the ideal instance

Each call's 1×1 result is recast to a scalar as the call ends; the last stretch divides the two symmetric sums by the
count, adds them, doubles the cross sum, divides it and subtracts: the specification's `kernelResult` of the three sums
over all pairs of rows. -/

variable (m : (ℓ : Loc nD τ sig) → Buf (Elt Ideal) ℓ)

/-- The argument arrays as the calls find them are the launch's. -/
theorem U2_arg1 (c : Dev nD) : U2 m c main_arg1 = m ((c : Thread nD τ).loc main_arg1) :=
  (W2_of m c main_arg1 (by decide)).trans ((W1_of_ne m c main_arg1 (by decide)).trans rfl)
theorem U4_arg0 (c : Dev nD) : U4 m c main_arg0 = m ((c : Thread nD τ).loc main_arg0) :=
  (W4_of m c main_arg0 (by decide)).trans <| (W3_of_ne m c main_arg0 (by decide)).trans <| (W2_of m c main_arg0 (by decide)).trans <| (W1_of_ne m c main_arg0 (by decide)).trans rfl
theorem U4_arg1 (c : Dev nD) : U4 m c main_arg1 = m ((c : Thread nD τ).loc main_arg1) :=
  (W4_of m c main_arg1 (by decide)).trans <| (W3_of_ne m c main_arg1 (by decide)).trans <| (W2_of m c main_arg1 (by decide)).trans <| (W1_of_ne m c main_arg1 (by decide)).trans rfl

/-- The three sums, of the launch's argument arrays. -/
abbrev sumSS (c : Dev nD) : EReal := pairSum (m ((c : Thread nD τ).loc main_arg0) : S8192x256.Idx → EReal) (m ((c : Thread nD τ).loc main_arg0) : S8192x256.Idx → EReal)
abbrev sumTT (c : Dev nD) : EReal := pairSum (m ((c : Thread nD τ).loc main_arg1) : S8192x256.Idx → EReal) (m ((c : Thread nD τ).loc main_arg1) : S8192x256.Idx → EReal)
abbrev sumST (c : Dev nD) : EReal := pairSum (m ((c : Thread nD τ).loc main_arg0) : S8192x256.Idx → EReal) (m ((c : Thread nD τ).loc main_arg1) : S8192x256.Idx → EReal)

theorem o0_val (c : Dev nD) : o0 m c = fun _ => sumSS m c := out_val0 (U0 m) qL qR c
theorem o1_val (c : Dev nD) : o1 m c = fun _ => sumTT m c := by
  refine (out_val1 (U2 m) qL qR c).trans ?_; rw [U2_arg1]
theorem o2_val (c : Dev nD) : o2 m c = fun _ => sumST m c := by
  refine (out_val2 (U4 m) fullShare fullShare c).trans ?_; rw [U4_arg0, U4_arg1]

/-- The first call's sum as a scalar, after the first recast. -/
theorem W2_v1 (c : Dev nD) : (W2 m c (Proc.devRef .tc main_v1) : S_.Idx → EReal) = fun _ => sumSS m c := by
  show StableHlo.after hostOps1 (W1 m c) (Proc.devRef .tc main_v1) = _
  after_results
  rw [W1_self, o0_val]
  rfl
theorem W4_v3 (c : Dev nD) : (W4 m c (Proc.devRef .tc main_v3) : S_.Idx → EReal) = fun _ => sumTT m c := by
  show StableHlo.after hostOps2 (W3 m c) (Proc.devRef .tc main_v3) = _
  after_results
  rw [W3_self, o1_val]
  rfl
theorem W5_v1 (c : Dev nD) : (W5 m c (Proc.devRef .tc main_v1) : S_.Idx → EReal) = fun _ => sumSS m c :=
  (W5_of_ne m c main_v1 (by decide)).trans <| (W4_of m c main_v1 (by decide)).trans <| (W3_of_ne m c main_v1 (by decide)).trans (W2_v1 m c)
theorem W5_v3 (c : Dev nD) : (W5 m c (Proc.devRef .tc main_v3) : S_.Idx → EReal) = fun _ => sumTT m c :=
  (W5_of_ne m c main_v3 (by decide)).trans (W4_v3 m c)

/-- THE RESULT: after the last stretch the result scalar holds the specification's value of the three sums. -/
theorem W6_v11 (c : Dev nD) :
    (W6 (F := Ideal) m c (Proc.devRef .tc main_v11) : S_.Idx → EReal) = fun _ => kernelResult (sumSS m c) (sumTT m c) (sumST m c) := by
  show StableHlo.after hostOps3 (W5 m c) (Proc.devRef .tc main_v11) = _
  after_results
  rw [W5_v1, W5_v3, W5_self, o2_val]
  rfl

end Cert.KernelIdeal.RbfValue

end
-- ==== Proof.RefValue.lean ====
import proofs.«178194_j39135742001578_1_alg».proof.Proof.Gen.ReferenceIdeal.Run
import proofs.«178194_j39135742001578_1_alg».proof.Proof.Gen.ReferenceIdeal.Read
import proofs.«178194_j39135742001578_1_alg».proof.Proof.RbfSpec
import Idealize.ShloMosaic.Lib.ValueIdx
import Idealize.ShloMosaic.PureOps.Ideal
import Idealize.ShloMosaic.PureOps.Ideal.Laws

/-!
# The reference's result, over the extended reals, as the specification's function of its two arrays

The reference forms three means in sequence, one per pair of arrays `(x, x)`, `(y, y)`, `(x, y)`. Each mean is the same
chain of stages applied to a pair `(a, b)`: the squared row norms `‖a_R‖²` and `‖b_C‖²` (a row sum of squares, started
at zero), the Gram entry `⟨a_R, b_C⟩` (a contraction over the 256 columns of `a` against the transpose of `b`), the
entry `exp(γ · max(‖a_R‖² + ‖b_C‖² − 2⟨a_R, b_C⟩, 0))`, the sum of all `8192 × 8192` entries (started at zero), and the
quotient by `2²⁶`. Read at an entry `(R, C)` the chain is `RbfSpec.kern (row a R) (row b C)`; the sum over every index of
the square array is the double sum over rows `R` and `C`, which is `RbfSpec.pairSum a b`. The three means are one chain
at three pairs of arguments, and the result is `(mean x x + mean y y) − 2 · mean x y`, which is
`RbfSpec.referenceResult`.
-/

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## Where the stages of the cross mean read their operands, at the entry `(R, C)` -/

/-- The squared norm broadcast along the columns reads, at entry `(R, C)` and summand `k`, the left array at `(R, k)`. -/
theorem sq_left_idx (R C : Fin 8192) (k : Fin 256) :
    idx_main_v44 (idx_main_v47 (idx_main_v49 (ix2 R C))) k = ix2 R k :=
  funext fun a => Fin.ext (by match a with | ⟨0, _⟩ => rfl | ⟨1, _⟩ => rfl)

/-- The squared norm broadcast along the rows reads, at entry `(R, C)` and summand `k`, the right array at `(C, k)`. -/
theorem sq_right_idx (R C : Fin 8192) (k : Fin 256) :
    idx_main_v46 (idx_main_v48 (idx_main_v50 (ix2 R C))) k = ix2 C k :=
  funext fun a => Fin.ext (by match a with | ⟨0, _⟩ => rfl | ⟨1, _⟩ => rfl)

/-- The contraction's left factor at entry `(R, C)` and summand `k` is the left array at `(R, k)`. -/
theorem dot_left_idx (R C : Fin 8192) (k : Fin 256) :
    lidx_main_v53 (ix2 R C) k = ix2 R k :=
  funext fun a => Fin.ext (by match a with | ⟨0, _⟩ => rfl | ⟨1, _⟩ => rfl)

/-- The contraction's right factor is the transpose at `(k, C)`, which is the right array at `(C, k)`. -/
theorem dot_right_idx (R C : Fin 8192) (k : Fin 256) :
    idx_main_v52 (ridx_main_v53 (ix2 R C) k) = ix2 C k :=
  funext fun a => Fin.ext (by match a with | ⟨0, _⟩ => rfl | ⟨1, _⟩ => rfl)

/-! ## One mean -/

/-- The exponential stage at the entry `(R, C)` is the kernel entry of row `R` of the left array and row `C` of the
    right one: `exp(γ · max(‖a_R‖² + ‖b_C‖² − 2⟨a_R, b_C⟩, 0))`, the two row sums started at zero. -/
theorem entry_eq (x0 x1 : FVec Ideal S8192x256 .f32) (R C : Fin 8192) :
    val_main_v61 (F := Ideal) x0 x1 (ix2 R C) = Cert.RbfSpec.kern (Cert.RbfSpec.row x0 R) (Cert.RbfSpec.row x1 C) := by
  rw [val_main_v61_apply, val_main_v60_apply, val_main_v59_apply, val_main_cst_17_apply, val_main_v58_apply,
    val_main_v56_apply, val_main_v57_apply, val_main_cst_16_apply, val_main_v51_apply, val_main_v49_apply, val_main_v47_apply,
    val_main_v44_apply, val_main_cst_13_apply, val_main_v50_apply, val_main_v48_apply, val_main_v46_apply, val_main_cst_14_apply,
    val_main_v55_apply, val_main_v54_apply, val_main_cst_15_apply, val_main_v53_apply]
  simp only [val_main_v43_apply, val_main_v45_apply, val_main_v52_apply, sq_left_idx, sq_right_idx, dot_left_idx, dot_right_idx,
    Ideal.hostUnary_exp_def, Ideal.mulf_def, Ideal.addf_def, Ideal.subf_def, Ideal.maximumf_def, Ideal.ofBits_def]
  simp only [Cert.RbfSpec.kern, Cert.RbfSpec.dot, Cert.RbfSpec.row, Ideal.ofBits_zero_f32, zero_add]

/-- The mean of a pair of arrays: the sum over every index of the square array of entries, started at zero, is the double
    sum over the rows of the two arrays, and the quotient is by `2²⁶`. -/
theorem mean_eq (x0 x1 : FVec Ideal S8192x256 .f32) (i : S_.Idx) :
    val_main_v63 (F := Ideal) x0 x1 i = Ideal.div (Cert.RbfSpec.pairSum x0 x1) Cert.RbfSpec.cnt := by
  rw [val_main_v63_apply, val_main_v62_apply, val_main_cst_18_apply, val_main_cst_19_apply, ValueIdx.sum_idx2]
  simp only [entry_eq, Ideal.hostDivf_def, Ideal.ofBits_def, Ideal.ofBits_zero_f32, zero_add, Cert.RbfSpec.pairSum]

/-- The first mean is the same chain of stages at the pair `(x, x)`. -/
theorem mean_left_eq (x0 : FVec Ideal S8192x256 .f32) : val_main_v20 (F := Ideal) x0 = val_main_v63 (F := Ideal) x0 x0 := rfl

/-- The second mean is the same chain of stages at the pair `(y, y)`. -/
theorem mean_right_eq (x1 : FVec Ideal S8192x256 .f32) : val_main_v41 (F := Ideal) x1 = val_main_v63 (F := Ideal) x1 x1 := rfl

/-! ## The result -/

/-- The last stage is `(mean x x + mean y y) − 2 · mean x y` at its one index: the specification's function of the three
    pair sums. -/
theorem result_eq (x0 x1 : FVec Ideal S8192x256 .f32) :
    val_main_v65 (F := Ideal) x0 x1 = fun _ => Cert.RbfSpec.referenceResult (Cert.RbfSpec.pairSum x0 x0) (Cert.RbfSpec.pairSum x1 x1) (Cert.RbfSpec.pairSum x0 x1) := by
  funext i
  rw [val_main_v65_apply, val_main_v42_apply, val_main_v64_apply, val_main_cst_20_apply, mean_left_eq, mean_right_eq,
    mean_eq, mean_eq, mean_eq]
  simp only [Ideal.subf_def, Ideal.addf_def, Ideal.mulf_def, Ideal.ofBits_def, Cert.RbfSpec.referenceResult]

/-- Every weakly fair execution of the reference terminates with its result at the specification's function of the two
    argument arrays' launch contents, and the arguments unchanged. -/
theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v65)
          = (fun _ => Cert.RbfSpec.referenceResult
              (Cert.RbfSpec.pairSum (m ((c.tc : Thread _ _).loc Cert.ReferenceIdeal.main_arg0) : (⟨2, ![8192, 256]⟩ : Shape).Idx → EReal) (m ((c.tc : Thread _ _).loc Cert.ReferenceIdeal.main_arg0) : (⟨2, ![8192, 256]⟩ : Shape).Idx → EReal))
              (Cert.RbfSpec.pairSum (m ((c.tc : Thread _ _).loc Cert.ReferenceIdeal.main_arg1) : (⟨2, ![8192, 256]⟩ : Shape).Idx → EReal) (m ((c.tc : Thread _ _).loc Cert.ReferenceIdeal.main_arg1) : (⟨2, ![8192, 256]⟩ : Shape).Idx → EReal))
              (Cert.RbfSpec.pairSum (m ((c.tc : Thread _ _).loc Cert.ReferenceIdeal.main_arg0) : (⟨2, ![8192, 256]⟩ : Shape).Idx → EReal) (m ((c.tc : Thread _ _).loc Cert.ReferenceIdeal.main_arg1) : (⟨2, ![8192, 256]⟩ : Shape).Idx → EReal)))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run _ _ _).mono (fun _ h c => ⟨(h c).1.trans ((val_main_v65_eq (F := Ideal) _ _).trans (result_eq _ _)), (h c).2⟩)
    (Cert.ReferenceIdeal.Value.run (F := Ideal) m ρ)

end Cert.ReferenceIdeal.RefValue

end
-- ==== Proof.lean ====
/-
  The Pallas program sums a Gaussian kernel entry `exp(γ · max(‖a‖² + ‖b‖² − 2⟨a, b⟩, 0))` over every pair of rows of two
  8192×256 arrays, three times (source with itself, target with itself, source with target): each pallas_call walks an
  8×8 grid of 1024×1024 tiles, keeps a running 1×1 sum in scratch and writes it out at the last point; the host divides
  the sums by the count 2²⁶ and combines them. The reference computes the same three sums whole. Over the extended reals
  a sum does not depend on its grouping, so each call's total is the whole sum (the tiles partition the pairs of rows);
  the two programs then differ only in `(2 · s) / n` against `2 · (s / n)`, equal because the divisor is a nonzero real
  and the product is associative. No finiteness of the inputs is used.

  The frames: each call's body runs in three cases (first point: the scratch is zeroed first; middle points; last
  point: the total is also stored into the output window), the scratch carried through the region invariant; the two
  symmetric calls read ONE array through two windows, which hold it by halves. The program is the three calls among
  host stretches, over the thread state "every unscoped buffer at the boundary's contents".
-/
import proofs.«178194_j39135742001578_1_alg».proof.Defs
import proofs.«178194_j39135742001578_1_alg».proof.Proof.Gen.Kernel
import proofs.«178194_j39135742001578_1_alg».proof.Proof.Gen.KernelIdeal
import proofs.«178194_j39135742001578_1_alg».proof.Proof.Gen.ReferenceIdeal
import proofs.«178194_j39135742001578_1_alg».proof.Proof.Gen.Pre_finite_inputs
import proofs.«178194_j39135742001578_1_alg».proof.Proof.KMain
import proofs.«178194_j39135742001578_1_alg».proof.Proof.KIMain
import proofs.«178194_j39135742001578_1_alg».proof.Proof.KITail
import proofs.«178194_j39135742001578_1_alg».proof.Proof.RefValue
import proofs.«178194_j39135742001578_1_alg».proof.Proof.BlockSum
import Idealize.ShloMosaic.Adequacy
import Idealize.ShloMosaic.Init

noncomputable section

namespace Cert.Proof

open Idealize.ShloMosaic Idealize.SL.Sem

theorem frame_k : Cert.frame_Kernel := fun m ρ _ => Cert.Kernel.Rbf.frame m ρ
theorem frame_ki : Cert.frame_KernelIdeal := fun m ρ _ => Cert.KernelIdeal.Rbf.frame m ρ
theorem frame_ri : Cert.frame_ReferenceIdeal := fun m ρ _ =>
  (θ_run Cert.ReferenceIdeal.defs _ _).mono (fun _ h c => (h c).2) (Cert.ReferenceIdeal.RefValue.run_spec m ρ)

/-- Both programs end with the specification's value of the three sums of the (agreeing) argument arrays; the two
    spellings of that value are equal. -/
theorem algebraic : Cert.algebraic_KernelIdeal_ReferenceIdeal := by
  intro m ρ m' ρ' _ hagree
  refine ⟨fun c => fun _ => Cert.RbfSpec.kernelResult (Cert.KernelIdeal.RbfValue.sumSS m c) (Cert.KernelIdeal.RbfValue.sumTT m c) (Cert.KernelIdeal.RbfValue.sumST m c), ?_, ?_⟩
  · exact (θ_run Cert.KernelIdeal.defs _ _).mono (fun r h c =>
      ⟨(h c _ (Cert.KernelIdeal.Rbf.mem_uc Cert.KernelIdeal.main_v11 (by decide))).trans (Cert.KernelIdeal.RbfValue.W6_v11 m c),
        (h c _ (Cert.KernelIdeal.Rbf.mem_uc Cert.KernelIdeal.main_arg0 (by decide))).trans (Cert.KernelIdeal.Rbf.W6_main_arg0 m c),
        (h c _ (Cert.KernelIdeal.Rbf.mem_uc Cert.KernelIdeal.main_arg1 (by decide))).trans (Cert.KernelIdeal.Rbf.W6_main_arg1 m c)⟩)
      (Cert.KernelIdeal.Rbf.run_all m ρ)
  · refine (θ_run Cert.ReferenceIdeal.defs _ _).mono (fun r h c => ⟨(h c).1.trans ?_, (h c).2⟩) (Cert.ReferenceIdeal.RefValue.run_spec m' ρ')
    rw [(hagree c).1, (hagree c).2]
    exact funext fun _ => (Cert.RbfSpec.results_eq _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
